-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S2048x512 : Shape := ⟨2, ![2048, 512]⟩
abbrev S4096x512 : Shape := ⟨2, ![4096, 512]⟩
abbrev S19 : Shape := ⟨1, ![19]⟩
abbrev S17 : Shape := ⟨1, ![17]⟩
abbrev S_ : Shape := ⟨0, ![]⟩
abbrev S1 : Shape := ⟨1, ![1]⟩
abbrev S16x512 : Shape := ⟨2, ![16, 512]⟩
abbrev S32x512 : Shape := ⟨2, ![32, 512]⟩
abbrev S64x512 : Shape := ⟨2, ![64, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .f32⟩
  | .hbm, ⟨1, _⟩ => ⟨S4096x512, .f32⟩
  | .local _ .vmem, ⟨0, _⟩ => ⟨S2048x512, .f32⟩
  | .local _ .vmem, ⟨1, _⟩ => ⟨S4096x512, .f32⟩
  | _, _ => ⟨S2048x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 1 75 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_16 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v17 : BitVec 32 := Scalar.muli v2 c2048_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1088_i32_15 : BitVec 32 := 1088#32
  let v22 : BitVec 32 := Scalar.muli v5 c1088_i32_15
  let v23 : BitVec 32 := Scalar.addi v22 c0_i32_16
  let v24 : BitVec 32 := Scalar.addi v17 v23
  let c0_i32_22 : BitVec 32 := 0#32
  ![v24.toNat, 0]
def k0_off2 (d0 : Dev nD) (c0_i32_14 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1088_i32 : BitVec 32 := 1088#32
  let v20 : BitVec 32 := Scalar.muli v5 c1088_i32
  let v21 : BitVec 32 := Scalar.addi v20 c0_i32_14
  let c0_i32_23 : BitVec 32 := 0#32
  ![v21.toNat, 0]
def k0_dev3 (d0 : Dev nD) : Nat :=
  let c0_i32_20 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_19 : BitVec 32 := 2#32
  let v25 : BitVec 32 := Scalar.muli v6 c2_i32_19
  let v26 : BitVec 32 := Scalar.addi c0_i32_20 v25
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_21 : BitVec 32 := 1#32
  let v27 : BitVec 32 := Scalar.muli v5 c1_i32_21
  let v28 : BitVec 32 := Scalar.addi v26 v27
  v28.toNat
def k0_dev4 (d0 : Dev nD) : Nat :=
  let c0_i32_30 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_29 : BitVec 32 := 2#32
  let v40 : BitVec 32 := Scalar.muli v6 c2_i32_29
  let v41 : BitVec 32 := Scalar.addi c0_i32_30 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_31 : BitVec 32 := 1#32
  let v42 : BitVec 32 := Scalar.muli v5 c1_i32_31
  let v43 : BitVec 32 := Scalar.addi v41 v42
  v43.toNat
def k0_off3 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v17 : BitVec 32 := Scalar.muli v2 c2048_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1088_i32_35 : BitVec 32 := 1088#32
  let v52 : BitVec 32 := Scalar.muli v5 c1088_i32_35
  let c32_i32_36 : BitVec 32 := 32#32
  let v53 : BitVec 32 := Scalar.addi v52 c32_i32_36
  let v54 : BitVec 32 := Scalar.addi v17 v53
  let c0_i32_42 : BitVec 32 := 0#32
  ![v54.toNat, 0]
def k0_off4 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1088_i32_34 : BitVec 32 := 1088#32
  let v50 : BitVec 32 := Scalar.muli v5 c1088_i32_34
  let c32_i32 : BitVec 32 := 32#32
  let v51 : BitVec 32 := Scalar.addi v50 c32_i32
  let c0_i32_43 : BitVec 32 := 0#32
  ![v51.toNat, 0]
def k0_dev5 (d0 : Dev nD) : Nat :=
  let c0_i32_40 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_39 : BitVec 32 := 2#32
  let v55 : BitVec 32 := Scalar.muli v6 c2_i32_39
  let v56 : BitVec 32 := Scalar.addi c0_i32_40 v55
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v57 : BitVec 32 := Scalar.muli v5 c1_i32_41
  let v58 : BitVec 32 := Scalar.addi v56 v57
  v58.toNat
def k0_off5 (d0 : Dev nD) (c64_i32_46 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v17 : BitVec 32 := Scalar.muli v2 c2048_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1088_i32_45 : BitVec 32 := 1088#32
  let v67 : BitVec 32 := Scalar.muli v5 c1088_i32_45
  let v68 : BitVec 32 := Scalar.addi v67 c64_i32_46
  let v69 : BitVec 32 := Scalar.addi v17 v68
  let c0_i32_51 : BitVec 32 := 0#32
  ![v69.toNat, 0]
def k0_off6 (d0 : Dev nD) (c64_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1088_i32_44 : BitVec 32 := 1088#32
  let v65 : BitVec 32 := Scalar.muli v5 c1088_i32_44
  let v66 : BitVec 32 := Scalar.addi v65 c64_i32
  let c0_i32_52 : BitVec 32 := 0#32
  ![v66.toNat, 0]
def k0_dev6 (d0 : Dev nD) : Nat :=
  let c0_i32_49 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_48 : BitVec 32 := 2#32
  let v70 : BitVec 32 := Scalar.muli v6 c2_i32_48
  let v71 : BitVec 32 := Scalar.addi c0_i32_49 v70
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_50 : BitVec 32 := 1#32
  let v72 : BitVec 32 := Scalar.muli v5 c1_i32_50
  let v73 : BitVec 32 := Scalar.addi v71 v72
  v73.toNat
def k0_dev7 (d0 : Dev nD) : Nat :=
  let c0_i32_58 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_57 : BitVec 32 := 2#32
  let v85 : BitVec 32 := Scalar.muli v6 c2_i32_57
  let v86 : BitVec 32 := Scalar.addi c0_i32_58 v85
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_59 : BitVec 32 := 1#32
  let v87 : BitVec 32 := Scalar.muli v5 c1_i32_59
  let v88 : BitVec 32 := Scalar.addi v86 v87
  v88.toNat
def k0_dev8 (d0 : Dev nD) : Nat :=
  let c0_i32_67 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_66 : BitVec 32 := 2#32
  let v100 : BitVec 32 := Scalar.muli v6 c2_i32_66
  let v101 : BitVec 32 := Scalar.addi c0_i32_67 v100
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_68 : BitVec 32 := 1#32
  let v102 : BitVec 32 := Scalar.muli v5 c1_i32_68
  let v103 : BitVec 32 := Scalar.addi v101 v102
  v103.toNat
def k0_dev9 (d0 : Dev nD) : Nat :=
  let c0_i32_76 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_75 : BitVec 32 := 2#32
  let v115 : BitVec 32 := Scalar.muli v6 c2_i32_75
  let v116 : BitVec 32 := Scalar.addi c0_i32_76 v115
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_77 : BitVec 32 := 1#32
  let v117 : BitVec 32 := Scalar.muli v5 c1_i32_77
  let v118 : BitVec 32 := Scalar.addi v116 v117
  v118.toNat
def k0_dev10 (d0 : Dev nD) : Nat :=
  let c0_i32_85 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_84 : BitVec 32 := 2#32
  let v130 : BitVec 32 := Scalar.muli v6 c2_i32_84
  let v131 : BitVec 32 := Scalar.addi c0_i32_85 v130
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_86 : BitVec 32 := 1#32
  let v132 : BitVec 32 := Scalar.muli v5 c1_i32_86
  let v133 : BitVec 32 := Scalar.addi v131 v132
  v133.toNat
def k0_dev11 (d0 : Dev nD) : Nat :=
  let c0_i32_94 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_93 : BitVec 32 := 2#32
  let v145 : BitVec 32 := Scalar.muli v6 c2_i32_93
  let v146 : BitVec 32 := Scalar.addi c0_i32_94 v145
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_95 : BitVec 32 := 1#32
  let v147 : BitVec 32 := Scalar.muli v5 c1_i32_95
  let v148 : BitVec 32 := Scalar.addi v146 v147
  v148.toNat
def k0_dev12 (d0 : Dev nD) : Nat :=
  let c0_i32_103 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_102 : BitVec 32 := 2#32
  let v160 : BitVec 32 := Scalar.muli v6 c2_i32_102
  let v161 : BitVec 32 := Scalar.addi c0_i32_103 v160
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_104 : BitVec 32 := 1#32
  let v162 : BitVec 32 := Scalar.muli v5 c1_i32_104
  let v163 : BitVec 32 := Scalar.addi v161 v162
  v163.toNat
def k0_dev13 (d0 : Dev nD) : Nat :=
  let c0_i32_112 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_111 : BitVec 32 := 2#32
  let v175 : BitVec 32 := Scalar.muli v6 c2_i32_111
  let v176 : BitVec 32 := Scalar.addi c0_i32_112 v175
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_113 : BitVec 32 := 1#32
  let v177 : BitVec 32 := Scalar.muli v5 c1_i32_113
  let v178 : BitVec 32 := Scalar.addi v176 v177
  v178.toNat
def k0_dev14 (d0 : Dev nD) : Nat :=
  let c0_i32_121 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_120 : BitVec 32 := 2#32
  let v190 : BitVec 32 := Scalar.muli v6 c2_i32_120
  let v191 : BitVec 32 := Scalar.addi c0_i32_121 v190
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_122 : BitVec 32 := 1#32
  let v192 : BitVec 32 := Scalar.muli v5 c1_i32_122
  let v193 : BitVec 32 := Scalar.addi v191 v192
  v193.toNat
def k0_dev15 (d0 : Dev nD) : Nat :=
  let c0_i32_130 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_129 : BitVec 32 := 2#32
  let v205 : BitVec 32 := Scalar.muli v6 c2_i32_129
  let v206 : BitVec 32 := Scalar.addi c0_i32_130 v205
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_131 : BitVec 32 := 1#32
  let v207 : BitVec 32 := Scalar.muli v5 c1_i32_131
  let v208 : BitVec 32 := Scalar.addi v206 v207
  v208.toNat
def k0_dev16 (d0 : Dev nD) : Nat :=
  let c0_i32_139 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_138 : BitVec 32 := 2#32
  let v220 : BitVec 32 := Scalar.muli v6 c2_i32_138
  let v221 : BitVec 32 := Scalar.addi c0_i32_139 v220
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_140 : BitVec 32 := 1#32
  let v222 : BitVec 32 := Scalar.muli v5 c1_i32_140
  let v223 : BitVec 32 := Scalar.addi v221 v222
  v223.toNat
def k0_dev17 (d0 : Dev nD) : Nat :=
  let c0_i32_148 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_147 : BitVec 32 := 2#32
  let v235 : BitVec 32 := Scalar.muli v6 c2_i32_147
  let v236 : BitVec 32 := Scalar.addi c0_i32_148 v235
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_149 : BitVec 32 := 1#32
  let v237 : BitVec 32 := Scalar.muli v5 c1_i32_149
  let v238 : BitVec 32 := Scalar.addi v236 v237
  v238.toNat
def k0_dev18 (d0 : Dev nD) : Nat :=
  let c0_i32_157 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_156 : BitVec 32 := 2#32
  let v250 : BitVec 32 := Scalar.muli v6 c2_i32_156
  let v251 : BitVec 32 := Scalar.addi c0_i32_157 v250
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_158 : BitVec 32 := 1#32
  let v252 : BitVec 32 := Scalar.muli v5 c1_i32_158
  let v253 : BitVec 32 := Scalar.addi v251 v252
  v253.toNat
def k0_dev19 (d0 : Dev nD) : Nat :=
  let c0_i32_167 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_166 : BitVec 32 := 2#32
  let v265 : BitVec 32 := Scalar.muli v6 c2_i32_166
  let v266 : BitVec 32 := Scalar.addi c0_i32_167 v265
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_168 : BitVec 32 := 1#32
  let v267 : BitVec 32 := Scalar.muli v5 c1_i32_168
  let v268 : BitVec 32 := Scalar.addi v266 v267
  v268.toNat
def k0_off7 (d0 : Dev nD) (c960_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v17 : BitVec 32 := Scalar.muli v2 c2048_i32
  let v275 : BitVec 32 := Scalar.addi v17 c960_i32
  let c0_i32_175 : BitVec 32 := 0#32
  ![v275.toNat, 0]
def k0_dev20 (d0 : Dev nD) : Nat :=
  let c0_i32_173 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_172 : BitVec 32 := 2#32
  let v276 : BitVec 32 := Scalar.muli v6 c2_i32_172
  let v277 : BitVec 32 := Scalar.addi c0_i32_173 v276
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_174 : BitVec 32 := 1#32
  let v278 : BitVec 32 := Scalar.muli v5 c1_i32_174
  let v279 : BitVec 32 := Scalar.addi v277 v278
  v279.toNat
def k0_dev21 (d0 : Dev nD) : Nat :=
  let c0_i32_180 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_179 : BitVec 32 := 2#32
  let v287 : BitVec 32 := Scalar.muli v6 c2_i32_179
  let v288 : BitVec 32 := Scalar.addi c0_i32_180 v287
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_181 : BitVec 32 := 1#32
  let v289 : BitVec 32 := Scalar.muli v5 c1_i32_181
  let v290 : BitVec 32 := Scalar.addi v288 v289
  v290.toNat
def k0_off8 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v17 : BitVec 32 := Scalar.muli v2 c2048_i32
  let c0_i32_185 : BitVec 32 := 0#32
  ![v17.toNat, 0]
def k0_off9 (d0 : Dev nD) (c0_i32_196 : BitVec 32) : Fin 2 → Nat :=
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_12 v2
  let c2048_i32_13 : BitVec 32 := 2048#32
  let v19 : BitVec 32 := Scalar.muli v18 c2048_i32_13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1088_i32_195 : BitVec 32 := 1088#32
  let v309 : BitVec 32 := Scalar.muli v5 c1088_i32_195
  let v310 : BitVec 32 := Scalar.addi v309 c0_i32_196
  let v311 : BitVec 32 := Scalar.addi v19 v310
  let c0_i32_202 : BitVec 32 := 0#32
  ![v311.toNat, 0]
def k0_dev22 (d0 : Dev nD) : Nat :=
  let c0_i32_200 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_199 : BitVec 32 := 2#32
  let v312 : BitVec 32 := Scalar.muli v2 c2_i32_199
  let v313 : BitVec 32 := Scalar.addi c0_i32_200 v312
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_201 : BitVec 32 := 1#32
  let v314 : BitVec 32 := Scalar.muli v7 c1_i32_201
  let v315 : BitVec 32 := Scalar.addi v313 v314
  v315.toNat
def k0_dev23 (d0 : Dev nD) : Nat :=
  let c0_i32_218 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_217 : BitVec 32 := 2#32
  let v336 : BitVec 32 := Scalar.muli v2 c2_i32_217
  let v337 : BitVec 32 := Scalar.addi c0_i32_218 v336
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_219 : BitVec 32 := 1#32
  let v338 : BitVec 32 := Scalar.muli v7 c1_i32_219
  let v339 : BitVec 32 := Scalar.addi v337 v338
  v339.toNat
def k0_off10 (d0 : Dev nD) : Fin 2 → Nat :=
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_12 v2
  let c2048_i32_13 : BitVec 32 := 2048#32
  let v19 : BitVec 32 := Scalar.muli v18 c2048_i32_13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1088_i32_231 : BitVec 32 := 1088#32
  let v357 : BitVec 32 := Scalar.muli v5 c1088_i32_231
  let c32_i32_232 : BitVec 32 := 32#32
  let v358 : BitVec 32 := Scalar.addi v357 c32_i32_232
  let v359 : BitVec 32 := Scalar.addi v19 v358
  let c0_i32_238 : BitVec 32 := 0#32
  ![v359.toNat, 0]
def k0_dev24 (d0 : Dev nD) : Nat :=
  let c0_i32_236 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_235 : BitVec 32 := 2#32
  let v360 : BitVec 32 := Scalar.muli v2 c2_i32_235
  let v361 : BitVec 32 := Scalar.addi c0_i32_236 v360
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_237 : BitVec 32 := 1#32
  let v362 : BitVec 32 := Scalar.muli v7 c1_i32_237
  let v363 : BitVec 32 := Scalar.addi v361 v362
  v363.toNat
def k0_off11 (d0 : Dev nD) (c64_i32_250 : BitVec 32) : Fin 2 → Nat :=
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_12 v2
  let c2048_i32_13 : BitVec 32 := 2048#32
  let v19 : BitVec 32 := Scalar.muli v18 c2048_i32_13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1088_i32_249 : BitVec 32 := 1088#32
  let v381 : BitVec 32 := Scalar.muli v5 c1088_i32_249
  let v382 : BitVec 32 := Scalar.addi v381 c64_i32_250
  let v383 : BitVec 32 := Scalar.addi v19 v382
  let c0_i32_256 : BitVec 32 := 0#32
  ![v383.toNat, 0]
def k0_dev25 (d0 : Dev nD) : Nat :=
  let c0_i32_254 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_253 : BitVec 32 := 2#32
  let v384 : BitVec 32 := Scalar.muli v2 c2_i32_253
  let v385 : BitVec 32 := Scalar.addi c0_i32_254 v384
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_255 : BitVec 32 := 1#32
  let v386 : BitVec 32 := Scalar.muli v7 c1_i32_255
  let v387 : BitVec 32 := Scalar.addi v385 v386
  v387.toNat
def k0_dev26 (d0 : Dev nD) : Nat :=
  let c0_i32_272 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_271 : BitVec 32 := 2#32
  let v408 : BitVec 32 := Scalar.muli v2 c2_i32_271
  let v409 : BitVec 32 := Scalar.addi c0_i32_272 v408
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_273 : BitVec 32 := 1#32
  let v410 : BitVec 32 := Scalar.muli v7 c1_i32_273
  let v411 : BitVec 32 := Scalar.addi v409 v410
  v411.toNat
def k0_dev27 (d0 : Dev nD) : Nat :=
  let c0_i32_290 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_289 : BitVec 32 := 2#32
  let v432 : BitVec 32 := Scalar.muli v2 c2_i32_289
  let v433 : BitVec 32 := Scalar.addi c0_i32_290 v432
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_291 : BitVec 32 := 1#32
  let v434 : BitVec 32 := Scalar.muli v7 c1_i32_291
  let v435 : BitVec 32 := Scalar.addi v433 v434
  v435.toNat
def k0_dev28 (d0 : Dev nD) : Nat :=
  let c0_i32_308 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_307 : BitVec 32 := 2#32
  let v456 : BitVec 32 := Scalar.muli v2 c2_i32_307
  let v457 : BitVec 32 := Scalar.addi c0_i32_308 v456
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_309 : BitVec 32 := 1#32
  let v458 : BitVec 32 := Scalar.muli v7 c1_i32_309
  let v459 : BitVec 32 := Scalar.addi v457 v458
  v459.toNat
def k0_dev29 (d0 : Dev nD) : Nat :=
  let c0_i32_326 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_325 : BitVec 32 := 2#32
  let v480 : BitVec 32 := Scalar.muli v2 c2_i32_325
  let v481 : BitVec 32 := Scalar.addi c0_i32_326 v480
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_327 : BitVec 32 := 1#32
  let v482 : BitVec 32 := Scalar.muli v7 c1_i32_327
  let v483 : BitVec 32 := Scalar.addi v481 v482
  v483.toNat
def k0_dev30 (d0 : Dev nD) : Nat :=
  let c0_i32_344 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_343 : BitVec 32 := 2#32
  let v504 : BitVec 32 := Scalar.muli v2 c2_i32_343
  let v505 : BitVec 32 := Scalar.addi c0_i32_344 v504
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_345 : BitVec 32 := 1#32
  let v506 : BitVec 32 := Scalar.muli v7 c1_i32_345
  let v507 : BitVec 32 := Scalar.addi v505 v506
  v507.toNat
def k0_dev31 (d0 : Dev nD) : Nat :=
  let c0_i32_362 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_361 : BitVec 32 := 2#32
  let v528 : BitVec 32 := Scalar.muli v2 c2_i32_361
  let v529 : BitVec 32 := Scalar.addi c0_i32_362 v528
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_363 : BitVec 32 := 1#32
  let v530 : BitVec 32 := Scalar.muli v7 c1_i32_363
  let v531 : BitVec 32 := Scalar.addi v529 v530
  v531.toNat
def k0_dev32 (d0 : Dev nD) : Nat :=
  let c0_i32_380 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_379 : BitVec 32 := 2#32
  let v552 : BitVec 32 := Scalar.muli v2 c2_i32_379
  let v553 : BitVec 32 := Scalar.addi c0_i32_380 v552
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_381 : BitVec 32 := 1#32
  let v554 : BitVec 32 := Scalar.muli v7 c1_i32_381
  let v555 : BitVec 32 := Scalar.addi v553 v554
  v555.toNat
def k0_dev33 (d0 : Dev nD) : Nat :=
  let c0_i32_398 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_397 : BitVec 32 := 2#32
  let v576 : BitVec 32 := Scalar.muli v2 c2_i32_397
  let v577 : BitVec 32 := Scalar.addi c0_i32_398 v576
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_399 : BitVec 32 := 1#32
  let v578 : BitVec 32 := Scalar.muli v7 c1_i32_399
  let v579 : BitVec 32 := Scalar.addi v577 v578
  v579.toNat
def k0_dev34 (d0 : Dev nD) : Nat :=
  let c0_i32_416 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_415 : BitVec 32 := 2#32
  let v600 : BitVec 32 := Scalar.muli v2 c2_i32_415
  let v601 : BitVec 32 := Scalar.addi c0_i32_416 v600
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_417 : BitVec 32 := 1#32
  let v602 : BitVec 32 := Scalar.muli v7 c1_i32_417
  let v603 : BitVec 32 := Scalar.addi v601 v602
  v603.toNat
def k0_dev35 (d0 : Dev nD) : Nat :=
  let c0_i32_434 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_433 : BitVec 32 := 2#32
  let v624 : BitVec 32 := Scalar.muli v2 c2_i32_433
  let v625 : BitVec 32 := Scalar.addi c0_i32_434 v624
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_435 : BitVec 32 := 1#32
  let v626 : BitVec 32 := Scalar.muli v7 c1_i32_435
  let v627 : BitVec 32 := Scalar.addi v625 v626
  v627.toNat
def k0_dev36 (d0 : Dev nD) : Nat :=
  let c0_i32_452 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_451 : BitVec 32 := 2#32
  let v648 : BitVec 32 := Scalar.muli v2 c2_i32_451
  let v649 : BitVec 32 := Scalar.addi c0_i32_452 v648
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_453 : BitVec 32 := 1#32
  let v650 : BitVec 32 := Scalar.muli v7 c1_i32_453
  let v651 : BitVec 32 := Scalar.addi v649 v650
  v651.toNat
def k0_dev37 (d0 : Dev nD) : Nat :=
  let c0_i32_470 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_469 : BitVec 32 := 2#32
  let v672 : BitVec 32 := Scalar.muli v2 c2_i32_469
  let v673 : BitVec 32 := Scalar.addi c0_i32_470 v672
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_471 : BitVec 32 := 1#32
  let v674 : BitVec 32 := Scalar.muli v7 c1_i32_471
  let v675 : BitVec 32 := Scalar.addi v673 v674
  v675.toNat
def k0_dev38 (d0 : Dev nD) : Nat :=
  let c0_i32_488 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_487 : BitVec 32 := 2#32
  let v696 : BitVec 32 := Scalar.muli v2 c2_i32_487
  let v697 : BitVec 32 := Scalar.addi c0_i32_488 v696
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_489 : BitVec 32 := 1#32
  let v698 : BitVec 32 := Scalar.muli v7 c1_i32_489
  let v699 : BitVec 32 := Scalar.addi v697 v698
  v699.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S19_S1_0 : ∀ a, (![0] : Fin 1 → Nat) a + S1.size a ≤ S19.size a
  squeezes_S1_S_ : S1.Squeezes S_
  inb_S19_S1_1 : ∀ a, (![1] : Fin 1 → Nat) a + S1.size a ≤ S19.size a
  inb_S19_S1_2 : ∀ a, (![2] : Fin 1 → Nat) a + S1.size a ≤ S19.size a
  inb_S19_S1_3 : ∀ a, (![3] : Fin 1 → Nat) a + S1.size a ≤ S19.size a
  inb_S19_S1_4 : ∀ a, (![4] : Fin 1 → Nat) a + S1.size a ≤ S19.size a
  inb_S19_S1_5 : ∀ a, (![5] : Fin 1 → Nat) a + S1.size a ≤ S19.size a
  inb_S19_S1_6 : ∀ a, (![6] : Fin 1 → Nat) a + S1.size a ≤ S19.size a
  inb_S19_S1_7 : ∀ a, (![7] : Fin 1 → Nat) a + S1.size a ≤ S19.size a
  inb_S19_S1_8 : ∀ a, (![8] : Fin 1 → Nat) a + S1.size a ≤ S19.size a
  inb_S19_S1_9 : ∀ a, (![9] : Fin 1 → Nat) a + S1.size a ≤ S19.size a
  inb_S19_S1_10 : ∀ a, (![10] : Fin 1 → Nat) a + S1.size a ≤ S19.size a
  inb_S19_S1_11 : ∀ a, (![11] : Fin 1 → Nat) a + S1.size a ≤ S19.size a
  inb_S19_S1_12 : ∀ a, (![12] : Fin 1 → Nat) a + S1.size a ≤ S19.size a
  inb_S19_S1_13 : ∀ a, (![13] : Fin 1 → Nat) a + S1.size a ≤ S19.size a
  inb_S19_S1_14 : ∀ a, (![14] : Fin 1 → Nat) a + S1.size a ≤ S19.size a
  inb_S19_S1_15 : ∀ a, (![15] : Fin 1 → Nat) a + S1.size a ≤ S19.size a
  inb_S19_S1_16 : ∀ a, (![16] : Fin 1 → Nat) a + S1.size a ≤ S19.size a
  inb_S19_S1_17 : ∀ a, (![17] : Fin 1 → Nat) a + S1.size a ≤ S19.size a
  inb_S2048x512_S64x512_960_0 : ∀ a, (![960, 0] : Fin 2 → Nat) a + S64x512.size a ≤ S2048x512.size a
  inb_S19_S1_18 : ∀ a, (![18] : Fin 1 → Nat) a + S1.size a ≤ S19.size a
  inb_S2048x512_S64x512_1024_0 : ∀ a, (![1024, 0] : Fin 2 → Nat) a + S64x512.size a ≤ S2048x512.size a
  inb_S17_S1_0 : ∀ a, (![0] : Fin 1 → Nat) a + S1.size a ≤ S17.size a
  inb_S17_S1_1 : ∀ a, (![1] : Fin 1 → Nat) a + S1.size a ≤ S17.size a
  inb_S17_S1_2 : ∀ a, (![2] : Fin 1 → Nat) a + S1.size a ≤ S17.size a
  inb_S17_S1_3 : ∀ a, (![3] : Fin 1 → Nat) a + S1.size a ≤ S17.size a
  inb_S17_S1_4 : ∀ a, (![4] : Fin 1 → Nat) a + S1.size a ≤ S17.size a
  inb_S17_S1_5 : ∀ a, (![5] : Fin 1 → Nat) a + S1.size a ≤ S17.size a
  inb_S17_S1_6 : ∀ a, (![6] : Fin 1 → Nat) a + S1.size a ≤ S17.size a
  inb_S17_S1_7 : ∀ a, (![7] : Fin 1 → Nat) a + S1.size a ≤ S17.size a
  inb_S17_S1_8 : ∀ a, (![8] : Fin 1 → Nat) a + S1.size a ≤ S17.size a
  inb_S17_S1_9 : ∀ a, (![9] : Fin 1 → Nat) a + S1.size a ≤ S17.size a
  inb_S17_S1_10 : ∀ a, (![10] : Fin 1 → Nat) a + S1.size a ≤ S17.size a
  inb_S17_S1_11 : ∀ a, (![11] : Fin 1 → Nat) a + S1.size a ≤ S17.size a
  inb_S17_S1_12 : ∀ a, (![12] : Fin 1 → Nat) a + S1.size a ≤ S17.size a
  inb_S17_S1_13 : ∀ a, (![13] : Fin 1 → Nat) a + S1.size a ≤ S17.size a
  inb_S17_S1_14 : ∀ a, (![14] : Fin 1 → Nat) a + S1.size a ≤ S17.size a
  inb_S17_S1_15 : ∀ a, (![15] : Fin 1 → Nat) a + S1.size a ≤ S17.size a
  inb_S17_S1_16 : ∀ a, (![16] : Fin 1 → Nat) a + S1.size a ≤ S17.size a
  hcc0_scratch0 : 2 + S19.numel ≤ 75
  hcc0_scratch1 : 21 + S19.numel ≤ 75
  hcc0_scratch2 : 40 + S17.numel ≤ 75
  hcc0_scratch3 : 57 + S17.numel ≤ 75
  hcc0_scratch4 : 74 + S_.numel ≤ 75
  k0_dev1_lt : ∀ d0 : Dev nD, (k0_dev1 d0) < nD
  k0_dev2_lt : ∀ d0 : Dev nD, (k0_dev2 d0) < nD
  k0_off1_inb : ∀ d0 : Dev nD, ∀ (r : Fin 2), ∀ a, (k0_off1 d0 (BitVec.ofNat 32 (16 * r.val))) a + S16x512.size a ≤ S4096x512.size a
  k0_off2_inb : ∀ d0 : Dev nD, ∀ (r : Fin 2), ∀ a, (k0_off2 d0 (BitVec.ofNat 32 (16 * r.val))) a + S16x512.size a ≤ S2048x512.size a
  k0_dev3_lt : ∀ d0 : Dev nD, (k0_dev3 d0) < nD
  k0_dev4_lt : ∀ d0 : Dev nD, (k0_dev4 d0) < nD
  k0_off3_inb : ∀ d0 : Dev nD, ∀ a, (k0_off3 d0) a + S32x512.size a ≤ S4096x512.size a
  k0_off4_inb : ∀ d0 : Dev nD, ∀ a, (k0_off4 d0) a + S32x512.size a ≤ S2048x512.size a
  k0_dev5_lt : ∀ d0 : Dev nD, (k0_dev5 d0) < nD
  k0_off5_inb : ∀ d0 : Dev nD, ∀ (r : Fin 14), ∀ a, (k0_off5 d0 (BitVec.ofNat 32 (64 + 64 * r.val))) a + S64x512.size a ≤ S4096x512.size a
  k0_off6_inb : ∀ d0 : Dev nD, ∀ (r : Fin 14), ∀ a, (k0_off6 d0 (BitVec.ofNat 32 (64 + 64 * r.val))) a + S64x512.size a ≤ S2048x512.size a
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_off7_inb : ∀ d0 : Dev nD, ∀ (r : Fin 2), ∀ a, (k0_off7 d0 (BitVec.ofNat 32 (960 + 64 * r.val))) a + S64x512.size a ≤ S4096x512.size a
  k0_dev20_lt : ∀ d0 : Dev nD, (k0_dev20 d0) < nD
  k0_dev21_lt : ∀ d0 : Dev nD, (k0_dev21 d0) < nD
  k0_off8_inb : ∀ d0 : Dev nD, ∀ a, (k0_off8 d0) a + S2048x512.size a ≤ S4096x512.size a
  k0_off9_inb : ∀ d0 : Dev nD, ∀ (r : Fin 2), ∀ a, (k0_off9 d0 (BitVec.ofNat 32 (16 * r.val))) a + S16x512.size a ≤ S4096x512.size a
  k0_dev22_lt : ∀ d0 : Dev nD, (k0_dev22 d0) < nD
  k0_dev23_lt : ∀ d0 : Dev nD, (k0_dev23 d0) < nD
  k0_off10_inb : ∀ d0 : Dev nD, ∀ a, (k0_off10 d0) a + S32x512.size a ≤ S4096x512.size a
  k0_dev24_lt : ∀ d0 : Dev nD, (k0_dev24 d0) < nD
  k0_off11_inb : ∀ d0 : Dev nD, ∀ (r : Fin 14), ∀ a, (k0_off11 d0 (BitVec.ofNat 32 (64 + 64 * r.val))) a + S64x512.size a ≤ S4096x512.size a
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  hstage0_0 : ∀ j, (stage0_0 j).IsWhole
  hstage0_1 : ∀ j, (stage0_1 j).IsWhole

variable [Facts₀]

abbrev cc0_scratch0 : DmaSems sig S19 := SemArray.consecutive 2 S19 hcc0_scratch0
abbrev cc0_scratch1 : DmaSems sig S19 := SemArray.consecutive 21 S19 hcc0_scratch1
abbrev cc0_scratch2 : DmaSems sig S17 := SemArray.consecutive 40 S17 hcc0_scratch2
abbrev cc0_scratch3 : DmaSems sig S17 := SemArray.consecutive 57 S17 hcc0_scratch3
abbrev cc0_scratch4 : DmaSems sig S_ := SemArray.consecutive 74 S_ hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Geom.lean ====
/-
  The geometry of a 2 × 2 all-gather, as arithmetic on row ranges.

  Device d = 2·x + y of the mesh holds rows [2048·x, 2048·x + 2048) of the 4096 × 512 array. Every device ends with the
  whole array: its own block by a local copy, and its row-mate's block (the device with the other x and the same y) in
  two parts — the first 1088 rows (y = 0) or the last 1088 rows (y = 1) straight from the row-mate, cut in 19 chunks of
  16, 16, 32, 64, …, 64 rows, and the other 960 rows (17 chunks) forwarded by its column-mate (same x, other y), which
  received them from ITS row-mate.  Here: the chunks' offsets and sizes, the rectangles they are, that the 37
  rectangles a device receives into tile its 4096 rows, which device an element of the result came from, and the
  index equations of each landing.
-/
import Idealize.ShloMosaic.Shape
import Mathlib.Tactic.FinCases
import Mathlib.Data.Finset.Union

set_option maxRecDepth 16384

namespace Cert.AG

open Idealize.ShloMosaic

/-- A device's block (2048 × 512) and the whole array (4096 × 512). -/
abbrev SX : Shape := ⟨2, ![2048, 512]⟩
abbrev SO : Shape := ⟨2, ![4096, 512]⟩

/-! ## The mesh -/

def dx (c : Fin 4) : ℕ := c.val / 2
def dy (c : Fin 4) : ℕ := c.val % 2
/-- The row-mate: the other x, the same y. -/
def xpeer (c : Fin 4) : Fin 4 := ⟨(c.val % 2 + 2) - 2 * (c.val / 2), by omega⟩
/-- The column-mate: the same x, the other y. -/
def ypeer (c : Fin 4) : Fin 4 := ⟨(2 * (c.val / 2) + 1) - c.val % 2, by omega⟩

theorem xpeer_xpeer (c : Fin 4) : xpeer (xpeer c) = c := by revert c; decide
theorem ypeer_ypeer (c : Fin 4) : ypeer (ypeer c) = c := by revert c; decide
theorem xpeer_ypeer (c : Fin 4) : xpeer (ypeer c) = ypeer (xpeer c) := by revert c; decide
theorem xpeer_ne (c : Fin 4) : xpeer c ≠ c := by revert c; decide
theorem ypeer_ne (c : Fin 4) : ypeer c ≠ c := by revert c; decide
theorem xpeer_ne_ypeer (c : Fin 4) : xpeer c ≠ ypeer c := by revert c; decide

/-! ## The chunks and the 37 row ranges of a result -/

/-- Chunk k's first row inside the forwarded 960 rows. -/
def cofF (k : ℕ) : ℕ := if k < 2 then 16 * k else if k = 2 then 32 else 64 * k - 128
/-- Chunk k's first row inside a block, on a device with coordinate y: chunks 0 … 16 lie in the part the column-mate
    lacks (rows 1088·y + …), chunks 17 and 18 in the middle 128 rows both parts share. -/
def coff (y k : ℕ) : ℕ := if k < 17 then 1088 * y + cofF k else 960 + 64 * (k - 17)

/-- The 37 row ranges device c's result is assembled from: t < 19 chunk t from the row-mate, 19 ≤ t < 36 chunk
    t − 19 from the column-mate, t = 36 its own block.  Rows: 16, 16, 32, 64, …; the own block's 2048. -/
def szO (t : ℕ) : ℕ := if t < 19 then (if t < 2 then 16 else if t = 2 then 32 else 64)
  else if t < 36 then (if t < 21 then 16 else if t = 21 then 32 else 64) else 2048
def loO (c : Fin 4) (t : ℕ) : ℕ :=
  if t < 19 then 2048 * (1 - dx c) + coff (dy c) t else if t < 36 then 2048 * (1 - dx c) + coff (1 - dy c) (t - 19) else 2048 * dx c

theorem szO_pos (t : ℕ) : 0 < szO t := by
  unfold szO
  repeat' split
  all_goals decide
theorem szO_y (k : Fin 17) : szO (k.val + 19) = szO k.val := by revert k; decide

/-! ## The rectangles -/

/-- Rows [lo, lo + n) of a block. -/
def rowsX (lo n : ℕ) (h : lo + n ≤ 2048) : Rect SX := Rect.unit ![lo, 0] ![n, 512] (Rect.inb₂ h (Nat.le_of_eq (Nat.zero_add 512)))
/-- Rows [lo, lo + n) of the whole array. -/
def rowsO (lo n : ℕ) (h : lo + n ≤ 4096) : Rect SO := Rect.unit ![lo, 0] ![n, 512] (Rect.inb₂ h (Nat.le_of_eq (Nat.zero_add 512)))

theorem xs_inb (c : Fin 4) (k : Fin 19) : coff (dy c) k + szO k ≤ 2048 := by revert c k; decide
/-- What device c sends its row-mate as chunk k: rows of its block. -/
def rectXs (c : Fin 4) (k : Fin 19) : Rect SX := rowsX (coff (dy c) k) (szO k) (xs_inb c k)

theorem regO_inb (c : Fin 4) (t : Fin 37) : loO c t + szO t ≤ 4096 := by revert c t; decide
def rectO (c : Fin 4) (t : Fin 37) : Rect SO := rowsO (loO c t) (szO t) (regO_inb c t)

/-- The region index of the x-chunks, the y-chunks and the own block. -/
def tX (k : Fin 19) : Fin 37 := ⟨k.val, by omega⟩
def tY (k : Fin 17) : Fin 37 := ⟨k.val + 19, by omega⟩
def tL : Fin 37 := ⟨36, by omega⟩

theorem regO_sep : ∀ (c : Fin 4) (t t' : Fin 37), t ≠ t' → loO c t + szO t ≤ loO c t' ∨ loO c t' + szO t' ≤ loO c t := by
  decide +kernel
theorem regO_cover16 : ∀ (c : Fin 4) (b : Fin 256), ∃ t : Fin 37, loO c t ≤ 16 * b.val ∧ 16 * b.val + 16 ≤ loO c t + szO t := by
  decide +kernel
theorem xs_sep : ∀ (c : Fin 4) (k k' : Fin 19), k ≠ k' → coff (dy c) k + szO k ≤ coff (dy c) k' ∨ coff (dy c) k' + szO k' ≤ coff (dy c) k := by
  decide +kernel

theorem regO_disjoint (c : Fin 4) (t t' : Fin 37) (h : t ≠ t') : Disjoint (rectO c t).set (rectO c t').set := by
  unfold rectO rowsO
  exact Rect.unit_disjoint 0 (regO_sep c t t' h)
theorem xs_disjoint (c : Fin 4) (k k' : Fin 19) (h : k ≠ k') : Disjoint (rectXs c k).set (rectXs c k').set := by
  unfold rectXs rowsX
  exact Rect.unit_disjoint 0 (xs_sep c k k' h)

theorem mem_rowsO {lo n : ℕ} {h : lo + n ≤ 4096} {i : SO.Idx} : i ∈ (rowsO lo n h).set ↔ lo ≤ (i 0).val ∧ (i 0).val < lo + n := by
  unfold rowsO
  rw [Rect.mem_set_unit, Fin.forall_fin_two]
  have h1 : ((i 1 : Fin _) : ℕ) < 512 := (i 1).isLt
  constructor
  · intro hh; exact hh.1
  · intro hh; exact ⟨hh, Nat.zero_le _, by simpa using h1⟩

/-- The 37 ranges tile the 4096 rows. -/
theorem regO_cover (c : Fin 4) : (Finset.univ : Finset SO.Idx) = Finset.univ.biUnion fun t : Fin 37 => (rectO c t).set := by
  ext i
  simp only [Finset.mem_univ, Finset.mem_biUnion, true_and, true_iff]
  have hr : (i 0).val < 4096 := (i 0).isLt
  obtain ⟨t, h1, h2⟩ := regO_cover16 c ⟨(i 0).val / 16, by omega⟩
  refine ⟨t, mem_rowsO.mpr ⟨?_, ?_⟩⟩
  · simp only at h1; omega
  · simp only at h2; omega

/-- A rectangle of rows given by its offsets and sizes is the rows it is. -/
theorem setX_eq {off sz : Fin 2 → ℕ} {inb : ∀ a, off a + sz a ≤ SX.size a} {lo n : ℕ} {h : lo + n ≤ 2048}
    (e1 : off = ![lo, 0]) (e3 : sz = ![n, 512]) : (Rect.unit (s := SX) off sz inb).set = (rowsX lo n h).set := by
  subst e1 e3; rfl
theorem setO_eq {off sz : Fin 2 → ℕ} {inb : ∀ a, off a + sz a ≤ SO.size a} {lo n : ℕ} {h : lo + n ≤ 4096}
    (e1 : off = ![lo, 0]) (e3 : sz = ![n, 512]) : (Rect.unit (s := SO) off sz inb).set = (rowsO lo n h).set := by
  subst e1 e3; rfl

/-! ## Where an element of the result came from -/

/-- Row r of a block lies in the part device (·, y) gets from its row-mate. -/
def inXzone (y r : ℕ) : Prop := if y = 0 then r < 1088 else 960 ≤ r
instance (y r : ℕ) : Decidable (inXzone y r) := by unfold inXzone; infer_instance

/-- The device whose block holds element i of device c's result. -/
def srcDev (c : Fin 4) (i : SO.Idx) : Fin 4 :=
  if (i 0).val / 2048 = dx c then c else if inXzone (dy c) ((i 0).val % 2048) then xpeer c else xpeer (ypeer c)

theorem SX_size_pos (a : Fin 2) : 0 < SX.size a := by fin_cases a <;> decide
/-- The element of a block an element of the whole array is. -/
def rowmod (i : SO.Idx) : SX.Idx := fun a => ⟨(i a).val % SX.size a, Nat.mod_lt _ (SX_size_pos a)⟩

theorem rowmod_ext {i : SO.Idx} {j : SX.Idx} (h0 : (i 0).val % 2048 = (j 0).val) (h1 : (i 1).val = (j 1).val) : rowmod i = j := by
  funext a
  fin_cases a
  · exact Fin.ext h0
  · refine Fin.ext ?_
    show (i 1).val % 512 = (j 1).val
    rw [h1]; exact Nat.mod_eq_of_lt (j 1).isLt

theorem embO_val {lo n : ℕ} {h : lo + n ≤ 4096} (y : (rowsO lo n h).shape.Idx) :
    ((rowsO lo n h).emb y 0).val = lo + (y 0).val ∧ ((rowsO lo n h).emb y 1).val = (y 1).val := by
  constructor
  · show (![lo, 0] : Fin 2 → ℕ) 0 + 1 * (y 0).val = lo + (y 0).val; simp
  · show (![lo, 0] : Fin 2 → ℕ) 1 + 1 * (y 1).val = (y 1).val; simp
theorem embX_val {lo n : ℕ} {h : lo + n ≤ 2048} (y : (rowsX lo n h).shape.Idx) :
    ((rowsX lo n h).emb y 0).val = lo + (y 0).val ∧ ((rowsX lo n h).emb y 1).val = (y 1).val := by
  constructor
  · show (![lo, 0] : Fin 2 → ℕ) 0 + 1 * (y 0).val = lo + (y 0).val; simp
  · show (![lo, 0] : Fin 2 → ℕ) 1 + 1 * (y 1).val = (y 1).val; simp

theorem x_facts (c : Fin 4) (k : Fin 19) :
    loO (xpeer c) k = 2048 * dx c + coff (dy c) k ∧ coff (dy c) k + szO k ≤ 2048 ∧ dx (xpeer c) ≠ dx c ∧ dx c ≤ 1
      ∧ (dy (xpeer c) = 0 → coff (dy c) k + szO k ≤ 1088) ∧ (dy (xpeer c) ≠ 0 → 960 ≤ coff (dy c) k) := by
  revert c k; decide

/-- An x-chunk landing on the row-mate: the element written came from c, and is the element of c's block sent. -/
theorem land_x (c : Fin 4) (k : Fin 19) (y : (⟨2, ![szO k, 512]⟩ : Shape).Idx) :
    srcDev (xpeer c) ((rectO (xpeer c) (tX k)).emb y) = c ∧ rowmod ((rectO (xpeer c) (tX k)).emb y) = (rectXs c k).emb y := by
  obtain ⟨f1, f2, f3, f4, f5, f6⟩ := x_facts c k
  have hy : (y 0).val < szO k := (y 0).isLt
  obtain ⟨e0, e1⟩ := embO_val (lo := loO (xpeer c) (tX k)) (n := szO (tX k)) (h := regO_inb (xpeer c) (tX k)) y
  obtain ⟨g0, g1⟩ := embX_val (lo := coff (dy c) k) (n := szO k) (h := xs_inb c k) y
  have e0' : ((rectO (xpeer c) (tX k)).emb y 0).val = 2048 * dx c + coff (dy c) k + (y 0).val :=
    e0.trans (congrArg (· + (y 0).val) f1)
  constructor
  · unfold srcDev
    rw [if_neg (by rw [e0']; omega)]
    have hz : inXzone (dy (xpeer c)) (((rectO (xpeer c) (tX k)).emb y 0).val % 2048) := by
      rw [e0']; unfold inXzone; split
      · next h => have := f5 h; omega
      · next h => have := f6 h; omega
    rw [if_pos hz]; exact xpeer_xpeer c
  · refine rowmod_ext ?_ (e1.trans g1.symm)
    have g0' : ((rectXs c k).emb y 0).val = coff (dy c) k + (y 0).val := g0
    rw [e0', g0']; omega

theorem y_facts (c : Fin 4) (k : Fin 17) :
    loO (ypeer c) (k.val + 19) = loO c k ∧ loO c k = 2048 * (1 - dx c) + coff (dy c) k ∧ coff (dy c) k + szO k ≤ 2048
      ∧ dx (ypeer c) = dx c ∧ dx c ≤ 1
      ∧ (dy c = 0 → coff (dy c) k + szO k ≤ 960) ∧ (dy c ≠ 0 → 1088 ≤ coff (dy c) k) ∧ dy (ypeer c) = 1 - dy c ∧ dy c ≤ 1 := by
  revert c k; decide

/-- The rows a y-chunk lands in on the column-mate are the rows it is forwarded from. -/
theorem rect_y (c : Fin 4) (k : Fin 17) : (rectO (ypeer c) (tY k)).set = (rectO c (tX ⟨k.val, by omega⟩)).set := by
  ext i
  unfold rectO
  rw [mem_rowsO, mem_rowsO]
  show loO (ypeer c) (k.val + 19) ≤ _ ∧ _ < loO (ypeer c) (k.val + 19) + szO (k.val + 19) ↔ loO c k.val ≤ _ ∧ _ < loO c k.val + szO k.val
  rw [(y_facts c k).1, szO_y]

/-- On those rows, the column-mate's result and the forwarder's name the same source. -/
theorem srcDev_y (c : Fin 4) (k : Fin 17) {i : SO.Idx} (hi : i ∈ (rectO c (tX ⟨k.val, by omega⟩)).set) : srcDev (ypeer c) i = srcDev c i := by
  obtain ⟨f1, f2, f3, f4, f5, f6, f7, f8, f9⟩ := y_facts c k
  unfold rectO at hi
  rw [mem_rowsO] at hi
  obtain ⟨h1, h2⟩ := hi
  have h1' : 2048 * (1 - dx c) + coff (dy c) k ≤ (i 0).val := by rw [← f2]; exact h1
  have h2' : (i 0).val < 2048 * (1 - dx c) + coff (dy c) k + szO k := by rw [← f2]; exact h2
  have hz1 : inXzone (dy c) ((i 0).val % 2048) := by
    unfold inXzone; split
    · next h => have := f6 h; omega
    · next h => have := f7 h; omega
  have hz2 : ¬ inXzone (dy (ypeer c)) ((i 0).val % 2048) := by
    rw [f8]; unfold inXzone; split
    · next h =>
        have hd : dy c ≠ 0 := by omega
        have := f7 hd
        omega
    · next h =>
        have hd : dy c = 0 := by omega
        have := f6 hd
        omega
  have hL : srcDev (ypeer c) i = xpeer c := by
    unfold srcDev; rw [if_neg (by rw [f4]; omega), if_neg hz2, ypeer_ypeer]
  have hR : srcDev c i = xpeer c := by
    unfold srcDev; rw [if_neg (by omega), if_pos hz1]
  rw [hL, hR]

/-- The local copy: the element written is the device's own, the element of its block copied. -/
theorem land_l (c : Fin 4) (y : (⟨2, ![szO 36, 512]⟩ : Shape).Idx) :
    srcDev c ((rectO c tL).emb y) = c ∧ rowmod ((rectO c tL).emb y) = (fun a => ⟨(y a).val, by
      have := (y a).isLt; revert this; fin_cases a <;> exact id⟩ : SX.Idx) := by
  have hy : (y 0).val < 2048 := (y 0).isLt
  have hx : dx c ≤ 1 := by revert c; decide
  obtain ⟨e0, e1⟩ := embO_val (lo := loO c tL) (n := szO tL) (h := regO_inb c tL) y
  have e0' : ((rectO c tL).emb y 0).val = 2048 * dx c + (y 0).val :=
    e0.trans (congrArg (· + (y 0).val) (show loO c tL.val = 2048 * dx c from rfl))
  constructor
  · unfold srcDev; rw [if_pos (by rw [e0']; omega)]
  · refine rowmod_ext ?_ e1
    rw [e0']; show _ = (y 0).val; omega

theorem peer_dx (c : Fin 4) : dx (xpeer c) = 1 - dx c ∧ dx (xpeer (ypeer c)) = 1 - dx c ∧ dx c ≤ 1 := by revert c; decide

/-- The source device's block is the block of the whole array the element lies in. -/
theorem dx_srcDev (c : Fin 4) (i : SO.Idx) : dx (srcDev c i) = (i 0).val / 2048 := by
  obtain ⟨f1, f2, f3⟩ := peer_dx c
  have hr : (i 0).val < 4096 := (i 0).isLt
  unfold srcDev
  split
  · next h => exact h.symm
  · next h =>
    split
    · rw [f1]; omega
    · rw [f2]; omega

end Cert.AG
-- ==== Proof.Kernel.Sched.lean ====
/-
  The all-gather's protocol, per device c = (x, y) of the 2 × 2 mesh, as a schedule of the rounds discipline.

  Cells.  The runtime's barrier semaphore: one round of two duties of one unit — false paid by the row-mate's signal,
  true by the column-mate's; the signaller hands over the row ranges of its own result buffer that the receiver will
  write (the row-mate: its 19 x-chunk ranges; the column-mate: its 17 y-chunk ranges).  The 73 DMA semaphores of the
  kernel, each one round of one duty (false) of the chunk's credit:
    j < 19        send cell of x-chunk j:       the chunk's rows of the device's block come back (the right half share);
    19 ≤ j < 38   receive cell of x-chunk j−19: its range of the result holds the row-mate's rows;
    38 ≤ j < 55   send cell of y-chunk j−38:    the forwarded x-range j−38 of the result comes back, as received;
    55 ≤ j < 72   receive cell of y-chunk j−55: its range of the result holds what the column-mate forwarded;
    j = 72        the local copy: the device's own 2048 rows of the result hold its block, and the block's left half
                  share comes back.
  Every range of the result is held at ONE contents function, "element i is element (i mod 2048 rows) of the block of the
  device it came from", so that a range received is the range forwarded.

  What a device owes at launch, in the order it pays: a unit on the row-mate's barrier, a unit on the column-mate's, the
  19 x-chunks' credits on the row-mate's receive cells, the 17 y-chunks' on the column-mate's.

  Levels: barrier cells 1, x-receive cells 2, y-receive cells 3, everything else 0: a device waits on its barrier owing
  only receive credits, on an x-receive cell owing only y-receive credits, and on anything else owing nothing.
-/
import proofs.«900081_g7700000000000082_dist_ag_v7x_xy2x2_x_m2048_n512_f32_1_alg».proof.Proof.Geom
import proofs.«900081_g7700000000000082_dist_ag_v7x_xy2x2_x_m2048_n512_f32_1_alg».proof.Proof.Gen.Kernel
import proofs.«900081_g7700000000000082_dist_ag_v7x_xy2x2_x_m2048_n512_f32_1_alg».proof.Proof.Gen.Kernel.Skeleton
import proofs.«900081_g7700000000000082_dist_ag_v7x_xy2x2_x_m2048_n512_f32_1_alg».proof.Proof.Gen.Kernel.Launch
import Idealize.ShloMosaic.Lib.Pipeline.Launch
import Idealize.ShloMosaic.Lib.Pipeline.Kit
import Idealize.ShloMosaic.Lib.Tactic

set_option maxRecDepth 16384

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Cells -/

abbrev barS : Sem sig := (SemArray.scalar (sig.barrier 0 rfl) : Sems sig S_).sem
/-- The kernel's own DMA semaphores: j ↦ semaphore j + 2 (0 and 1 are the pipeline's). -/
abbrev dsem (j : Fin 73) : DmaSem sig := ⟨j.val + 2, by have := j.isLt; show j.val + 2 < 75; omega⟩
abbrev osem : Fin 73 → SemLoc sig := fun j => .dma (dsem j)
abbrev barCell (c : Dev nD) : GSem nD τ sig := ((c : Thread nD τ), .reg barS)
abbrev dcell (c : Dev nD) (j : Fin 73) : GSem nD τ sig := ((c : Thread nD τ), .dma (dsem j))

def jXs (k : Fin 19) : Fin 73 := ⟨k.val, by omega⟩
def jXr (k : Fin 19) : Fin 73 := ⟨k.val + 19, by omega⟩
def jYs (k : Fin 17) : Fin 73 := ⟨k.val + 38, by omega⟩
def jYr (k : Fin 17) : Fin 73 := ⟨k.val + 55, by omega⟩
def jL : Fin 73 := ⟨72, by omega⟩

/-! ## Contents -/

abbrev XB : Ref sig .tc := cc0_stg0_0
abbrev OB : Ref sig .tc := cc0_stg1_0

/-- Device c's block as the pipeline stages it. -/
def xb (c : Dev nD) : (XB : Ref sig .tc).ty.Contents (Elt F) :=
  (win0_0.blk (0 : Fin 1)).view.read (Elt F) ((s₀ m ρ).mem ((c : Thread nD τ).loc main_arg0))

/-- Device c's result: element i is element (i mod 2048 rows) of the block of the device it came from. -/
def oc (c : Dev nD) : (OB : Ref sig .tc).ty.Contents (Elt F) := fun i => xb m ρ (srcDev c i) (rowmod i)

/-- A range of device c's block, at a share. -/
def Xpt (c : Dev nD) (I : Finset SX.Idx) (q : PosShare TreeShare) : sProp 𝕄 := ((c : Thread nD τ).loc XB) ↦[I]{q} xb m ρ c
/-- A range of device c's result, at the result's contents. -/
def Opt (c : Dev nD) (I : Finset SO.Idx) : sProp 𝕄 := ((c : Thread nD τ).loc OB) ↦[I]{fullShare} oc m ρ c
/-- A range of device c's result, at some contents. -/
def Oany (c : Dev nD) (I : Finset SO.Idx) : sProp 𝕄 := iprop(∃ f, ((c : Thread nD τ).loc OB) ↦[I]{fullShare} f)

omit [FloatOps F] in
instance Xpt_storable (c : Dev nD) (I) (q) : BI.Storable (upEmb : UEmb _ 𝕄) (Xpt (F := F) m ρ c I q) := by unfold Xpt; infer_instance
omit [FloatOps F] in
instance Opt_storable (c : Dev nD) (I) : BI.Storable (upEmb : UEmb _ 𝕄) (Opt (F := F) m ρ c I) := by unfold Opt; infer_instance
omit [FloatOps F] in
instance Oany_storable (c : Dev nD) (I) : BI.Storable (upEmb : UEmb _ 𝕄) (Oany (F := F) c I) := by unfold Oany; infer_instance

/-! ## The schedule -/

/-- The credit of a transfer of n rows of 512 words. -/
def NO (n : ℕ) : ℕ := RefSig.tileCredit ⟨2, ![n, 512]⟩ .f32

theorem NO_pos {n : ℕ} (h : 0 < n) : 0 < NO n :=
  RefSig.tileCredit_pos _ _ (by
    show 0 < ∏ a : Fin 2, (![n, 512] : Fin 2 → ℕ) a
    rw [Fin.prod_univ_two]; exact Nat.mul_pos h (by show 0 < 512; decide))

/-- The row range a DMA cell's transfer fills. -/
def tOf (j : ℕ) : ℕ := if j < 19 then j else if j < 38 then j - 19 else if j < 55 then j - 38 else if j < 72 then j - 55 + 19 else 36
/-- A DMA cell's one duty's amount. -/
def jamt (j : ℕ) : ℕ := NO (szO (tOf j))

theorem jamt_pos (j : ℕ) : 0 < jamt j := NO_pos (szO_pos _)

/-- What a DMA cell's duty hands its owner. -/
def dpay (c : Dev nD) (j : Fin 73) : sProp 𝕄 :=
  if h : j.val < 19 then Xpt m ρ c (rectXs c ⟨j.val, h⟩).set fullShare.right
  else if h : j.val < 38 then Opt m ρ c (rectO c ⟨j.val - 19, by omega⟩).set
  else if h : j.val < 55 then Opt m ρ c (rectO c ⟨j.val - 38, by omega⟩).set
  else if h : j.val < 72 then Opt m ρ c (rectO c ⟨j.val - 55 + 19, by omega⟩).set
  else iprop(Opt m ρ c (rectO c tL).set ∗ Xpt m ρ c Finset.univ fullShare.left)

/-- What a barrier duty hands its owner c: false, from the row-mate, the row-mate's x-chunk ranges; true, from the
    column-mate, the column-mate's y-chunk ranges. -/
def barPay (c : Dev nD) (d : Bool) : sProp 𝕄 :=
  if d then bigSep Finset.univ fun k : Fin 17 => Oany (F := F) (ypeer c) (rectO (ypeer c) (tY k)).set
  else bigSep Finset.univ fun k : Fin 19 => Oany (F := F) (xpeer c) (rectO (xpeer c) (tX k)).set

def agRd : Rounds.Schedule (GSem nD τ sig) Bool 𝕄 where
  duties g r := if r = 0 ∧ g.1.2 = .tc then (match g.2 with | .reg _ => Finset.univ | .dma q => if 2 ≤ q.val then {false} else ∅) else ∅
  amount g _ _ := match g.2 with | .reg _ => 1 | .dma q => jamt (q.val - 2)
  payload g _ d := match g.2 with
    | .reg _ => barPay g.1.1 d
    | .dma q => if h : 2 ≤ q.val then dpay m ρ g.1.1 ⟨q.val - 2, by have hq : q.val < 75 := q.isLt; omega⟩ else iprop(emp)
  amount_pos g r d hd := by
    obtain ⟨t, s⟩ := g
    cases s with
    | reg _ => exact Nat.one_pos
    | dma q => exact jamt_pos _

instance agRd_payload_storable (g : GSem nD τ sig) (r : ℕ) (d : Bool) :
    BI.Storable (upEmb : UEmb _ 𝕄) ((agRd (F := F) m ρ).payload g r d) := by
  show BI.Storable upEmb (match g.2 with
    | .reg _ => barPay g.1.1 d
    | .dma q => if h : 2 ≤ q.val then dpay m ρ g.1.1 ⟨q.val - 2, by have hq : q.val < 75 := q.isLt; omega⟩ else iprop(emp))
  unfold barPay dpay
  (repeat' split) <;> infer_instance

section Tables
variable (c : Dev nD) (j : Fin 73)

omit [FloatOps F] in
theorem duties_bar : (agRd (F := F) m ρ).duties (barCell c) 0 = Finset.univ := by dsimp only [agRd]; exact if_pos ⟨rfl, rfl⟩
omit [FloatOps F] in
theorem duties_d : (agRd (F := F) m ρ).duties (dcell c j) 0 = {false} := by
  dsimp only [agRd]; rw [if_pos ⟨rfl, rfl⟩]; exact if_pos (Nat.le_add_left 2 j.val)
omit [FloatOps F] in
theorem duties_later (g : GSem nD τ sig) : ∀ r, 1 ≤ r → (agRd (F := F) m ρ).duties g r = ∅ :=
  fun r hr => by dsimp only [agRd]; rw [if_neg fun h => by omega]
omit [FloatOps F] in
theorem amount_bar (d : Bool) : (agRd (F := F) m ρ).amount (barCell c) 0 d = 1 := rfl
omit [FloatOps F] in
theorem amount_d (d : Bool) : (agRd (F := F) m ρ).amount (dcell c j) 0 d = jamt j.val := by
  show jamt (j.val + 2 - 2) = jamt j.val; rw [Nat.add_sub_cancel]
omit [FloatOps F] in
theorem expect_bar : (agRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
omit [FloatOps F] in
theorem expect_d : (agRd (F := F) m ρ).expect (dcell c j) 0 = jamt j.val := by
  unfold Schedule.expect Schedule.amountOf; rw [duties_d, Finset.sum_singleton, amount_d]
omit [FloatOps F] in
theorem payload_bar (d : Bool) : (agRd (F := F) m ρ).payload (barCell c) 0 d = barPay c d := rfl
omit [FloatOps F] in
theorem payload_d (d : Bool) : (agRd (F := F) m ρ).payload (dcell c j) 0 d = dpay m ρ c j := by
  show (if h : 2 ≤ j.val + 2 then dpay m ρ c ⟨j.val + 2 - 2, _⟩ else iprop(emp)) = dpay m ρ c j
  rw [dif_pos (Nat.le_add_left 2 j.val)]
  congr 1
omit [FloatOps F] in
/-- The rest of the barrier cell's round, no duty taken: both mates' ranges. -/
theorem rest_bar : bigSep ((agRd (F := F) m ρ).duties (barCell c) 0 \ ∅) (fun d => (agRd (F := F) m ρ).payload (barCell c) 0 d)
    = iprop(barPay c false ∗ barPay c true) := by
  rw [Finset.sdiff_empty, duties_bar, bigSep_univ_eq_bigSepL [false, true] (by decide) (by decide), bigSepL_cons_cons, bigSepL_singleton]
  rfl
omit [FloatOps F] in
theorem rest_d : bigSep ((agRd (F := F) m ρ).duties (dcell c j) 0 \ ∅) (fun d => (agRd (F := F) m ρ).payload (dcell c j) 0 d) = dpay m ρ c j := by
  rw [Finset.sdiff_empty, duties_d, bigSep_singleton, payload_d]
omit [FloatOps F] in
theorem not_unitless (g : GSem nD τ sig) : ¬ (agRd (F := F) m ρ).unitless g := fun h => h

end Tables

/-! ## The payloads by kind -/

omit [FloatOps F] in
theorem dpay_xs (c : Dev nD) (k : Fin 19) : dpay m ρ c (jXs k) = Xpt m ρ c (rectXs c k).set fullShare.right := by
  unfold dpay jXs; rw [dif_pos k.isLt]
omit [FloatOps F] in
theorem dpay_xr (c : Dev nD) (k : Fin 19) : dpay m ρ c (jXr k) = Opt m ρ c (rectO c (tX k)).set := by
  unfold dpay jXr; rw [dif_neg (by simp), dif_pos (by simp; omega)]; congr 3 <;> simp [tX]
omit [FloatOps F] in
theorem dpay_ys (c : Dev nD) (k : Fin 17) : dpay m ρ c (jYs k) = Opt m ρ c (rectO c (tX ⟨k.val, by omega⟩)).set := by
  unfold dpay jYs; rw [dif_neg (by simp), dif_neg (by simp), dif_pos (by simp; omega)]; congr 3 <;> simp [tX]
omit [FloatOps F] in
theorem dpay_yr (c : Dev nD) (k : Fin 17) : dpay m ρ c (jYr k) = Opt m ρ c (rectO c (tY k)).set := by
  unfold dpay jYr; rw [dif_neg (by simp), dif_neg (by simp), dif_neg (by simp), dif_pos (by simp; omega)]; congr 3 <;> simp [tY]
omit [FloatOps F] in
theorem dpay_l (c : Dev nD) : dpay m ρ c jL = iprop(Opt m ρ c (rectO c tL).set ∗ Xpt m ρ c Finset.univ fullShare.left) := by
  unfold dpay jL; rw [dif_neg (by simp), dif_neg (by simp), dif_neg (by simp), dif_neg (by simp)]

/-! ## What each device owes at launch, in the order it pays -/

/-- The device and the semaphore of the i-th due. -/
def owedDev (c : Dev nD) (i : ℕ) : Dev nD := if i = 0 then xpeer c else if i = 1 then ypeer c else if i < 21 then xpeer c else ypeer c
def owedSem (i : ℕ) : SemLoc sig :=
  if i < 2 then .reg barS else if h : i < 21 then .dma (dsem (jXr ⟨i - 2, by omega⟩)) else if h : i < 38 then .dma (dsem (jYr ⟨i - 21, by omega⟩)) else .reg barS
def owedAmt (i : ℕ) : ℕ := if i < 2 then 1 else NO (szO (i - 2))
def owedCell (c : Dev nD) (i : ℕ) : GSem nD τ sig := ((owedDev c i : Thread nD τ), owedSem i)
def Oi (c : Dev nD) (i : Fin 38) : CellTallies nD τ sig Unit := tallyAt (owedCell c i.val) () (owedAmt i.val)
def O₀ (c : Dev nD) : CellTallies nD τ sig Unit := ∑ i : Fin 38, Oi c i
/-- What is left to pay after the first n dues. -/
def Orem (c : Dev nD) (n : ℕ) : CellTallies nD τ sig Unit := ∑ i ∈ Finset.univ.filter (fun i : Fin 38 => n ≤ i.val), Oi c i

theorem Orem_zero (c : Dev nD) : Orem c 0 = O₀ c := by
  unfold Orem O₀
  exact Finset.sum_congr (by ext i; simp) (fun _ _ => rfl)
theorem Orem_last (c : Dev nD) : Orem c 38 = 0 := by
  unfold Orem; rw [Finset.filter_false_of_mem (fun i _ => by have := i.isLt; omega), Finset.sum_empty]
theorem Orem_succ (c : Dev nD) (n : ℕ) (h : n < 38) : Orem c n = Orem c (n + 1) + Oi c ⟨n, h⟩ := by
  unfold Orem
  have e : Finset.univ.filter (fun i : Fin 38 => n ≤ i.val) = insert ⟨n, h⟩ (Finset.univ.filter (fun i : Fin 38 => n + 1 ≤ i.val)) := by
    ext i; simp only [Finset.mem_filter, Finset.mem_univ, true_and, Finset.mem_insert, Fin.ext_iff]; omega
  rw [e, Finset.sum_insert (by simp), add_comm]

/-! ## Levels -/

def L (g : GSem nD τ sig) : Finset Unit := if g.1.2 = .tc then {()} else ∅
def lvS (s : SemLoc sig) : ℕ := match s with
  | .reg _ => 1
  | .dma q => if 21 ≤ q.val ∧ q.val < 40 then 2 else if 57 ≤ q.val ∧ q.val < 74 then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A wait on semaphore s while the dues from the n-th on are unpaid, when s sits below all of them. -/
theorem mayWait_rem (c : Dev nD) (s : SemLoc sig) (n : ℕ) (h : ∀ i : Fin 38, n ≤ i.val → lvS s < lvS (owedSem i.val)) :
    (levAts L lv : sProp 𝕄) ⊢ MayWait (c : Thread nD τ) s () (Orem c n) :=
  Pipeline.mayWait_of_levAts (by rw [L_tc]; exact Finset.mem_singleton_self _) fun g u hg => by
    unfold Orem at hg
    obtain ⟨i, hi, hpos⟩ := Pipeline.sum_pos_exists hg
    unfold Oi at hpos
    obtain ⟨rfl, -⟩ := Pipeline.tallyAt_pos hpos
    refine ⟨by unfold owedCell; rw [L_tc]; exact Finset.mem_singleton_self _, h i (Finset.mem_filter.mp hi).2⟩

end Cert.Kernel.AG

end
-- ==== Proof.Kernel.State.lean ====
/-
  The resources one device holds while its body runs, as ONE assertion over a few small state functions.

  Persistent: every cell's invariant and that its round 0 is reached (all devices'), and the level facts.
  Per DMA cell of its own, a state: 0 the owner's position at round 0; 1 the position and the cell's credit tokens (a wait
  can be made); 2 the counter back at zero (waited and closed).  Per transfer, whether its two duty tokens are still
  held.  Per x-chunk, whether the chunk's rows of the block (right half share) are in hand; the block's left half share;
  per range of its result, a state: 0 held at some contents, 1 away, 2 held at the result's contents; per range of a
  mate's result it may write, whether it holds it; and what it still owes: the dues from the n-th on.
-/
import proofs.«900081_g7700000000000082_dist_ag_v7x_xy2x2_x_m2048_n512_f32_1_alg».proof.Proof.Kernel.Sched

set_option maxRecDepth 16384

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## All cells of the machine, enumerated -/

abbrev csem (k : Fin 74) : SemLoc sig := if h : k.val = 0 then .reg barS else .dma (dsem ⟨k.val - 1, by omega⟩)
abbrev kcell (ck : Dev nD × Fin 74) : GSem nD τ sig := ((ck.1 : Thread nD τ), csem ck.2)
def kd (j : Fin 73) : Fin 74 := ⟨j.val + 1, by omega⟩

theorem kcell_bar (c : Dev nD) : kcell (c, 0) = barCell c := rfl
theorem csem_kd (j : Fin 73) : csem (kd j) = SemLoc.dma (dsem j) := by
  unfold csem kd
  rw [dif_neg (Nat.succ_ne_zero _)]
  exact congrArg (fun x : Fin 73 => SemLoc.dma (dsem x)) (Fin.ext (Nat.add_sub_cancel j.val 1))
theorem kcell_kd (c : Dev nD) (j : Fin 73) : kcell (c, kd j) = dcell c j := by
  show ((c : Thread nD τ), csem (kd j)) = ((c : Thread nD τ), SemLoc.dma (dsem j))
  rw [csem_kd]

/-- The cells' invariants at the names the launch allocated them at, and that round 0 of each is reached. -/
def records (K : Dev nD × Fin 74 → ℕ) : sProp 𝕄 :=
  iprop((bigSep Finset.univ fun ck : Dev nD × Fin 74 => cellInv ER (agRd m ρ) (K ck) (kcell ck))
    ∗ bigSep Finset.univ fun ck : Dev nD × Fin 74 => reached ER (kcell ck) 0)

instance records_persistent (K : Dev nD × Fin 74 → ℕ) : BI.Persistent (records m ρ K) := by unfold records; infer_instance

omit [FloatOps F] in
theorem recs_at (Φ : Dev nD × Fin 74 → sProp 𝕄) (ck : Dev nD × Fin 74) : bigSep Finset.univ Φ ⊢ Φ ck := bigSep_elim (Finset.mem_univ ck)

omit [FloatOps F] in
theorem inv_bar (K : Dev nD × Fin 74 → ℕ) (c : Dev nD) : records m ρ K ⊢ cellInv ER (agRd m ρ) (K (c, 0)) (barCell c) := by
  unfold records; iintro ⟨H, -⟩
  iapply (recs_at (fun ck : Dev nD × Fin 74 => (cellInv ER (agRd m ρ) (K ck) (kcell ck) : sProp 𝕄)) (c, 0)); iexact H
omit [FloatOps F] in
theorem inv_d (K : Dev nD × Fin 74 → ℕ) (c : Dev nD) (j : Fin 73) : records m ρ K ⊢ cellInv ER (agRd m ρ) (K (c, kd j)) (dcell c j) := by
  unfold records; iintro ⟨H, -⟩
  rw [← kcell_kd c j]
  iapply (recs_at (fun ck : Dev nD × Fin 74 => (cellInv ER (agRd m ρ) (K ck) (kcell ck) : sProp 𝕄)) (c, kd j)); iexact H
omit [FloatOps F] in
theorem reached_bar (K : Dev nD × Fin 74 → ℕ) (c : Dev nD) : records m ρ K ⊢ reached ER (barCell c) 0 := by
  unfold records; iintro ⟨-, H⟩
  iapply (recs_at (fun ck : Dev nD × Fin 74 => (reached ER (kcell ck) 0 : sProp 𝕄)) (c, 0)); iexact H
omit [FloatOps F] in
theorem reached_d (K : Dev nD × Fin 74 → ℕ) (c : Dev nD) (j : Fin 73) : records m ρ K ⊢ reached ER (dcell c j) 0 := by
  unfold records; iintro ⟨-, H⟩
  rw [← kcell_kd c j]
  iapply (recs_at (fun ck : Dev nD × Fin 74 => (reached ER (kcell ck) 0 : sProp 𝕄)) (c, kd j)); iexact H

/-! ## One summand of a family changes -/

omit [FloatOps F] in
theorem bigSep_upd {n : ℕ} {α : Type} (R : Fin n → α → sProp 𝕄) (f : Fin n → α) (i : Fin n) (a v : α) (h : f i = a) :
    (bigSep Finset.univ fun j => R j (f j)) ⊢ iprop(R i a ∗ (R i v -∗ bigSep Finset.univ fun j => R j (Function.update f i v j))) := by
  have e := bigSep_univ_update (Φ := fun j => R j (f j)) (Ψ := fun j => R j (Function.update f i v j)) i
    (fun j hj => by show R j (Function.update f i v j) = R j (f j); rw [Function.update_of_ne hj])
  simp only [Function.update_self, h] at e
  exact e

/-! ## Families over the 73 cells and the 37 ranges, by kind -/

omit [FloatOps F] in
theorem bigSep_fin37 (Φ : Fin 37 → sProp 𝕄) :
    bigSep Finset.univ Φ = iprop((bigSep Finset.univ fun k : Fin 19 => Φ (tX k)) ∗ (bigSep Finset.univ fun k : Fin 17 => Φ (tY k)) ∗ Φ tL) := by
  have hU : (Finset.univ : Finset (Fin 37)) = Finset.univ.image tX ∪ (Finset.univ.image tY ∪ {tL}) := by decide +kernel
  rw [hU, bigSep_union (by decide +kernel), bigSep_union (by decide +kernel),
    bigSep_image_of_injOn (fun a _ b _ h => Fin.ext (by simpa [tX] using congrArg Fin.val h)),
    bigSep_image_of_injOn (fun a _ b _ h => Fin.ext (by simpa [tY] using congrArg Fin.val h)), bigSep_singleton]
  rfl

omit [FloatOps F] in
theorem bigSep_fin73 (Φ : Fin 73 → sProp 𝕄) :
    bigSep Finset.univ Φ = iprop((bigSep Finset.univ fun k : Fin 19 => Φ (jXs k)) ∗ (bigSep Finset.univ fun k : Fin 19 => Φ (jXr k))
      ∗ (bigSep Finset.univ fun k : Fin 17 => Φ (jYs k)) ∗ (bigSep Finset.univ fun k : Fin 17 => Φ (jYr k)) ∗ Φ jL) := by
  have hU : (Finset.univ : Finset (Fin 73)) = Finset.univ.image jXs ∪ (Finset.univ.image jXr ∪ (Finset.univ.image jYs ∪ (Finset.univ.image jYr ∪ {jL}))) := by
    decide +kernel
  rw [hU, bigSep_union (by decide +kernel), bigSep_union (by decide +kernel), bigSep_union (by decide +kernel), bigSep_union (by decide +kernel),
    bigSep_image_of_injOn (fun a _ b _ h => Fin.ext (by simpa [jXs] using congrArg Fin.val h)),
    bigSep_image_of_injOn (fun a _ b _ h => Fin.ext (by simpa [jXr] using congrArg Fin.val h)),
    bigSep_image_of_injOn (fun a _ b _ h => Fin.ext (by simpa [jYs] using congrArg Fin.val h)),
    bigSep_image_of_injOn (fun a _ b _ h => Fin.ext (by simpa [jYr] using congrArg Fin.val h)), bigSep_singleton]
  rfl

/-- A step in the form a chain of steps composes in: from the new state the rest runs. -/
theorem step_of {P P' R R' : sProp 𝕄} (h : P ⊢ iprop((P' -∗ R) -∗ R')) (hc : P' ⊢ R) : P ⊢ R' := by
  iintro HP
  iapply h $$ HP
  iintro HP'
  iapply hc; iexact HP'

/-! ## The state -/

/-- A DMA cell of one's own, by state. -/
def cellRes (c : Dev nD) (j : Fin 73) (s : ℕ) : sProp 𝕄 := match s with
  | 0 => atPos ER (dcell c j) 0 ∅ 0
  | 1 => iprop(atPos ER (dcell c j) 0 ∅ 0 ∗ cred (tallyAt (dcell c j) () (jamt j.val)))
  | _ => semVal (dcell c j) 0

omit [FloatOps F] in
theorem cellRes_zero (c : Dev nD) (j : Fin 73) : cellRes (F := F) c j 0 = atPos ER (dcell c j) 0 ∅ 0 := rfl
omit [FloatOps F] in
theorem cellRes_one (c : Dev nD) (j : Fin 73) :
    cellRes (F := F) c j 1 = iprop(atPos ER (dcell c j) 0 ∅ 0 ∗ cred (tallyAt (dcell c j) () (jamt j.val))) := rfl
omit [FloatOps F] in
theorem cellRes_two (c : Dev nD) (j : Fin 73) : cellRes (F := F) c j 2 = semVal (dcell c j) 0 := rfl

/-- The two tokens an x-transfer, a y-transfer, the local copy is enqueued with. -/
def tokX (c : Dev nD) (k : Fin 19) : sProp 𝕄 := iprop(dutyTok ER (dcell c (jXs k)) 0 false ∗ dutyTok ER (dcell (xpeer c) (jXr k)) 0 false)
def tokY (c : Dev nD) (k : Fin 17) : sProp 𝕄 := iprop(dutyTok ER (dcell c (jYs k)) 0 false ∗ dutyTok ER (dcell (ypeer c) (jYr k)) 0 false)
def tokL (c : Dev nD) : sProp 𝕄 := dutyTok ER (dcell c jL) 0 false

def held (b : Bool) (P : sProp 𝕄) : sProp 𝕄 := if b then P else iprop(emp)

/-- A range of one's own result, by state. -/
def oRes (c : Dev nD) (t : Fin 37) (s : ℕ) : sProp 𝕄 := match s with
  | 0 => Oany (F := F) c (rectO c t).set
  | 1 => iprop(emp)
  | _ => Opt m ρ c (rectO c t).set

omit [FloatOps F] in
theorem oRes_zero (c : Dev nD) (t : Fin 37) : oRes m ρ c t 0 = Oany (F := F) c (rectO c t).set := rfl
omit [FloatOps F] in
theorem oRes_one (c : Dev nD) (t : Fin 37) : oRes m ρ c t 1 = iprop(emp) := rfl
omit [FloatOps F] in
theorem oRes_two (c : Dev nD) (t : Fin 37) : oRes m ρ c t 2 = Opt m ρ c (rectO c t).set := rfl

/-- The rows of a block some x-chunk sends. -/
def XU (c : Dev nD) : Finset SX.Idx := Finset.univ.biUnion fun k : Fin 19 => (rectXs c k).set

/-- Everything device c holds while its body runs (the barrier handshake done). -/
def St (K : Dev nD × Fin 74 → ℕ) (c : Dev nD)
    (cXs cXr : Fin 19 → ℕ) (cYs cYr : Fin 17 → ℕ) (cL : ℕ)
    (kX : Fin 19 → Bool) (kY : Fin 17 → Bool) (kL : Bool)
    (sX : Fin 19 → Bool) (sL : Bool)
    (oX : Fin 19 → ℕ) (oY : Fin 17 → ℕ) (oL : ℕ)
    (pX : Fin 19 → Bool) (pY : Fin 17 → Bool) (n : ℕ) : sProp 𝕄 :=
  iprop(records m ρ K ∗ levAts L lv
    ∗ (bigSep Finset.univ fun k : Fin 19 => cellRes c (jXs k) (cXs k))
    ∗ (bigSep Finset.univ fun k : Fin 19 => cellRes c (jXr k) (cXr k))
    ∗ (bigSep Finset.univ fun k : Fin 17 => cellRes c (jYs k) (cYs k))
    ∗ (bigSep Finset.univ fun k : Fin 17 => cellRes c (jYr k) (cYr k))
    ∗ cellRes c jL cL
    ∗ (bigSep Finset.univ fun k : Fin 19 => held (kX k) (tokX c k))
    ∗ (bigSep Finset.univ fun k : Fin 17 => held (kY k) (tokY c k))
    ∗ held kL (tokL c)
    ∗ (bigSep Finset.univ fun k : Fin 19 => held (sX k) (Xpt m ρ c (rectXs c k).set fullShare.right))
    ∗ held sL (Xpt m ρ c Finset.univ fullShare.left)
    ∗ Xpt m ρ c (Finset.univ \ XU c) fullShare.right
    ∗ (bigSep Finset.univ fun k : Fin 19 => oRes m ρ c (tX k) (oX k))
    ∗ (bigSep Finset.univ fun k : Fin 17 => oRes m ρ c (tY k) (oY k))
    ∗ oRes m ρ c tL oL
    ∗ (bigSep Finset.univ fun k : Fin 19 => held (pX k) (Oany (F := F) (xpeer c) (rectO (xpeer c) (tX k)).set))
    ∗ (bigSep Finset.univ fun k : Fin 17 => held (pY k) (Oany (F := F) (ypeer c) (rectO (ypeer c) (tY k)).set))
    ∗ ∃ W, owes (c : Thread nD τ) (Orem c n) W)

end Cert.Kernel.AG

end
-- ==== Proof.Kernel.Data.lean ====
/-
  The pipeline's proof data for the all-gather: what a device starts its body from, what it ends it with, what the two
  windows' staging buffers hold, and what it owes before and after its one grid point.
-/
import proofs.«900081_g7700000000000082_dist_ag_v7x_xy2x2_x_m2048_n512_f32_1_alg».proof.Proof.Kernel.State

set_option maxRecDepth 16384

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the launch hands device c at names K: the records and levels; its barrier cell's position and two units of
    credit, and the tokens of the two barrier duties it pays; its DMA cells' positions, the receive cells' with
    their launch credit; the tokens of every transfer it will enqueue. -/
def startAt (K : Dev nD × Fin 74 → ℕ) (c : Dev nD) : sProp 𝕄 :=
  iprop(records m ρ K ∗ levAts L lv
    ∗ atPos ER (barCell c) 0 ∅ 0 ∗ cred (tallyAt (barCell c) () 2)
    ∗ dutyTok ER (barCell (xpeer c)) 0 false ∗ dutyTok ER (barCell (ypeer c)) 0 true
    ∗ (bigSep Finset.univ fun k : Fin 19 => cellRes c (jXs k) 0)
    ∗ (bigSep Finset.univ fun k : Fin 19 => cellRes c (jXr k) 1)
    ∗ (bigSep Finset.univ fun k : Fin 17 => cellRes c (jYs k) 0)
    ∗ (bigSep Finset.univ fun k : Fin 17 => cellRes c (jYr k) 1)
    ∗ cellRes c jL 0
    ∗ (bigSep Finset.univ fun k : Fin 19 => tokX c k)
    ∗ (bigSep Finset.univ fun k : Fin 17 => tokY c k)
    ∗ tokL c)

def start (c : Dev nD) : sProp 𝕄 := iprop(∃ K, startAt m ρ K c)

/-- After the body: the kernel's 73 DMA semaphores back at zero. -/
def Φ₁ (c : Dev nD) : sProp 𝕄 := bigSep Finset.univ fun j : Fin 73 => semVal (dcell c j) 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xb m ρ c
    | ⟨1, _⟩ => oc m ρ c
  Φ t := match t with
    | ⟨0, _⟩ => start m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.Kernel.AG

end
-- ==== Proof.Kernel.Launch.lean ====
/-
  The launch of the all-gather: the 74 cells of every device (the barrier semaphore and the kernel's 73 DMA semaphores)
  funded under one update at launch, each device dealt the tokens of the duties IT pays — its two barrier signals, both
  cells of every transfer it enqueues —, the launch credit read off what the devices owe (every due names the row-mate
  or the column-mate, an involution of the mesh), and the run.
-/
import proofs.«900081_g7700000000000082_dist_ag_v7x_xy2x2_x_m2048_n512_f32_1_alg».proof.Proof.Kernel.Data

set_option maxRecDepth 16384

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by unfold Dat.share; split <;> rfl

/-! ## The cells and the tokens, enumerated -/

theorem csem_injective : ∀ k k' : Fin 74, csem k = csem k' → k = k' := by decide +kernel

theorem kcell_injective : Function.Injective (kcell : Dev nD × Fin 74 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective k k' h2]
def ringCells : Finset (GSem nD τ sig) := Finset.univ.map ⟨kcell, kcell_injective⟩

/-- The duties a device pays, by kind: its two barrier signals (false: to the row-mate's cell; true: to the column-mate's),
    an x-transfer's send and receive cells, a y-transfer's, the local copy's. -/
abbrev TI : Type := Bool ⊕ (Fin 19 ⊕ (Fin 19 ⊕ (Fin 17 ⊕ (Fin 17 ⊕ Unit))))

def tiDev (c : Dev nD) : TI → Dev nD
  | .inl false => xpeer c
  | .inl true => ypeer c
  | .inr (.inl _) => c
  | .inr (.inr (.inl _)) => xpeer c
  | .inr (.inr (.inr (.inl _))) => c
  | .inr (.inr (.inr (.inr (.inl _)))) => ypeer c
  | .inr (.inr (.inr (.inr (.inr _)))) => c
def tiSem : TI → SemLoc sig
  | .inl _ => .reg barS
  | .inr (.inl k) => .dma (dsem (jXs k))
  | .inr (.inr (.inl k)) => .dma (dsem (jXr k))
  | .inr (.inr (.inr (.inl k))) => .dma (dsem (jYs k))
  | .inr (.inr (.inr (.inr (.inl k)))) => .dma (dsem (jYr k))
  | .inr (.inr (.inr (.inr (.inr _)))) => .dma (dsem jL)
def tiDuty : TI → Bool
  | .inl b => b
  | _ => false

def payTok (ct : Dev nD × TI) : GSem nD τ sig × ℕ × Bool := (((tiDev ct.1 ct.2 : Thread nD τ), tiSem ct.2), 0, tiDuty ct.2)

set_option synthInstance.maxSize 4096 in
theorem ti_sem_inj : ∀ t t' : TI, (tiSem t, tiDuty t) = (tiSem t', tiDuty t') → t = t' := by decide +kernel
theorem ti_dev_inj : ∀ (t : TI) (c c' : Dev nD), tiDev c t = tiDev c' t → c = c' := by decide +kernel

theorem payTok_injective : Function.Injective (payTok : Dev nD × TI → GSem nD τ sig × ℕ × Bool) := by
  rintro ⟨c, t⟩ ⟨c', t'⟩ h
  have h1 : t = t' := ti_sem_inj t t' (Prod.ext (congrArg (fun x : GSem nD τ sig × ℕ × Bool => x.1.2) h) (congrArg (fun x : GSem nD τ sig × ℕ × Bool => x.2.2) h))
  subst h1
  have h2 : tiDev c t = tiDev c' t := congrArg (fun x : GSem nD τ sig × ℕ × Bool => x.1.1.1) h
  rw [ti_dev_inj t c c' h2]
def ringToks : Finset (GSem nD τ sig × ℕ × Bool) := Finset.univ.map ⟨payTok, payTok_injective⟩

def u₀ : UU :=
  (initOf (Pipeline.cells cfgs cellOf_inj) (Pipeline.launchToks cfgs cellOf_inj), initOf ringCells ringToks)

/-- The tokens of the duties device c pays. -/
def payToks (c : Dev nD) : sProp 𝕄 :=
  iprop((dutyTok ER (barCell (xpeer c)) 0 false ∗ dutyTok ER (barCell (ypeer c)) 0 true)
    ∗ (bigSep Finset.univ fun k : Fin 19 => dutyTok ER (dcell c (jXs k)) 0 false)
    ∗ (bigSep Finset.univ fun k : Fin 19 => dutyTok ER (dcell (xpeer c) (jXr k)) 0 false)
    ∗ (bigSep Finset.univ fun k : Fin 17 => dutyTok ER (dcell c (jYs k)) 0 false)
    ∗ (bigSep Finset.univ fun k : Fin 17 => dutyTok ER (dcell (ypeer c) (jYr k)) 0 false)
    ∗ dutyTok ER (dcell c jL) 0 false)

omit [FloatOps F] in
theorem payToks_eq (c : Dev nD) :
    (bigSep Finset.univ fun t : TI => (dutyTok ER (payTok (c, t)).1 (payTok (c, t)).2.1 (payTok (c, t)).2.2 : sProp 𝕄)) = payToks c := by
  unfold payToks
  rw [bigSep_univ_sum, bigSep_univ_sum, bigSep_univ_sum, bigSep_univ_sum, bigSep_univ_sum,
    bigSep_univ_eq_bigSepL [false, true] (by decide) (by decide), bigSepL_cons_cons, bigSepL_singleton,
    bigSep_univ_of_subsingleton (i := ())]
  rfl

/-- What the launch element deals device c (the theorem's G). -/
def G (c : Dev nD) : sProp 𝕄 :=
  iprop((bigSep Finset.univ fun k : Fin 74 => roundState ER (agRd m ρ) (kcell (c, k)) 0)
    ∗ (bigSep Finset.univ fun k : Fin 74 => iprop(atPos ER (kcell (c, k)) 0 ∅ 0 ∗ reached ER (kcell (c, k)) 0)) ∗ payToks c)

/-- What stays with device c: its positions and its tokens. -/
def linear (c : Dev nD) : sProp 𝕄 := iprop((bigSep Finset.univ fun k : Fin 74 => atPos ER (kcell (c, k)) 0 ∅ 0) ∗ payToks c)
def ghost (K : Dev nD × Fin 74 → ℕ) (c : Dev nD) : sProp 𝕄 := iprop(records m ρ K ∗ linear c)
/-- What the global step makes of it (G'). -/
def G' (c : Dev nD) : sProp 𝕄 := iprop(∃ K, ghost m ρ K c)

omit [FloatOps F] in
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 74 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => payToks c := by
    unfold ringToks; rw [bigSep_map, bigSep_univ_prod]
    exact bigSep_congr fun c _ => payToks_eq c
  iintro HX
  imod (Rounds.fund ER (agRd m ρ) ringCells ringToks) $$ HX with ⟨Hst, Hr, Hat, Htok⟩
  imodintro
  ihave Hst' := (Entails.of_eq (hX fun g => roundState ER (agRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

omit [FloatOps F] in
theorem bigSep_fin74 (Φ : Fin 74 → sProp 𝕄) : bigSep Finset.univ Φ = iprop(Φ 0 ∗ bigSep Finset.univ fun j : Fin 73 => Φ (kd j)) := by
  have hU : (Finset.univ : Finset (Fin 74)) = {0} ∪ Finset.univ.image kd := by decide +kernel
  rw [hU, bigSep_union (by decide +kernel), bigSep_singleton,
    bigSep_image_of_injOn (fun a _ b _ h => Fin.ext (by simpa [kd] using congrArg Fin.val h))]
  rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun j : Fin 73 => semVal (dcell c j) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 74 => semVal (kcell (c, k)) 0 : sProp 𝕄) := by
  rw [ownSems0_eq, unscopedSems0_eq, bigSep_fin74]
  iintro ⟨HS, HB⟩
  isplitl [HB]; · iexact HB
  iapply (Entails.of_eq (bigSep_congr fun j _ => by rw [kcell_kd])); iexact HS

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (agRd m ρ) κ (kcell (c, k))))
          ∗ (bigSep Finset.univ fun k => iprop(atPos ER (kcell (c, k)) 0 ∅ 0 ∗ reached ER (kcell (c, k)) 0)) ∗ payToks c) := by
  unfold G
  iintro ⟨Hos, Hus, Hst, Hat, Htok⟩
  ihave Hv := (sems0_eq (F := F) c) $$ [Hos Hus]
  · isplitl [Hos] <;> iassumption
  imod (show iprop((bigSep Finset.univ fun k : Fin 74 => semVal (kcell (c, k)) 0) ∗ bigSep Finset.univ fun k : Fin 74 => roundState ER (agRd m ρ) (kcell (c, k)) 0)
      ⊢ (|={Set.univ}=> bigSep Finset.univ fun k => iprop(∃ κ : ℕ, cellInv ER (agRd m ρ) κ (kcell (c, k))) : sProp 𝕄) from by
        rw [← bigSep_sep']
        exact (bigSep_mono fun k _ => (Rounds.body_intro ER (agRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem regroup :
    (bigSep Finset.univ fun c : Dev nD => iprop((bigSep Finset.univ fun k => iprop(∃ κ : ℕ, cellInv ER (agRd m ρ) κ (kcell (c, k))))
          ∗ (bigSep Finset.univ fun k => iprop(atPos ER (kcell (c, k)) 0 ∅ 0 ∗ reached ER (kcell (c, k)) 0)) ∗ payToks c) : sProp 𝕄)
      ⊢ bigSep Finset.univ (G' m ρ) := by
  rw [bigSep_sep', bigSep_sep', ← bigSep_univ_prod (fun ck : Dev nD × Fin 74 => iprop(∃ κ : ℕ, cellInv ER (agRd m ρ) κ (kcell ck))),
    bigSep_congr (s := Finset.univ) (fun (c : Dev nD) _ => bigSep_sep' Finset.univ (fun k : Fin 74 => (atPos ER (kcell (c, k)) 0 ∅ 0 : sProp 𝕄)) (fun k => reached ER (kcell (c, k)) 0)),
    bigSep_sep', ← bigSep_univ_prod (fun ck : Dev nD × Fin 74 => (reached ER (kcell ck) 0 : sProp 𝕄))]
  iintro ⟨HI, ⟨Hat, #HR⟩, Htok⟩
  ihave HK := (BI.bigSep_exists_pi Finset.univ (fun (ck : Dev nD × Fin 74) (κ : ℕ) => (cellInv ER (agRd m ρ) κ (kcell ck) : sProp 𝕄))) $$ HI
  icases HK with ⟨%K, #HI⟩
  iapply (bigSep_with_persistent (R := records m ρ K) fun c _ => show iprop(records m ρ K ∗ linear c) ⊢ G' m ρ c from by
    unfold G' ghost; iintro ⟨#HR', HL⟩; iexists K; isplitr; · iexact HR'
    iexact HL)
  isplitr
  · unfold records; isplitl; · iexact HI
    iexact HR
  · iapply (Entails.of_eq (bigSep_sep' Finset.univ (fun c : Dev nD => bigSep Finset.univ fun k : Fin 74 => (atPos ER (kcell (c, k)) 0 ∅ 0 : sProp 𝕄)) payToks).symm)
    isplitl [Hat]; · iexact Hat
    iexact Htok

omit [FloatOps F] in
/-- The global step (hglob): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.Kernel.AG

end
-- ==== Proof.Kernel.Run0.lean ====
/-
  The launch credit, the launch theorem's side conditions and the run of the all-gather; then what the arrays hold at the
  end: the argument as it was, and the result — the staged result buffer written back whole — at the contents function of
  the protocol, "element i is element (i mod 2048 rows) of the block of the device it came from".
-/
import proofs.«900081_g7700000000000082_dist_ag_v7x_xy2x2_x_m2048_n512_f32_1_alg».proof.Proof.Kernel.Launch

set_option maxRecDepth 16384

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

theorem owedDev_invol : ∀ (i : Fin 38) (c : Dev nD), owedDev (owedDev c i.val) i.val = c := by decide +kernel

omit [FloatOps F] in
/-- The credit tokens of every due some device owes device c's cells, one per due. -/
theorem creds_all (c : Dev nD) :
    (Pipeline.launchCred O₀ c : sProp 𝕄) ⊢ bigSep Finset.univ fun i : Fin 38 => cred (tallyAt ((c : Thread nD τ), owedSem i.val) () (owedAmt i.val)) := by
  have e : (O₀ : Dev nD → CellTallies nD τ sig Unit) = fun d => ∑ i ∈ (Finset.univ : Finset (Fin 38)), (fun (i : Fin 38) (d : Dev nD) => Oi d i) i d := rfl
  rw [e, Pipeline.launchCred_sum]
  exact bigSep_mono fun i _ => Pipeline.launchCred_tallyAt (owedSem i.val) (fun d => owedDev d i.val) (fun d => owedDev d i.val)
    (owedDev_invol i) (owedDev_invol i) () (owedAmt i.val) c

def iX (k : Fin 19) : Fin 38 := ⟨k.val + 2, by omega⟩
def iY (k : Fin 17) : Fin 38 := ⟨k.val + 21, by omega⟩

omit [FloatOps F] in
theorem bigSep_fin38 (Φ : Fin 38 → sProp 𝕄) :
    bigSep Finset.univ Φ = iprop(Φ 0 ∗ Φ 1 ∗ (bigSep Finset.univ fun k : Fin 19 => Φ (iX k)) ∗ bigSep Finset.univ fun k : Fin 17 => Φ (iY k)) := by
  have hU : (Finset.univ : Finset (Fin 38)) = {0} ∪ ({1} ∪ (Finset.univ.image iX ∪ Finset.univ.image iY)) := by decide +kernel
  rw [hU, bigSep_union (by decide +kernel), bigSep_union (by decide +kernel), bigSep_union (by decide +kernel), bigSep_singleton, bigSep_singleton,
    bigSep_image_of_injOn (fun a _ b _ h => Fin.ext (by simpa [iX] using congrArg Fin.val h)),
    bigSep_image_of_injOn (fun a _ b _ h => Fin.ext (by simpa [iY] using congrArg Fin.val h))]
  rfl

theorem owed_x (k : Fin 19) : owedSem (iX k).val = .dma (dsem (jXr k)) ∧ owedAmt (iX k).val = jamt (jXr k).val := by revert k; decide +kernel
theorem owed_y (k : Fin 17) : owedSem (iY k).val = .dma (dsem (jYr k)) ∧ owedAmt (iY k).val = jamt (jYr k).val := by revert k; decide +kernel

omit [FloatOps F] in
theorem creds (c : Dev nD) :
    (Pipeline.launchCred O₀ c : sProp 𝕄) ⊢ iprop(cred (tallyAt (barCell c) () 2)
      ∗ (bigSep Finset.univ fun k : Fin 19 => cred (tallyAt (dcell c (jXr k)) () (jamt (jXr k).val)))
      ∗ bigSep Finset.univ fun k : Fin 17 => cred (tallyAt (dcell c (jYr k)) () (jamt (jYr k).val))) := by
  refine (creds_all c).trans ?_
  rw [bigSep_fin38]
  simp only [fun k => (owed_x k).1, fun k => (owed_x k).2, fun k => (owed_y k).1, fun k => (owed_y k).2]
  iintro ⟨H0, H1, HX, HY⟩
  isplitl [H0 H1]
  · rw [← tallyAt_add (barCell c) () 1 1]
    iapply (cred_add _ _).2
    isplitl [H0]; · iexact H0
    iexact H1
  isplitl [HX]; · iexact HX
  iexact HY

/-! ## The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, #Hlev, Hcr, -, HG⟩
  ihave Hc := (creds (F := F) c) $$ Hcr
  icases Hc with ⟨HcB, HcX, HcY⟩
  unfold G' ghost linear payToks
  icases HG with ⟨%K, #Hrec, Hat, ⟨Htx, Hty⟩, HtXs, HtXr, HtYs, HtYr, HtL⟩
  ihave Hat' := (Entails.of_eq (bigSep_fin74 (fun k : Fin 74 => (atPos ER (kcell (c, k)) 0 ∅ 0 : sProp 𝕄)))) $$ Hat
  icases Hat' with ⟨HaB, HaD⟩
  ihave HaD' := (Entails.of_eq ((bigSep_congr fun j _ => by rw [kcell_kd]).trans (bigSep_fin73 (fun j : Fin 73 => (atPos ER (dcell c j) 0 ∅ 0 : sProp 𝕄))))) $$ HaD
  icases HaD' with ⟨HaXs, HaXr, HaYs, HaYr, HaL⟩
  imodintro
  isplitl
  · unfold start startAt
    iexists K
    isplitr; · iexact Hrec
    isplitr; · iexact Hlev
    isplitl [HaB]; · iexact HaB
    isplitl [HcB]; · iexact HcB
    isplitl [Htx]; · iexact Htx
    isplitl [Hty]; · iexact Hty
    isplitl [HaXs]; · iexact HaXs
    isplitl [HaXr HcX]
    · simp only [cellRes_one]; rw [bigSep_sep']
      isplitl [HaXr]; · iexact HaXr
      iexact HcX
    isplitl [HaYs]; · iexact HaYs
    isplitl [HaYr HcY]
    · simp only [cellRes_one]; rw [bigSep_sep']
      isplitl [HaYr]; · iexact HaYr
      iexact HcY
    isplitl [HaL]; · rw [cellRes_zero]; iexact HaL
    isplitl [HtXs HtXr]
    · unfold tokX; rw [bigSep_sep']
      isplitl [HtXs]; · iexact HtXs
      iexact HtXr
    isplitl [HtYs HtYr]
    · unfold tokY; rw [bigSep_sep']
      isplitl [HtYs]; · iexact HtYs
      iexact HtYr
    unfold tokL; iexact HtL
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro H
  isplitr; · iempintro
  isplitl [H]; · iexact H
  iempintro

theorem stage_lv : ∀ (w : Fin cfg0.W) (s : Fin (cfg0.win w).nbuf) (i : Fin 38), lvS (.dma ((cfg0.win w).sem s)) < lvS (owedSem i.val) := by
  decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · show (levAts L lv : sProp 𝕄) ⊢ MayWait (c : Thread nD τ) (.dma ((cfg0.win w).sem s)) () (O₀ c)
      rw [← Orem_zero c]
      exact mayWait_rem c _ 0 fun i _ => stage_lv w s i
    · show (levAts L lv : sProp 𝕄) ⊢ MayWait (c : Thread nD τ) (.dma ((cfg0.win w).sem s)) () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Kernel.AG

end
-- ==== Proof.Kernel.Steps.lean ====
/-
  One lemma per kind of step of the body, each from the state assertion to the state assertion with a few of its state
  functions updated at one index: an x-chunk's transfer to the row-mate; the local copy; the wait for an x-chunk's
  landing; its forwarding to the column-mate; the wait for a forwarded chunk's landing; the waits for the transfers'
  departures; the wait for the local copy.  Each wait also closes the cell: its counter is back at zero.

  The value step of a landing: the range written holds the source's elements, which are the result's elements there
  (the geometry's index equations), so every range is handed on at the result's own contents function.
-/
import proofs.«900081_g7700000000000082_dist_ag_v7x_xy2x2_x_m2048_n512_f32_1_alg».proof.Proof.Kernel.State
import Idealize.ShloMosaic.Lib.Pipeline.Value

set_option maxRecDepth 16384

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Small facts -/

omit [FloatOps F] in
theorem held_true (P : sProp 𝕄) : held true P = P := rfl
omit [FloatOps F] in
theorem held_false (P : sProp 𝕄) : held false P = iprop(emp) := rfl

/-- The amounts of the cells by kind. -/
theorem jamt_xs (k : Fin 19) : jamt (jXs k).val = NO (szO k.val) := by revert k; decide
theorem jamt_xr (k : Fin 19) : jamt (jXr k).val = NO (szO k.val) := by revert k; decide
theorem jamt_ys (k : Fin 17) : jamt (jYs k).val = NO (szO k.val) := by revert k; decide
theorem jamt_yr (k : Fin 17) : jamt (jYr k).val = NO (szO k.val) := by revert k; decide
theorem jamt_l : jamt (jL).val = NO 2048 := by decide

/-- The dues by kind. -/
theorem Oi_x (c : Dev nD) (k : Fin 19) : Oi c ⟨k.val + 2, by omega⟩ = tallyAt (dcell (xpeer c) (jXr k)) () (NO (szO k.val)) := by
  unfold Oi owedCell owedDev owedSem owedAmt
  have h1 : ¬ (k.val + 2 = 0) := by omega
  have h2 : ¬ (k.val + 2 = 1) := by omega
  have h3 : k.val + 2 < 21 := by omega
  have h4 : ¬ (k.val + 2 < 2) := by omega
  simp only [h1, h2, h3, h4, if_false, if_true, dif_pos, Nat.add_sub_cancel]
theorem Oi_y (c : Dev nD) (k : Fin 17) : Oi c ⟨k.val + 21, by omega⟩ = tallyAt (dcell (ypeer c) (jYr k)) () (NO (szO k.val)) := by
  unfold Oi owedCell owedDev owedSem owedAmt
  have h1 : ¬ (k.val + 21 = 0) := by omega
  have h2 : ¬ (k.val + 21 = 1) := by omega
  have h3 : ¬ (k.val + 21 < 21) := by omega
  have h4 : ¬ (k.val + 21 < 2) := by omega
  have h5 : k.val + 21 < 38 := by omega
  simp only [h1, h2, h3, h4, h5, if_false, if_true, dif_pos, dif_neg, not_false_eq_true, Nat.add_sub_cancel]
  have e : szO (k.val + 21 - 2) = szO k.val := by rw [show k.val + 21 - 2 = k.val + 19 from by omega, szO_y]
  rw [e]
  try rfl

/-- The views of the slices of the two staging buffers. -/
abbrev slX (off sz : Fin 2 → ℕ) (inb : ∀ a, off a + sz a ≤ S2048x512.size a) (hr) :=
  (Memref.whole XB : Memref sig .tc .vmem S2048x512 .f32).slice (Rect.unit (s := S2048x512) off sz inb) hr
abbrev slO (off sz : Fin 2 → ℕ) (inb : ∀ a, off a + sz a ≤ S4096x512.size a) (hr) :=
  (Memref.whole OB : Memref sig .tc .vmem S4096x512 .f32).slice (Rect.unit (s := S4096x512) off sz inb) hr

theorem slX_set (off sz inb hr) : (slX off sz inb hr).view.set = (Rect.unit (s := S2048x512) off sz inb).set := View.set_slice_whole XB _
theorem slO_set (off sz inb hr) : (slO off sz inb hr).view.set = (Rect.unit (s := S4096x512) off sz inb).set := View.set_slice_whole OB _

/-! ## Ranges through the slices' views -/

omit [FloatOps F] in
theorem Xpt_slice (c : Dev nD) {off sz : Fin 2 → ℕ} {inb hr} {I : Finset SX.Idx} (h : (Rect.unit (s := S2048x512) off sz inb).set = I) (q : PosShare TreeShare) :
    Xpt m ρ c I q = ((slX off sz inb hr).view.loc (c : Thread nD τ) ↦[(slX off sz inb hr).view.set]{q} xb m ρ c : sProp 𝕄) := by
  subst h; unfold Xpt; rw [slX_set]
omit [FloatOps F] in
theorem Opt_slice (c : Dev nD) {off sz : Fin 2 → ℕ} {inb hr} {I : Finset SO.Idx} (h : (Rect.unit (s := S4096x512) off sz inb).set = I) :
    Opt m ρ c I = ((slO off sz inb hr).view.loc (c : Thread nD τ) ↦[(slO off sz inb hr).view.set]{fullShare} oc m ρ c : sProp 𝕄) := by
  subst h; unfold Opt; rw [slO_set]
omit [FloatOps F] in
theorem Oany_slice (c : Dev nD) {off sz : Fin 2 → ℕ} {inb hr} {I : Finset SO.Idx} (h : (Rect.unit (s := S4096x512) off sz inb).set = I) :
    Oany (F := F) c I = (iprop(∃ f, (slO off sz inb hr).view.loc (c : Thread nD τ) ↦[(slO off sz inb hr).view.set]{fullShare} f) : sProp 𝕄) := by
  subst h; unfold Oany; rw [slO_set]

omit [FloatOps F] in
theorem Xpt_whole (c : Dev nD) (q : PosShare TreeShare) :
    Xpt m ρ c Finset.univ q = ((Memref.whole XB : Memref sig .tc .vmem S2048x512 .f32).view.loc (c : Thread nD τ)
      ↦[(Memref.whole XB : Memref sig .tc .vmem S2048x512 .f32).view.set]{q} xb m ρ c : sProp 𝕄) := by
  show (((c : Thread nD τ).loc XB) ↦[Finset.univ]{q} xb m ρ c : sProp 𝕄) = (((c : Thread nD τ).loc XB) ↦[(View.whole XB).set]{q} xb m ρ c : sProp 𝕄)
  rw [View.set_whole]

/-! ## What a landing leaves -/

omit [FloatOps F] in
/-- An x-chunk landed on the row-mate: its range holds the result's contents there. -/
theorem landed_x (c : Dev nD) (k : Fin 19) {inb₁ inb₂ hr₁ hr₂}
    (fd : Buf (Elt F) ((slO ![loO (xpeer c) k.val, 0] ![szO k.val, 512] inb₂ hr₂).view.loc (xpeer c : Thread nD τ))) :
    ((slO ![loO (xpeer c) k.val, 0] ![szO k.val, 512] inb₂ hr₂).view.loc (xpeer c : Thread nD τ)
        ↦[(slO ![loO (xpeer c) k.val, 0] ![szO k.val, 512] inb₂ hr₂).view.set]{fullShare}
          ((slO ![loO (xpeer c) k.val, 0] ![szO k.val, 512] inb₂ hr₂).view.write (Elt F) fd
            ((slX ![coff (dy c) k.val, 0] ![szO k.val, 512] inb₁ hr₁).view.read (Elt F) (xb m ρ c)) Finset.univ) : sProp 𝕄)
      = Opt m ρ (xpeer c) (rectO (xpeer c) (tX k)).set := by
  rw [Opt_slice m ρ (xpeer c) (hr := hr₂) (show (Rect.unit (s := S4096x512) ![loO (xpeer c) k.val, 0] ![szO k.val, 512] inb₂).set = (rectO (xpeer c) (tX k)).set from rfl)]
  refine pointsTo_congr fun i hi => ?_
  obtain ⟨y, rfl⟩ := View.exists_emb_of_mem_set _ hi
  rw [View.write_emb_of_mem _ _ (Finset.mem_univ y), View.read_apply]
  obtain ⟨h1, h2⟩ := land_x c k y
  show _ = xb m ρ (srcDev (xpeer c) _) (rowmod _)
  erw [h1, h2]
  simp only [cast_cast, cast_eq]
  rfl

omit [FloatOps F] in
/-- A forwarded chunk landed on the column-mate: its range holds the result's contents there. -/
theorem landed_y (c : Dev nD) (k : Fin 17) {inb hr}
    (fd : Buf (Elt F) ((slO ![loO c k.val, 0] ![szO k.val, 512] inb hr).view.loc (ypeer c : Thread nD τ))) :
    ((slO ![loO c k.val, 0] ![szO k.val, 512] inb hr).view.loc (ypeer c : Thread nD τ)
        ↦[(slO ![loO c k.val, 0] ![szO k.val, 512] inb hr).view.set]{fullShare}
          ((slO ![loO c k.val, 0] ![szO k.val, 512] inb hr).view.write (Elt F) fd
            ((slO ![loO c k.val, 0] ![szO k.val, 512] inb hr).view.read (Elt F) (oc m ρ c)) Finset.univ) : sProp 𝕄)
      = Opt m ρ (ypeer c) (rectO (ypeer c) (tY k)).set := by
  rw [rect_y c k, Opt_slice m ρ (ypeer c) (hr := hr) (show (Rect.unit (s := S4096x512) ![loO c k.val, 0] ![szO k.val, 512] inb).set = (rectO c (tX ⟨k.val, by omega⟩)).set from rfl)]
  refine pointsTo_congr fun i hi => ?_
  have hi' : i ∈ (rectO c (tX ⟨k.val, by omega⟩)).set := by rw [slO_set] at hi; exact hi
  obtain ⟨y, rfl⟩ := View.exists_emb_of_mem_set _ hi
  rw [View.write_emb_of_mem _ _ (Finset.mem_univ y), View.read_apply]
  simp only [cast_cast, cast_eq]
  show oc m ρ c _ = oc m ρ (ypeer c) _
  unfold oc
  rw [srcDev_y c k hi']

omit [FloatOps F] in
/-- The local copy landed: the device's own rows of its result hold the result's contents there. -/
theorem landed_l (c : Dev nD) {inb hr}
    (fd : Buf (Elt F) ((slO ![loO c 36, 0] ![2048, 512] inb hr).view.loc (c : Thread nD τ))) :
    ((slO ![loO c 36, 0] ![2048, 512] inb hr).view.loc (c : Thread nD τ)
        ↦[(slO ![loO c 36, 0] ![2048, 512] inb hr).view.set]{fullShare}
          ((slO ![loO c 36, 0] ![2048, 512] inb hr).view.write (Elt F) fd
            ((Memref.whole XB : Memref sig .tc .vmem S2048x512 .f32).view.read (Elt F) (xb m ρ c)) Finset.univ) : sProp 𝕄)
      = Opt m ρ c (rectO c tL).set := by
  rw [Opt_slice m ρ c (hr := hr) (show (Rect.unit (s := S4096x512) ![loO c 36, 0] ![2048, 512] inb).set = (rectO c tL).set from rfl)]
  refine pointsTo_congr fun i hi => ?_
  obtain ⟨y, rfl⟩ := View.exists_emb_of_mem_set _ hi
  refine (View.write_emb_of_mem _ _ (Finset.mem_univ y)).trans ?_
  rw [View.read_apply]
  obtain ⟨h1, h2⟩ := land_l c y
  show _ = xb m ρ (srcDev c _) (rowmod _)
  erw [h1, h2]
  simp only [cast_cast, cast_eq]
  rfl

/-! ## A wait on a DMA cell of one's own, and the cell closed -/

omit [FloatOps F] in
theorem lvS_facts : (∀ i : Fin 38, 21 ≤ i.val → lvS (owedSem i.val) = 3) ∧ (∀ i : Fin 38, 2 ≤ i.val → 2 ≤ lvS (owedSem i.val))
    ∧ (∀ k : Fin 19, lvS (.dma (dsem (jXr k))) = 2) ∧ lvS (.reg barS) = 1 := by
  refine ⟨by decide +kernel, by decide +kernel, by decide +kernel, rfl⟩

section Wait
variable (K : Dev nD × Fin 74 → ℕ) (c : Dev nD)

/-- The wait for the one duty of cell j (its credit in hand), then the cell closed: the duty's payload and the counter
    at zero. -/
theorem wait_cell {α : Type} {Q : α → sProp 𝕄} {kont : PUnit → Prog (TpuEff nD τ sig (Elt F) Λ₀ .tc) α} (j : Fin 73) {w : TpuEff nD τ sig (Elt F) Λ₀ .tc PUnit} {k' : ℕ}
    (hw : ∀ Kc : PUnit → sProp 𝕄, wpE (defs₀ (F := F)) 𝒱₀ (c : Thread nD τ) none Set.univ w Kc = waitSpec (c : Thread nD τ) Set.univ (.dma (dsem j)) k' Kc)
    (hk' : k' = jamt j.val) (O : CellTallies nD τ sig Unit) (W : Waits sig Unit)
    (hMay : (levAts L lv : sProp 𝕄) ⊢ MayWait (c : Thread nD τ) (.dma (dsem j)) () O) :
    iprop(records m ρ K ∗ levAts L lv ∗ cellRes c j 1 ∗ owes (c : Thread nD τ) O W)
      ⊢ iprop(((cellRes c j 2 ∗ dpay m ρ c j ∗ ∃ W', owes (c : Thread nD τ) O W') -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hk'
  iintro ⟨#Hrec, #Hlev, Hcell, HO⟩ Hk
  ihave Hcell' := (Entails.of_eq (cellRes_one c j)) $$ Hcell
  icases Hcell' with ⟨Hat, Hcr⟩
  iapply (Rounds.wp_wait_rest_token 𝒱₀ ER (agRd m ρ) (c : Thread nD τ) none (κ := K (c, kd j)) hw (Set.mem_univ _) () (O := O) (W := W) (R := 0) (m := 0) (T := ∅)
      (by rw [Nat.zero_add, expect_d])) $$ [Hcr HO Hat]
  · isplitr; · iapply (inv_d m ρ K c j); iexact Hrec
    isplitl [Hcr]; · iexact Hcr
    isplitl [HO]; · iexact HO
    isplitr; · iapply hMay; iexact Hlev
    iexact Hat
  iintro ⟨HO, Hat, -, Hpay⟩
  ihave Hp := (Entails.of_eq (rest_d m ρ c j)) $$ Hpay
  imod (Rounds.cell_close ER (agRd m ρ) (Set.mem_univ (K (c, kd j))) (not_unitless m ρ _) (R := 0 + 1) (duties_later m ρ (dcell c j))) $$ [Hat] with Hz
  · isplitr; · iapply (inv_d m ρ K c j); iexact Hrec
    iexact Hat
  iapply Hk
  isplitl [Hz]; · (iapply (Entails.of_eq (cellRes_two c j).symm); iexact Hz)
  isplitl [Hp]; · iexact Hp
  iexists _; iexact HO

end Wait

/-! ## The steps -/

section Steps

variable (K : Dev nD × Fin 74 → ℕ) (c : Dev nD)
variable {cXs cXr : Fin 19 → ℕ} {cYs cYr : Fin 17 → ℕ} {cL : ℕ} {kX : Fin 19 → Bool} {kY : Fin 17 → Bool} {kL : Bool}
  {sX : Fin 19 → Bool} {sL : Bool} {oX : Fin 19 → ℕ} {oY : Fin 17 → ℕ} {oL : ℕ} {pX : Fin 19 → Bool} {pY : Fin 17 → Bool} {n : ℕ}

/-- x-chunk k's transfer to the row-mate. -/
theorem step_xsend {α : Type} {Q : α → sProp 𝕄} {kont : PUnit → Prog (TpuEff nD τ sig (Elt F) Λ₀ .tc) α} (k : Fin 19) (n' : Dev nD) (hn' : n' = xpeer c) (hn : n = k.val + 2)
    (hc : cXs k = 0) (hk : kX k = true) (hs : sX k = true) (hp : pX k = true)
    {off₁ off₂ sz : Fin 2 → ℕ} {inb₁ inb₂ hr₁ hr₂}
    (h₁ : off₁ = ![coff (dy c) k.val, 0]) (h₂ : off₂ = ![loO (xpeer c) k.val, 0]) (hz : sz = ![szO k.val, 512])
    {hsc : (slO off₂ sz inb₂ hr₂ : Memref sig (Dev.tc n' : Thread nD τ).2.kind .vmem _ .f32).view.ref.isScScratch = false}
    {hsrc : (slX off₁ sz inb₁ hr₁).view.WordExact} {hdst : (slO off₂ sz inb₂ hr₂).view.WordExact}
    {hsem : DmaTarget.Typed .vmem (.dma (dsem (jXr k))) (.remote (Dev.tc n' : Thread nD τ) (slO off₂ sz inb₂ hr₂) (.dma (dsem (jXs k))) hsc)} :
    St m ρ K c cXs cXr cYs cYr cL kX kY kL sX sL oX oY oL pX pY n
      ⊢ iprop((St m ρ K c (Function.update cXs k 1) cXr cYs cYr cL (Function.update kX k false) kY kL (Function.update sX k false) sL oX oY oL
              (Function.update pX k false) pY (n + 1) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slX off₁ sz inb₁ hr₁) (.remote (Dev.tc n' : Thread nD τ) (slO off₂ sz inb₂ hr₂) (.dma (dsem (jXs k))) hsc)
                (.dma (dsem (jXr k))) hsrc hdst hsem) kont) Q) := by
  subst hn' hn h₁ h₂ hz
  unfold St
  iintro ⟨#Hrec, #Hlev, HcXs, HcXr, HcYs, HcYr, HcL, HkX, HkY, HkL, HsX, HsL, HxR, HoX, HoY, HoL, HpX, HpY, ⟨%W, HO⟩⟩ Hk
  ihave H1 := (bigSep_upd (fun k s => cellRes c (jXs k) s) cXs k 0 1 hc) $$ HcXs
  icases H1 with ⟨Hat0, HcXs⟩
  ihave Hat := (Entails.of_eq (cellRes_zero c (jXs k))) $$ Hat0
  ihave H2 := (bigSep_upd (fun k b => held b (tokX c k)) kX k true false hk) $$ HkX
  icases H2 with ⟨Htok, HkX⟩
  ihave H3 := (bigSep_upd (fun k b => held b (Xpt m ρ c (rectXs c k).set fullShare.right)) sX k true false hs) $$ HsX
  icases H3 with ⟨Hsrc, HsX⟩
  ihave H4 := (bigSep_upd (fun k b => held b (Oany (F := F) (xpeer c) (rectO (xpeer c) (tX k)).set)) pX k true false hp) $$ HpX
  icases H4 with ⟨Hdst, HpX⟩
  ihave Htok' := (Entails.of_eq (held_true (tokX c k))) $$ Htok
  unfold tokX
  icases Htok' with ⟨Ht1, Ht2⟩
  ihave Hsrc' := (Entails.of_eq ((held_true _).trans (Xpt_slice m ρ c (hr := hr₁) (show (Rect.unit (s := S2048x512) ![coff (dy c) k.val, 0] ![szO k.val, 512] inb₁).set = (rectXs c k).set from rfl) fullShare.right))) $$ Hsrc
  ihave Hdst' := (Entails.of_eq ((held_true _).trans (Oany_slice (xpeer c) (hr := hr₂) (show (Rect.unit (s := S4096x512) ![loO (xpeer c) k.val, 0] ![szO k.val, 512] inb₂).set = (rectO (xpeer c) (tX k)).set from rfl)))) $$ Hdst
  icases Hdst' with ⟨%fd, Hdst'⟩
  iapply (Rounds.wp_send_pointsTo 𝒱₀ ER (agRd m ρ) (c : Thread nD τ) none (κ₁ := K (c, kd (jXs k))) (κ₂ := K (xpeer c, kd (jXr k)))
      (r₁ := 0) (r₂ := 0) (d₁ := false) (d₂ := false) (fs := xb m ρ c) (fd := fd) (q := fullShare.right)
      (by simp [duties_d]) (by simp [duties_d])
      () () (NO (szO k.val)) rfl ((amount_d m ρ c (jXs k) false).trans (jamt_xs k)) ((amount_d m ρ (xpeer c) (jXr k) false).trans (jamt_xr k))
      (O₀ := Orem c (k.val + 2)) (Orem c (k.val + 2 + 1)) ((Orem_succ c (k.val + 2) (by omega)).trans (congrArg (Orem c (k.val + 2 + 1) + ·) (Oi_x c k))) (W := W)
      (by rw [payload_d, dpay_xs, Xpt_slice m ρ c (hr := hr₁) (show (Rect.unit (s := S2048x512) ![coff (dy c) k.val, 0] ![szO k.val, 512] inb₁).set = (rectXs c k).set from rfl) fullShare.right] <;> exact BI.Entails.refl _)
      (by rw [payload_d, dpay_xr, landed_x m ρ c k fd] <;> exact BI.Entails.refl _)) $$ [Hsrc' Hdst' HO Ht1 Ht2]
  · isplitr; · iapply (inv_d m ρ K c (jXs k)); iexact Hrec
    isplitr; · iapply (inv_d m ρ K (xpeer c) (jXr k)); iexact Hrec
    isplitl [Hsrc']; · iexact Hsrc'
    isplitl [Hdst']; · iexact Hdst'
    isplitl [HO]; · iexact HO
    isplitl [Ht1]; · iexact Ht1
    isplitr; · iapply (reached_d m ρ K c (jXs k)); iexact Hrec
    isplitl [Ht2]; · iexact Ht2
    iapply (reached_d m ρ K (xpeer c) (jXr k)); iexact Hrec
  iintro ⟨Hcred, HO⟩
  ihave HcXs := HcXs $$ [Hat Hcred]
  · iapply (Entails.of_eq ((cellRes_one c (jXs k)).trans (by rw [jamt_xs])).symm)
    isplitl [Hat]; · iexact Hat
    iexact Hcred
  ihave HkX := HkX $$ []
  · iapply (Entails.of_eq (held_false _).symm); iempintro
  ihave HsX := HsX $$ []
  · iapply (Entails.of_eq (held_false _).symm); iempintro
  ihave HpX := HpX $$ []
  · iapply (Entails.of_eq (held_false _).symm); iempintro
  iapply Hk
  isplitr; · iexact Hrec
  isplitr; · iexact Hlev
  iframe
  iexists _; iexact HO

/-- The local copy of the block into the device's own rows of its result. -/
theorem step_lcopy {α : Type} {Q : α → sProp 𝕄} {kont : PUnit → Prog (TpuEff nD τ sig (Elt F) Λ₀ .tc) α} (hc : cL = 0) (hk : kL = true) (hs : sL = true) (ho : oL = 0)
    {off : Fin 2 → ℕ} {inb hr} (h₁ : off = ![loO c 36, 0])
    {hsrc : (Memref.whole XB : Memref sig .tc .vmem S2048x512 .f32).view.WordExact} {hdst : (slO off ![2048, 512] inb hr).view.WordExact}
    {hsem : DmaTarget.Typed (nD := nD) (τ := τ) XB.space (.dma (dsem jL)) (DmaTarget.here (p := Proc.tc) (slO off ![2048, 512] inb hr))} :
    St m ρ K c cXs cXr cYs cYr cL kX kY kL sX sL oX oY oL pX pY n
      ⊢ iprop((St m ρ K c cXs cXr cYs cYr 1 kX kY false sX false oX oY 1 pX pY n -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (Memref.whole XB : Memref sig .tc .vmem S2048x512 .f32) (DmaTarget.here (p := Proc.tc) (slO off ![2048, 512] inb hr)) (.dma (dsem jL)) hsrc hdst hsem) kont) Q) := by
  subst hc hk hs ho h₁
  unfold St
  iintro ⟨#Hrec, #Hlev, HcXs, HcXr, HcYs, HcYr, HcL, HkX, HkY, HkL, HsX, HsL, HxR, HoX, HoY, HoL, HpX, HpY, ⟨%W, HO⟩⟩ Hk
  ihave Htok := (Entails.of_eq ((held_true (tokL c)).trans (show tokL c = dutyTok ER (dcell c jL) 0 false from rfl))) $$ HkL
  ihave Hsrc := (Entails.of_eq (held_true (Xpt m ρ c Finset.univ fullShare.left))) $$ HsL
  ihave Hsrc' := (Entails.of_eq (Xpt_whole m ρ c fullShare.left)) $$ Hsrc
  ihave Hdst := (Entails.of_eq (show oRes m ρ c tL 0 = _ from Oany_slice c (hr := hr) (show (Rect.unit (s := S4096x512) ![loO c 36, 0] ![2048, 512] inb).set = (rectO c tL).set from rfl))) $$ HoL
  icases Hdst with ⟨%fd, Hdst⟩
  iapply (Rounds.wp_copy_pointsTo 𝒱₀ ER (agRd m ρ) (c : Thread nD τ) none (κ := K (c, kd jL)) (r := 0) (d := false) (fs := xb m ρ c) (fd := fd) (q := fullShare.left)
      (by simp [duties_d]) () (NO 2048) rfl ((amount_d m ρ c jL false).trans jamt_l)
      (by rw [payload_d, dpay_l, landed_l m ρ c fd, ← Xpt_whole m ρ c fullShare.left] <;> exact BI.Entails.refl _)) $$ [Hsrc' Hdst Htok]
  · isplitr; · iapply (inv_d m ρ K c jL); iexact Hrec
    isplitl [Hsrc']; · iexact Hsrc'
    isplitl [Hdst]; · iexact Hdst
    isplitl [Htok]; · iexact Htok
    iapply (reached_d m ρ K c jL); iexact Hrec
  iintro Hcred
  ihave Hat := (Entails.of_eq (cellRes_zero c jL)) $$ HcL
  ihave HcL : cellRes c jL 1 $$ [Hat Hcred]
  · iapply (Entails.of_eq ((cellRes_one c jL).trans (by rw [jamt_l])).symm)
    isplitl [Hat]; · iexact Hat
    iexact Hcred
  ihave HkL : held false (tokL c) $$ []
  · iapply (Entails.of_eq (held_false _).symm); iempintro
  ihave HsL : held false (Xpt m ρ c Finset.univ fullShare.left) $$ []
  · iapply (Entails.of_eq (held_false _).symm); iempintro
  ihave HoL : oRes m ρ c tL 1 $$ []
  · iapply (Entails.of_eq (oRes_one m ρ c _).symm); iempintro
  iapply Hk
  isplitr; · iexact Hrec
  isplitr; · iexact Hlev
  iframe
  iexists _; iexact HO

/-- The wait for x-chunk k's landing: its range of the result at the result's contents. -/
theorem step_xwait {α : Type} {Q : α → sProp 𝕄} {kont : PUnit → Prog (TpuEff nD τ sig (Elt F) Λ₀ .tc) α} (k : Fin 19) (hn : 21 ≤ n) (hc : cXr k = 1)
    {w : TpuEff nD τ sig (Elt F) Λ₀ .tc PUnit} {k' : ℕ}
    (hw : ∀ Kc : PUnit → sProp 𝕄, wpE (defs₀ (F := F)) 𝒱₀ (c : Thread nD τ) none Set.univ w Kc = waitSpec (c : Thread nD τ) Set.univ (.dma (dsem (jXr k))) k' Kc)
    (hk' : k' = NO (szO k.val)) :
    St m ρ K c cXs cXr cYs cYr cL kX kY kL sX sL oX oY oL pX pY n
      ⊢ iprop((St m ρ K c cXs (Function.update cXr k 2) cYs cYr cL kX kY kL sX sL (Function.update oX k 2) oY oL pX pY n -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  unfold St
  iintro ⟨#Hrec, #Hlev, HcXs, HcXr, HcYs, HcYr, HcL, HkX, HkY, HkL, HsX, HsL, HxR, HoX, HoY, HoL, HpX, HpY, ⟨%W, HO⟩⟩ Hk
  ihave H1 := (bigSep_upd (fun k s => cellRes c (jXr k) s) cXr k 1 2 hc) $$ HcXr
  icases H1 with ⟨Hcell, HcXr⟩
  iapply (wait_cell m ρ K c (jXr k) hw (hk'.trans (jamt_xr k).symm) (Orem c n) W
      (mayWait_rem c _ n fun i hi => by rw [lvS_facts.2.2.1 k, lvS_facts.1 i (by omega)]; decide)) $$ [Hcell HO]
  · isplitr; · iexact Hrec
    isplitr; · iexact Hlev
    isplitl [Hcell]; · iexact Hcell
    iexact HO
  iintro ⟨Hz, Hp, HO⟩
  icases HO with ⟨%W', HO⟩
  ihave HcXr := HcXr $$ Hz
  ihave Hp' := (Entails.of_eq (dpay_xr m ρ c k)) $$ Hp
  ihave H2 := (bigSep_univ_update (Φ := fun k => oRes m ρ c (tX k) (oX k)) (Ψ := fun j => oRes m ρ c (tX j) (Function.update oX k 2 j)) k
      (fun j hj => by show oRes m ρ c (tX j) (Function.update oX k 2 j) = oRes m ρ c (tX j) (oX j); rw [Function.update_of_ne hj])) $$ HoX
  icases H2 with ⟨-, HoX⟩
  ihave HoX := HoX $$ [Hp']
  · iapply (Entails.of_eq (by rw [Function.update_self, oRes_two])); iexact Hp'
  iapply Hk
  isplitr; · iexact Hrec
  isplitr; · iexact Hlev
  iframe
  iexists _; iexact HO

/-- x-chunk k, landed, forwarded to the column-mate. -/
theorem step_ysend {α : Type} {Q : α → sProp 𝕄} {kont : PUnit → Prog (TpuEff nD τ sig (Elt F) Λ₀ .tc) α} (k : Fin 17) (n' : Dev nD) (hn' : n' = ypeer c) (hn : n = k.val + 21)
    (hc : cYs k = 0) (hk : kY k = true) (ho : oX ⟨k.val, by omega⟩ = 2) (hp : pY k = true)
    {off sz : Fin 2 → ℕ} {inb₁ inb₂ hr₁ hr₂}
    (h₁ : off = ![loO c k.val, 0]) (hz : sz = ![szO k.val, 512])
    {hsc : (slO off sz inb₂ hr₂ : Memref sig (Dev.tc n' : Thread nD τ).2.kind .vmem _ .f32).view.ref.isScScratch = false}
    {hsrc : (slO off sz inb₁ hr₁).view.WordExact} {hdst : (slO off sz inb₂ hr₂).view.WordExact}
    {hsem : DmaTarget.Typed .vmem (.dma (dsem (jYr k))) (.remote (Dev.tc n' : Thread nD τ) (slO off sz inb₂ hr₂) (.dma (dsem (jYs k))) hsc)} :
    St m ρ K c cXs cXr cYs cYr cL kX kY kL sX sL oX oY oL pX pY n
      ⊢ iprop((St m ρ K c cXs cXr (Function.update cYs k 1) cYr cL kX (Function.update kY k false) kL sX sL (Function.update oX ⟨k.val, by omega⟩ 1) oY oL
              pX (Function.update pY k false) (n + 1) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slO off sz inb₁ hr₁) (.remote (Dev.tc n' : Thread nD τ) (slO off sz inb₂ hr₂) (.dma (dsem (jYs k))) hsc)
                (.dma (dsem (jYr k))) hsrc hdst hsem) kont) Q) := by
  subst hn' hn h₁ hz
  have hk19 : k.val < 19 := by omega
  unfold St
  iintro ⟨#Hrec, #Hlev, HcXs, HcXr, HcYs, HcYr, HcL, HkX, HkY, HkL, HsX, HsL, HxR, HoX, HoY, HoL, HpX, HpY, ⟨%W, HO⟩⟩ Hk
  ihave H1 := (bigSep_upd (fun k s => cellRes c (jYs k) s) cYs k 0 1 hc) $$ HcYs
  icases H1 with ⟨Hat0, HcYs⟩
  ihave Hat := (Entails.of_eq (cellRes_zero c (jYs k))) $$ Hat0
  ihave H2 := (bigSep_upd (fun k b => held b (tokY c k)) kY k true false hk) $$ HkY
  icases H2 with ⟨Htok, HkY⟩
  ihave H3 := (bigSep_upd (fun k s => oRes m ρ c (tX k) s) oX ⟨k.val, by omega⟩ 2 1 ho) $$ HoX
  icases H3 with ⟨Hsrc, HoX⟩
  ihave H4 := (bigSep_upd (fun k b => held b (Oany (F := F) (ypeer c) (rectO (ypeer c) (tY k)).set)) pY k true false hp) $$ HpY
  icases H4 with ⟨Hdst, HpY⟩
  ihave Htok' := (Entails.of_eq (held_true (tokY c k))) $$ Htok
  unfold tokY
  icases Htok' with ⟨Ht1, Ht2⟩
  ihave Hsrc' := (Entails.of_eq ((oRes_two m ρ c _).trans
      (Opt_slice m ρ c (hr := hr₁) (show (Rect.unit (s := S4096x512) ![loO c k.val, 0] ![szO k.val, 512] inb₁).set = (rectO c (tX ⟨k.val, hk19⟩)).set from rfl)))) $$ Hsrc
  ihave Hdst' := (Entails.of_eq ((held_true _).trans (Oany_slice (ypeer c) (hr := hr₂)
      (show (Rect.unit (s := S4096x512) ![loO c k.val, 0] ![szO k.val, 512] inb₂).set = (rectO (ypeer c) (tY k)).set from (rect_y c k).symm)))) $$ Hdst
  icases Hdst' with ⟨%fd, Hdst'⟩
  iapply (Rounds.wp_send_pointsTo 𝒱₀ ER (agRd m ρ) (c : Thread nD τ) none (κ₁ := K (c, kd (jYs k))) (κ₂ := K (ypeer c, kd (jYr k)))
      (r₁ := 0) (r₂ := 0) (d₁ := false) (d₂ := false) (fs := oc m ρ c) (fd := fd) (q := fullShare)
      (by simp [duties_d]) (by simp [duties_d])
      () () (NO (szO k.val)) rfl ((amount_d m ρ c (jYs k) false).trans (jamt_ys k)) ((amount_d m ρ (ypeer c) (jYr k) false).trans (jamt_yr k))
      (O₀ := Orem c (k.val + 21)) (Orem c (k.val + 21 + 1)) ((Orem_succ c (k.val + 21) (by omega)).trans (congrArg (Orem c (k.val + 21 + 1) + ·) (Oi_y c k))) (W := W)
      (by rw [payload_d, dpay_ys, Opt_slice m ρ c (hr := hr₁) (show (Rect.unit (s := S4096x512) ![loO c k.val, 0] ![szO k.val, 512] inb₁).set = (rectO c (tX ⟨k.val, by omega⟩)).set from rfl)] <;> exact BI.Entails.refl _)
      (by rw [payload_d, dpay_yr, landed_y m ρ c k fd] <;> exact BI.Entails.refl _)) $$ [Hsrc' Hdst' HO Ht1 Ht2]
  · isplitr; · iapply (inv_d m ρ K c (jYs k)); iexact Hrec
    isplitr; · iapply (inv_d m ρ K (ypeer c) (jYr k)); iexact Hrec
    isplitl [Hsrc']; · iexact Hsrc'
    isplitl [Hdst']; · iexact Hdst'
    isplitl [HO]; · iexact HO
    isplitl [Ht1]; · iexact Ht1
    isplitr; · iapply (reached_d m ρ K c (jYs k)); iexact Hrec
    isplitl [Ht2]; · iexact Ht2
    iapply (reached_d m ρ K (ypeer c) (jYr k)); iexact Hrec
  iintro ⟨Hcred, HO⟩
  ihave HcYs := HcYs $$ [Hat Hcred]
  · iapply (Entails.of_eq ((cellRes_one c (jYs k)).trans (by rw [jamt_ys])).symm)
    isplitl [Hat]; · iexact Hat
    iexact Hcred
  ihave HkY := HkY $$ []
  · iapply (Entails.of_eq (held_false _).symm); iempintro
  ihave HoX := HoX $$ []
  · iapply (Entails.of_eq (oRes_one m ρ c _).symm); iempintro
  ihave HpY := HpY $$ []
  · iapply (Entails.of_eq (held_false _).symm); iempintro
  iapply Hk
  isplitr; · iexact Hrec
  isplitr; · iexact Hlev
  iframe
  iexists _; iexact HO

/-- The wait for forwarded chunk k's landing. -/
theorem step_ywait {α : Type} {Q : α → sProp 𝕄} {kont : PUnit → Prog (TpuEff nD τ sig (Elt F) Λ₀ .tc) α} (k : Fin 17) (hn : n = 38) (hc : cYr k = 1)
    {w : TpuEff nD τ sig (Elt F) Λ₀ .tc PUnit} {k' : ℕ}
    (hw : ∀ Kc : PUnit → sProp 𝕄, wpE (defs₀ (F := F)) 𝒱₀ (c : Thread nD τ) none Set.univ w Kc = waitSpec (c : Thread nD τ) Set.univ (.dma (dsem (jYr k))) k' Kc)
    (hk' : k' = NO (szO k.val)) :
    St m ρ K c cXs cXr cYs cYr cL kX kY kL sX sL oX oY oL pX pY n
      ⊢ iprop((St m ρ K c cXs cXr cYs (Function.update cYr k 2) cL kX kY kL sX sL oX (Function.update oY k 2) oL pX pY n -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hn
  unfold St
  iintro ⟨#Hrec, #Hlev, HcXs, HcXr, HcYs, HcYr, HcL, HkX, HkY, HkL, HsX, HsL, HxR, HoX, HoY, HoL, HpX, HpY, ⟨%W, HO⟩⟩ Hk
  ihave H1 := (bigSep_upd (fun k s => cellRes c (jYr k) s) cYr k 1 2 hc) $$ HcYr
  icases H1 with ⟨Hcell, HcYr⟩
  iapply (wait_cell m ρ K c (jYr k) hw (hk'.trans (jamt_yr k).symm) (Orem c 38) W
      (by rw [Orem_last, MayWait_zero]; iintro -; iempintro)) $$ [Hcell HO]
  · isplitr; · iexact Hrec
    isplitr; · iexact Hlev
    isplitl [Hcell]; · iexact Hcell
    iexact HO
  iintro ⟨Hz, Hp, HO⟩
  icases HO with ⟨%W', HO⟩
  ihave HcYr := HcYr $$ Hz
  ihave Hp' := (Entails.of_eq (dpay_yr m ρ c k)) $$ Hp
  ihave H2 := (bigSep_univ_update (Φ := fun k => oRes m ρ c (tY k) (oY k)) (Ψ := fun j => oRes m ρ c (tY j) (Function.update oY k 2 j)) k
      (fun j hj => by show oRes m ρ c (tY j) (Function.update oY k 2 j) = oRes m ρ c (tY j) (oY j); rw [Function.update_of_ne hj])) $$ HoY
  icases H2 with ⟨-, HoY⟩
  ihave HoY := HoY $$ [Hp']
  · iapply (Entails.of_eq (by rw [Function.update_self, oRes_two])); iexact Hp'
  iapply Hk
  isplitr; · iexact Hrec
  isplitr; · iexact Hlev
  iframe
  iexists _; iexact HO

/-- The wait for x-chunk k's departure: its rows of the block back. -/
theorem step_xswait {α : Type} {Q : α → sProp 𝕄} {kont : PUnit → Prog (TpuEff nD τ sig (Elt F) Λ₀ .tc) α} (k : Fin 19) (hn : n = 38) (hc : cXs k = 1) (hs : sX k = false)
    {w : TpuEff nD τ sig (Elt F) Λ₀ .tc PUnit} {k' : ℕ}
    (hw : ∀ Kc : PUnit → sProp 𝕄, wpE (defs₀ (F := F)) 𝒱₀ (c : Thread nD τ) none Set.univ w Kc = waitSpec (c : Thread nD τ) Set.univ (.dma (dsem (jXs k))) k' Kc)
    (hk' : k' = NO (szO k.val)) :
    St m ρ K c cXs cXr cYs cYr cL kX kY kL sX sL oX oY oL pX pY n
      ⊢ iprop((St m ρ K c (Function.update cXs k 2) cXr cYs cYr cL kX kY kL (Function.update sX k true) sL oX oY oL pX pY n -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hn
  unfold St
  iintro ⟨#Hrec, #Hlev, HcXs, HcXr, HcYs, HcYr, HcL, HkX, HkY, HkL, HsX, HsL, HxR, HoX, HoY, HoL, HpX, HpY, ⟨%W, HO⟩⟩ Hk
  ihave H1 := (bigSep_upd (fun k s => cellRes c (jXs k) s) cXs k 1 2 hc) $$ HcXs
  icases H1 with ⟨Hcell, HcXs⟩
  iapply (wait_cell m ρ K c (jXs k) hw (hk'.trans (jamt_xs k).symm) (Orem c 38) W
      (by rw [Orem_last, MayWait_zero]; iintro -; iempintro)) $$ [Hcell HO]
  · isplitr; · iexact Hrec
    isplitr; · iexact Hlev
    isplitl [Hcell]; · iexact Hcell
    iexact HO
  iintro ⟨Hz, Hp, HO⟩
  icases HO with ⟨%W', HO⟩
  ihave HcXs := HcXs $$ Hz
  ihave Hp' := (Entails.of_eq (dpay_xs m ρ c k)) $$ Hp
  ihave H2 := (bigSep_upd (fun k b => held b (Xpt m ρ c (rectXs c k).set fullShare.right)) sX k false true hs) $$ HsX
  icases H2 with ⟨-, HsX⟩
  ihave HsX := HsX $$ [Hp']
  · iapply (Entails.of_eq (held_true _).symm); iexact Hp'
  iapply Hk
  isplitr; · iexact Hrec
  isplitr; · iexact Hlev
  iframe
  iexists _; iexact HO

/-- The wait for forwarded chunk k's departure: its range of the result back. -/
theorem step_yswait {α : Type} {Q : α → sProp 𝕄} {kont : PUnit → Prog (TpuEff nD τ sig (Elt F) Λ₀ .tc) α} (k : Fin 17) (hn : n = 38) (hc : cYs k = 1) (ho : oX ⟨k.val, by omega⟩ = 1)
    {w : TpuEff nD τ sig (Elt F) Λ₀ .tc PUnit} {k' : ℕ}
    (hw : ∀ Kc : PUnit → sProp 𝕄, wpE (defs₀ (F := F)) 𝒱₀ (c : Thread nD τ) none Set.univ w Kc = waitSpec (c : Thread nD τ) Set.univ (.dma (dsem (jYs k))) k' Kc)
    (hk' : k' = NO (szO k.val)) :
    St m ρ K c cXs cXr cYs cYr cL kX kY kL sX sL oX oY oL pX pY n
      ⊢ iprop((St m ρ K c cXs cXr (Function.update cYs k 2) cYr cL kX kY kL sX sL (Function.update oX ⟨k.val, by omega⟩ 2) oY oL pX pY n -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hn
  unfold St
  iintro ⟨#Hrec, #Hlev, HcXs, HcXr, HcYs, HcYr, HcL, HkX, HkY, HkL, HsX, HsL, HxR, HoX, HoY, HoL, HpX, HpY, ⟨%W, HO⟩⟩ Hk
  ihave H1 := (bigSep_upd (fun k s => cellRes c (jYs k) s) cYs k 1 2 hc) $$ HcYs
  icases H1 with ⟨Hcell, HcYs⟩
  iapply (wait_cell m ρ K c (jYs k) hw (hk'.trans (jamt_ys k).symm) (Orem c 38) W
      (by rw [Orem_last, MayWait_zero]; iintro -; iempintro)) $$ [Hcell HO]
  · isplitr; · iexact Hrec
    isplitr; · iexact Hlev
    isplitl [Hcell]; · iexact Hcell
    iexact HO
  iintro ⟨Hz, Hp, HO⟩
  icases HO with ⟨%W', HO⟩
  ihave HcYs := HcYs $$ Hz
  ihave Hp' := (Entails.of_eq (dpay_ys m ρ c k)) $$ Hp
  ihave H2 := (bigSep_upd (fun k s => oRes m ρ c (tX k) s) oX ⟨k.val, by omega⟩ 1 2 ho) $$ HoX
  icases H2 with ⟨-, HoX⟩
  ihave HoX := HoX $$ [Hp']
  · iapply (Entails.of_eq (oRes_two m ρ c _).symm); iexact Hp'
  iapply Hk
  isplitr; · iexact Hrec
  isplitr; · iexact Hlev
  iframe
  iexists _; iexact HO

/-- The wait for the local copy: the device's own rows of the result, and the block's left half share back. -/
theorem step_lwait {α : Type} {Q : α → sProp 𝕄} {kont : PUnit → Prog (TpuEff nD τ sig (Elt F) Λ₀ .tc) α} (hn : n = 38) (hc : cL = 1)
    {w : TpuEff nD τ sig (Elt F) Λ₀ .tc PUnit} {k' : ℕ}
    (hw : ∀ Kc : PUnit → sProp 𝕄, wpE (defs₀ (F := F)) 𝒱₀ (c : Thread nD τ) none Set.univ w Kc = waitSpec (c : Thread nD τ) Set.univ (.dma (dsem jL)) k' Kc)
    (hk' : k' = NO 2048) :
    St m ρ K c cXs cXr cYs cYr cL kX kY kL sX sL oX oY oL pX pY n
      ⊢ iprop((St m ρ K c cXs cXr cYs cYr 2 kX kY kL sX true oX oY 2 pX pY n -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hn hc
  unfold St
  iintro ⟨#Hrec, #Hlev, HcXs, HcXr, HcYs, HcYr, HcL, HkX, HkY, HkL, HsX, HsL, HxR, HoX, HoY, HoL, HpX, HpY, ⟨%W, HO⟩⟩ Hk
  iapply (wait_cell m ρ K c jL hw (hk'.trans jamt_l.symm) (Orem c 38) W
      (by rw [Orem_last, MayWait_zero]; iintro -; iempintro)) $$ [HcL HO]
  · isplitr; · iexact Hrec
    isplitr; · iexact Hlev
    isplitl [HcL]; · iexact HcL
    iexact HO
  iintro ⟨HcL, Hp, HO⟩
  icases HO with ⟨%W', HO⟩
  ihave Hp' := (Entails.of_eq (dpay_l m ρ c)) $$ Hp
  icases Hp' with ⟨HoL', HsL'⟩
  iclear HsL HoL
  ihave HsL : held true (Xpt m ρ c Finset.univ fullShare.left) $$ [HsL']
  · iapply (Entails.of_eq (held_true _).symm); iexact HsL'
  ihave HoL : oRes m ρ c tL 2 $$ [HoL']
  · iapply (Entails.of_eq (oRes_two m ρ c _).symm); iexact HoL'
  iapply Hk
  isplitr; · iexact Hrec
  isplitr; · iexact Hlev
  iframe
  iexists _; iexact HO

end Steps

end Cert.Kernel.AG

end
-- ==== Proof.Kernel.Entry.lean ====
/-
  The entry of the body: the windows' two staging buffers cut into the ranges the protocol moves (the block: its left
  half share whole for the local copy, its right half share by x-chunk; the result: its 37 row ranges), the two
  barrier signals — each handing the mate the ranges of this device's result the mate will write —, and the barrier
  wait, which brings both mates' ranges.  And the exit: every cell closed, the block whole again, the 37 ranges of the
  result — each at the result's contents — one buffer again.
-/
import proofs.«900081_g7700000000000082_dist_ag_v7x_xy2x2_x_m2048_n512_f32_1_alg».proof.Proof.Kernel.Data
import proofs.«900081_g7700000000000082_dist_ag_v7x_xy2x2_x_m2048_n512_f32_1_alg».proof.Proof.Kernel.Steps

set_option maxRecDepth 16384

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A conjunct held while a count is below a bound is the conjunct when it is, -/
theorem held_dec_true {P : sProp 𝕄} {a b : ℕ} (h : a < b) : held (decide (a < b)) P = P := by
  rw [decide_eq_true h]; rfl
omit [FloatOps F] in
/-- and nothing when it is not. -/
theorem held_dec_false {P : sProp 𝕄} {a b : ℕ} (h : ¬ a < b) : held (decide (a < b)) P = iprop(emp) := by
  rw [decide_eq_false h]; rfl

section Entry
variable (K : Dev nD × Fin 74 → ℕ) (c : Dev nD)

/-- What the two buffers are cut into. -/
def bufs0 (c : Dev nD) : sProp 𝕄 :=
  iprop((bigSep Finset.univ fun k : Fin 19 => Xpt m ρ c (rectXs c k).set fullShare.right)
    ∗ Xpt m ρ c Finset.univ fullShare.left
    ∗ Xpt m ρ c (Finset.univ \ XU c) fullShare.right
    ∗ oRes m ρ c tL 0)

/-- Before the first signal (b = 0), between the two (1), before the barrier wait (2): the start's holdings without the
    barrier tokens spent, the buffers cut, the result's x-ranges (b = 0) and y-ranges (b ≤ 1) still in hand. -/
def P0 : sProp 𝕄 :=
  iprop(startAt m ρ K c ∗ bufs0 m ρ c
    ∗ (bigSep Finset.univ fun k : Fin 19 => Oany (F := F) c (rectO c (tX k)).set)
    ∗ (bigSep Finset.univ fun k : Fin 17 => Oany (F := F) c (rectO c (tY k)).set)
    ∗ ∃ W, owes (c : Thread nD τ) (Orem c 0) W)

omit [FloatOps F] in
theorem X_cut (c : Dev nD) :
    (((c : Thread nD τ).loc XB) ↦{fullShare} xb m ρ c : sProp 𝕄)
      ⊢ iprop((bigSep Finset.univ fun k : Fin 19 => Xpt m ρ c (rectXs c k).set fullShare.right)
          ∗ Xpt m ρ c Finset.univ fullShare.left ∗ Xpt m ρ c (Finset.univ \ XU c) fullShare.right) := by
  unfold Xpt XU
  iintro H
  ihave H2 := (pointsTo_share (PosShare.mem_left_op_right fullShare)).1 $$ H
  icases H2 with ⟨HL, HR⟩
  ihave H3 := (pointsTo_split_subset (ℓ := (c : Thread nD τ).loc XB) (q := fullShare.right) (f := xb m ρ c)
      (Finset.subset_univ (Finset.univ.biUnion fun k : Fin 19 => (rectXs c k).set))).1 $$ HR
  icases H3 with ⟨HU, HRest⟩
  ihave HU' := (Entails.of_eq (pointsTo_biUnion (ℓ := (c : Thread nD τ).loc XB) (q := fullShare.right) (f := xb m ρ c) Finset.univ
      (fun k : Fin 19 => (rectXs c k).set) (fun k _ k' _ h => xs_disjoint c k k' h))) $$ HU
  isplitl [HU']; · iexact HU'
  isplitl [HL]; · iexact HL
  iexact HRest

omit [FloatOps F] in
theorem X_join (c : Dev nD) :
    iprop((bigSep Finset.univ fun k : Fin 19 => Xpt m ρ c (rectXs c k).set fullShare.right)
          ∗ Xpt m ρ c Finset.univ fullShare.left ∗ Xpt m ρ c (Finset.univ \ XU c) fullShare.right)
      ⊢ (((c : Thread nD τ).loc XB) ↦{fullShare} xb m ρ c : sProp 𝕄) := by
  unfold Xpt XU
  iintro ⟨HU', HL, HRest⟩
  ihave HU := (Entails.of_eq (pointsTo_biUnion (ℓ := (c : Thread nD τ).loc XB) (q := fullShare.right) (f := xb m ρ c) Finset.univ
      (fun k : Fin 19 => (rectXs c k).set) (fun k _ k' _ h => xs_disjoint c k k' h)).symm) $$ HU'
  ihave HR := (pointsTo_split_subset (ℓ := (c : Thread nD τ).loc XB) (q := fullShare.right) (f := xb m ρ c)
      (Finset.subset_univ (Finset.univ.biUnion fun k : Fin 19 => (rectXs c k).set))).2 $$ [HU HRest]
  · isplitl [HU]; · iexact HU
    iexact HRest
  iapply (pointsTo_share (PosShare.mem_left_op_right fullShare)).2
  isplitl [HL]; · iexact HL
  iexact HR

omit [FloatOps F] in
theorem O_cut (c : Dev nD) (f : Buf (Elt F) ((c : Thread nD τ).loc OB)) :
    (((c : Thread nD τ).loc OB) ↦{fullShare} f : sProp 𝕄)
      ⊢ iprop((bigSep Finset.univ fun k : Fin 19 => Oany (F := F) c (rectO c (tX k)).set)
          ∗ (bigSep Finset.univ fun k : Fin 17 => Oany (F := F) c (rectO c (tY k)).set) ∗ Oany (F := F) c (rectO c tL).set) := by
  have e : (((c : Thread nD τ).loc OB) ↦{fullShare} f : sProp 𝕄)
      = bigSep Finset.univ fun t : Fin 37 => (((c : Thread nD τ).loc OB) ↦[(rectO c t).set]{fullShare} f : sProp 𝕄) := by
    rw [← pointsTo_biUnion (ℓ := (c : Thread nD τ).loc OB) (q := fullShare) (f := f) Finset.univ (fun t : Fin 37 => (rectO c t).set)
      (fun t _ t' _ h => regO_disjoint c t t' h), ← regO_cover c]
  rw [e, ← bigSep_fin37 (fun t : Fin 37 => Oany (F := F) c (rectO c t).set)]
  exact bigSep_mono fun t _ => show (((c : Thread nD τ).loc OB) ↦[(rectO c t).set]{fullShare} f : sProp 𝕄) ⊢ Oany (F := F) c (rectO c t).set from by
    unfold Oany; iintro Ht; iexists f; iexact Ht

omit [FloatOps F] in
theorem O_join (c : Dev nD) :
    iprop((bigSep Finset.univ fun k : Fin 19 => Opt m ρ c (rectO c (tX k)).set)
          ∗ (bigSep Finset.univ fun k : Fin 17 => Opt m ρ c (rectO c (tY k)).set) ∗ Opt m ρ c (rectO c tL).set)
      ⊢ (((c : Thread nD τ).loc OB) ↦{fullShare} oc m ρ c : sProp 𝕄) := by
  have e : (bigSep Finset.univ fun t : Fin 37 => (((c : Thread nD τ).loc OB) ↦[(rectO c t).set]{fullShare} oc m ρ c : sProp 𝕄))
      = (((c : Thread nD τ).loc OB) ↦{fullShare} oc m ρ c : sProp 𝕄) := by
    rw [← pointsTo_biUnion (ℓ := (c : Thread nD τ).loc OB) (q := fullShare) (f := oc m ρ c) Finset.univ (fun t : Fin 37 => (rectO c t).set)
      (fun t _ t' _ h => regO_disjoint c t t' h), ← regO_cover c]
  rw [← e, ← bigSep_fin37 (fun t : Fin 37 => Opt m ρ c (rectO c t).set)]
  unfold Opt
  exact BI.Entails.refl _

end Entry

/-! ## The handshake -/

section Handshake
variable (K : Dev nD × Fin 74 → ℕ) (c : Dev nD)

/-- The state with b of the two barrier signals sent. -/
def PB (b : ℕ) : sProp 𝕄 :=
  iprop(records m ρ K ∗ levAts L lv
    ∗ atPos ER (barCell c) 0 ∅ 0 ∗ cred (tallyAt (barCell c) () 2)
    ∗ held (decide (b < 1)) (dutyTok ER (barCell (xpeer c)) 0 false) ∗ held (decide (b < 2)) (dutyTok ER (barCell (ypeer c)) 0 true)
    ∗ (bigSep Finset.univ fun k : Fin 19 => cellRes c (jXs k) 0)
    ∗ (bigSep Finset.univ fun k : Fin 19 => cellRes c (jXr k) 1)
    ∗ (bigSep Finset.univ fun k : Fin 17 => cellRes c (jYs k) 0)
    ∗ (bigSep Finset.univ fun k : Fin 17 => cellRes c (jYr k) 1)
    ∗ cellRes c jL 0
    ∗ (bigSep Finset.univ fun k : Fin 19 => tokX c k)
    ∗ (bigSep Finset.univ fun k : Fin 17 => tokY c k)
    ∗ tokL c
    ∗ bufs0 m ρ c
    ∗ held (decide (b < 1)) (bigSep Finset.univ fun k : Fin 19 => Oany (F := F) c (rectO c (tX k)).set)
    ∗ held (decide (b < 2)) (bigSep Finset.univ fun k : Fin 17 => Oany (F := F) c (rectO c (tY k)).set)
    ∗ ∃ W, owes (c : Thread nD τ) (Orem c b) W)

omit [FloatOps F] in
/-- Which of the two barrier tokens (and of the two families of ranges) are still in hand after b signals. -/
theorem PB_held (P : sProp 𝕄) :
    held (decide ((0 : ℕ) < 1)) P = P ∧ held (decide ((0 : ℕ) < 2)) P = P ∧ held (decide ((1 : ℕ) < 1)) P = iprop(emp)
      ∧ held (decide ((1 : ℕ) < 2)) P = P ∧ held (decide ((2 : ℕ) < 1)) P = iprop(emp) ∧ held (decide ((2 : ℕ) < 2)) P = iprop(emp) :=
  ⟨rfl, rfl, rfl, rfl, rfl, rfl⟩

/-- The signal to the row-mate's barrier: its duty false, with this device's 19 x-ranges. -/
theorem step_sigx {α : Type} {Q : α → sProp 𝕄} {kont : PUnit → Prog (TpuEff nD τ sig (Elt F) Λ₀ .tc) α} (n' : Dev nD) (hn' : n' = xpeer c) :
    PB m ρ K c 0
      ⊢ iprop((PB m ρ K c 1 -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n' : Thread nD τ) barS 1) kont) Q) := by
  subst hn'
  unfold PB
  simp only [(PB_held _).1, (PB_held _).2.1, (PB_held _).2.2.1, (PB_held _).2.2.2.1]
  iintro ⟨#Hrec, #Hlev, Hat, Hcr, Htx, Hty, H1, H2, H3, H4, H5, H6, H7, H8, Hb, HoX, HoY, ⟨%W, HO⟩⟩ Hk
  iapply (Rounds.wp_signal 𝒱₀ ER (agRd m ρ) (c : Thread nD τ) none (dst := (xpeer c : Thread nD τ)) (κ := K (xpeer c, 0)) (d := false)
      (by rw [duties_bar]; exact Finset.mem_univ _) (amount_bar m ρ (xpeer c) false) () (Orem c 1) (Orem_succ c 0 (by decide))) $$ [HO Htx HoX]
  · isplitr; · iapply (inv_bar m ρ K (xpeer c)); iexact Hrec
    isplitl [HO]; · iexact HO
    isplitl [Htx]; · iexact Htx
    isplitl [HoX]
    · iapply (Entails.of_eq (show (bigSep Finset.univ fun k : Fin 19 => Oany (F := F) c (rectO c (tX k)).set)
          = (agRd m ρ).payload (barCell (xpeer c)) 0 false from by
        rw [payload_bar, show barPay (F := F) (xpeer c) false
          = bigSep Finset.univ fun k : Fin 19 => Oany (F := F) (xpeer (xpeer c)) (rectO (xpeer (xpeer c)) (tX k)).set from rfl, xpeer_xpeer]))
      iexact HoX
    · iapply (reached_bar m ρ K (xpeer c)); iexact Hrec
  iintro HO
  iapply Hk
  isplitr; · iexact Hrec
  isplitr; · iexact Hlev
  isplitl [Hat]; · iexact Hat
  isplitl [Hcr]; · iexact Hcr
  isplitr; · iempintro
  isplitl [Hty]; · iexact Hty
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hb]; · iexact Hb
  isplitr; · iempintro
  isplitl [HoY]; · iexact HoY
  iexists _; iexact HO

/-- The signal to the column-mate's barrier: its duty true, with this device's 17 y-ranges. -/
theorem step_sigy {α : Type} {Q : α → sProp 𝕄} {kont : PUnit → Prog (TpuEff nD τ sig (Elt F) Λ₀ .tc) α} (n' : Dev nD) (hn' : n' = ypeer c) :
    PB m ρ K c 1
      ⊢ iprop((PB m ρ K c 2 -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n' : Thread nD τ) barS 1) kont) Q) := by
  subst hn'
  unfold PB
  simp only [(PB_held _).2.2.1, (PB_held _).2.2.2.1, (PB_held _).2.2.2.2.1, (PB_held _).2.2.2.2.2]
  iintro ⟨#Hrec, #Hlev, Hat, Hcr, -, Hty, H1, H2, H3, H4, H5, H6, H7, H8, Hb, -, HoY, ⟨%W, HO⟩⟩ Hk
  iapply (Rounds.wp_signal 𝒱₀ ER (agRd m ρ) (c : Thread nD τ) none (dst := (ypeer c : Thread nD τ)) (κ := K (ypeer c, 0)) (d := true)
      (by rw [duties_bar]; exact Finset.mem_univ _) (amount_bar m ρ (ypeer c) true) () (Orem c 2) (Orem_succ c 1 (by decide))) $$ [HO Hty HoY]
  · isplitr; · iapply (inv_bar m ρ K (ypeer c)); iexact Hrec
    isplitl [HO]; · iexact HO
    isplitl [Hty]; · iexact Hty
    isplitl [HoY]
    · iapply (Entails.of_eq (show (bigSep Finset.univ fun k : Fin 17 => Oany (F := F) c (rectO c (tY k)).set)
          = (agRd m ρ).payload (barCell (ypeer c)) 0 true from by
        rw [payload_bar, show barPay (F := F) (ypeer c) true
          = bigSep Finset.univ fun k : Fin 17 => Oany (F := F) (ypeer (ypeer c)) (rectO (ypeer (ypeer c)) (tY k)).set from rfl, ypeer_ypeer]))
      iexact HoY
    · iapply (reached_bar m ρ K (ypeer c)); iexact Hrec
  iintro HO
  iapply Hk
  isplitr; · iexact Hrec
  isplitr; · iexact Hlev
  isplitl [Hat]; · iexact Hat
  isplitl [Hcr]; · iexact Hcr
  isplitr; · iempintro
  isplitr; · iempintro
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hb]; · iexact Hb
  isplitr; · iempintro
  isplitr; · iempintro
  iexists _; iexact HO

omit [FloatOps F] in
/-- The rest of the barrier cell's round as the ranges it is: the row-mate's x-ranges and the column-mate's y-ranges. -/
theorem rest_bar' :
    bigSep ((agRd (F := F) m ρ).duties (barCell c) 0 \ ∅) (fun d => (agRd (F := F) m ρ).payload (barCell c) 0 d)
      = iprop((bigSep Finset.univ fun k : Fin 19 => Oany (F := F) (xpeer c) (rectO (xpeer c) (tX k)).set)
          ∗ bigSep Finset.univ fun k : Fin 17 => Oany (F := F) (ypeer c) (rectO (ypeer c) (tY k)).set) :=
  (rest_bar m ρ c).trans rfl

omit [FloatOps F] in
/-- The state the handshake ends in, written out: nothing enqueued, every token and every range of a mate's result in hand,
    the result's own x- and y-ranges away. -/
theorem St_entry :
    St m ρ K c (fun _ => 0) (fun _ => 1) (fun _ => 0) (fun _ => 1) 0 (fun _ => true) (fun _ => true) true (fun _ => true) true
        (fun _ => 1) (fun _ => 1) 0 (fun _ => true) (fun _ => true) 2
      = iprop(records m ρ K ∗ levAts L lv
        ∗ (bigSep Finset.univ fun k : Fin 19 => cellRes c (jXs k) 0)
        ∗ (bigSep Finset.univ fun k : Fin 19 => cellRes c (jXr k) 1)
        ∗ (bigSep Finset.univ fun k : Fin 17 => cellRes c (jYs k) 0)
        ∗ (bigSep Finset.univ fun k : Fin 17 => cellRes c (jYr k) 1)
        ∗ cellRes c jL 0
        ∗ (bigSep Finset.univ fun k : Fin 19 => tokX c k)
        ∗ (bigSep Finset.univ fun k : Fin 17 => tokY c k)
        ∗ tokL c
        ∗ (bigSep Finset.univ fun k : Fin 19 => Xpt m ρ c (rectXs c k).set fullShare.right)
        ∗ Xpt m ρ c Finset.univ fullShare.left
        ∗ Xpt m ρ c (Finset.univ \ XU c) fullShare.right
        ∗ (bigSep Finset.univ fun _ : Fin 19 => iprop(emp))
        ∗ (bigSep Finset.univ fun _ : Fin 17 => iprop(emp))
        ∗ oRes m ρ c tL 0
        ∗ (bigSep Finset.univ fun k : Fin 19 => Oany (F := F) (xpeer c) (rectO (xpeer c) (tX k)).set)
        ∗ (bigSep Finset.univ fun k : Fin 17 => Oany (F := F) (ypeer c) (rectO (ypeer c) (tY k)).set)
        ∗ ∃ W, owes (c : Thread nD τ) (Orem c 2) W) := rfl

/-- The barrier wait: both mates are inside the kernel, and their ranges come with it. -/
theorem step_barwait {α : Type} {Q : α → sProp 𝕄} {kont : PUnit → Prog (TpuEff nD τ sig (Elt F) Λ₀ .tc) α} :
    PB m ρ K c 2
      ⊢ iprop((St m ρ K c (fun _ => 0) (fun _ => 1) (fun _ => 0) (fun _ => 1) 0 (fun _ => true) (fun _ => true) true (fun _ => true) true
              (fun _ => 1) (fun _ => 1) 0 (fun _ => true) (fun _ => true) 2 -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS 2) kont) Q) := by
  rw [St_entry m ρ K c]
  unfold PB bufs0
  simp only [(PB_held _).2.2.2.2.1, (PB_held _).2.2.2.2.2]
  iintro ⟨#Hrec, #Hlev, Hat, Hcr, -, -, H1, H2, H3, H4, H5, H6, H7, H8, ⟨HsX, HsL, HxR, HoL⟩, -, -, ⟨%W, HO⟩⟩ Hk
  iapply (Rounds.wp_wait_rest_token 𝒱₀ ER (agRd m ρ) (c : Thread nD τ) none (κ := K (c, 0))
      (wpE_semWait_eq 𝒱₀ (c : Thread nD τ) none Set.univ) (Set.mem_univ _) () (O := Orem c 2) (W := W) (R := 0) (m := 0) (T := ∅)
      (by rw [expect_bar])) $$ [Hcr HO Hat]
  · isplitr; · iapply (inv_bar m ρ K c); iexact Hrec
    isplitl [Hcr]; · iexact Hcr
    isplitl [HO]; · iexact HO
    isplitr
    · iapply (mayWait_rem c (.reg barS) 2 fun i hi => by
        rw [lvS_facts.2.2.2]; exact Nat.lt_of_lt_of_le (by decide) (lvS_facts.2.1 i hi))
      iexact Hlev
    iexact Hat
  iintro ⟨HO, -, -, Hpay⟩
  ihave Hp := (Entails.of_eq (rest_bar' m ρ c)) $$ Hpay
  icases Hp with ⟨HpX, HpY⟩
  iapply Hk
  isplitr; · iexact Hrec
  isplitr; · iexact Hlev
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HsX]; · iexact HsX
  isplitl [HsL]; · iexact HsL
  isplitl [HxR]; · iexact HxR
  isplitr; · iapply (Entails.of_eq (BI.bigSep_emp_const _).symm); iempintro
  isplitr; · iapply (Entails.of_eq (BI.bigSep_emp_const _).symm); iempintro
  isplitl [HoL]; · iexact HoL
  isplitl [HpX]; · iexact HpX
  isplitl [HpY]; · iexact HpY
  iexists _; iexact HO

end Handshake

/-! ## The exit -/

section Exit
variable (K : Dev nD × Fin 74 → ℕ) (c : Dev nD)

/-- Every cell closed, every range back: the kernel's semaphores at zero, the block whole, the result whole at its
    contents, nothing owed. -/
theorem St_finish {cXs cXr : Fin 19 → ℕ} {cYs cYr : Fin 17 → ℕ} {cL : ℕ} {kX : Fin 19 → Bool} {kY : Fin 17 → Bool} {kL : Bool}
    {sX : Fin 19 → Bool} {sL : Bool} {oX : Fin 19 → ℕ} {oY : Fin 17 → ℕ} {oL : ℕ} {pX : Fin 19 → Bool} {pY : Fin 17 → Bool} {n : ℕ}
    (h1 : ∀ k, cXs k = 2) (h2 : ∀ k, cXr k = 2) (h3 : ∀ k, cYs k = 2) (h4 : ∀ k, cYr k = 2) (h5 : cL = 2)
    (h6 : ∀ k, sX k = true) (h7 : sL = true) (h8 : ∀ k, oX k = 2) (h9 : ∀ k, oY k = 2) (h10 : oL = 2) (h11 : n = 38) :
    St m ρ K c cXs cXr cYs cYr cL kX kY kL sX sL oX oY oL pX pY n
      ⊢ iprop(Φ₁ c ∗ (∃ W, owes (c : Thread nD τ) 0 W)
          ∗ (((c : Thread nD τ).loc XB) ↦{fullShare} xb m ρ c) ∗ (((c : Thread nD τ).loc OB) ↦{fullShare} oc m ρ c)) := by
  obtain rfl : cXs = fun _ => 2 := funext h1
  obtain rfl : cXr = fun _ => 2 := funext h2
  obtain rfl : cYs = fun _ => 2 := funext h3
  obtain rfl : cYr = fun _ => 2 := funext h4
  obtain rfl : sX = fun _ => true := funext h6
  obtain rfl : oX = fun _ => 2 := funext h8
  obtain rfl : oY = fun _ => 2 := funext h9
  subst h5 h7 h10 h11
  unfold St
  iintro ⟨-, -, HcXs, HcXr, HcYs, HcYr, HcL, -, -, -, HsX, HsL, HxR, HoX, HoY, HoL, -, -, ⟨%W, HO⟩⟩
  ihave HcL := (Entails.of_eq (cellRes_two (F := F) c jL)) $$ HcL
  ihave HsL := (Entails.of_eq (held_true (Xpt m ρ c Finset.univ fullShare.left))) $$ HsL
  ihave HoL := (Entails.of_eq (oRes_two m ρ c tL)) $$ HoL
  isplitl [HcXs HcXr HcYs HcYr HcL]
  · unfold Φ₁
    rw [bigSep_fin73]
    isplitl [HcXs]; · iexact HcXs
    isplitl [HcXr]; · iexact HcXr
    isplitl [HcYs]; · iexact HcYs
    isplitl [HcYr]; · iexact HcYr
    iexact HcL
  isplitl [HO]
  · iexists W; rw [← Orem_last c]; iexact HO
  isplitl [HsX HsL HxR]
  · iapply (X_join m ρ c)
    isplitl [HsX]; · iexact HsX
    isplitl [HsL]; · iexact HsL
    iexact HxR
  · iapply (O_join m ρ c)
    isplitl [HoX]; · iexact HoX
    isplitl [HoY]; · iexact HoY
    iexact HoL

end Exit

end Cert.Kernel.AG

end
-- ==== Proof.Kernel.Offs.lean ====
/-
  The printed device-id chains and slice offsets in closed form, in the geometry's terms: every signal and x-transfer
  names the row-mate or the column-mate; every slice starts at a chunk's first row.
-/
import proofs.«900081_g7700000000000082_dist_ag_v7x_xy2x2_x_m2048_n512_f32_1_alg».proof.Proof.Geom
import proofs.«900081_g7700000000000082_dist_ag_v7x_xy2x2_x_m2048_n512_f32_1_alg».proof.Proof.Gen.Kernel
import Idealize.ShloMosaic.Lib.Pipeline.Launch
import Idealize.ShloMosaic.Lib.Pipeline.Kit
import Idealize.ShloMosaic.Lib.Tactic

set_option maxRecDepth 16384

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The device-id chains -/

theorem dev1_eq (c : Dev nD) : (⟨k0_dev1 c, k0_dev1_lt c⟩ : Dev nD) = xpeer c := Fin.ext (k0_dev1_eq c)
theorem dev2_eq (c : Dev nD) : (⟨k0_dev2 c, k0_dev2_lt c⟩ : Dev nD) = ypeer c := Fin.ext (k0_dev2_eq c)

/-! ## The offsets -/

private abbrev row (x : ℕ) : Fin 2 → ℕ := ![x, 0]

theorem off2_eq (c : Dev nD) (r : Fin 2) : k0_off2 c (BitVec.ofNat 32 (16 * r.val)) = ![coff (dy c) r.val, 0] :=
  (k0_off2_eq c r).trans (congrArg row (by revert c r; decide))
theorem off1_eq (c : Dev nD) (r : Fin 2) : k0_off1 c (BitVec.ofNat 32 (16 * r.val)) = ![loO (xpeer c) r.val, 0] :=
  (k0_off1_eq c r).trans (congrArg row (by revert c r; decide))
theorem off4_eq (c : Dev nD) : k0_off4 c = ![coff (dy c) 2, 0] := (k0_off4_eq c).trans (congrArg row (by revert c; decide))
theorem off3_eq (c : Dev nD) : k0_off3 c = ![loO (xpeer c) 2, 0] := (k0_off3_eq c).trans (congrArg row (by revert c; decide))
theorem off6_eq (c : Dev nD) (r : Fin 14) : k0_off6 c (BitVec.ofNat 32 (64 + 64 * r.val)) = ![coff (dy c) (r.val + 3), 0] :=
  (k0_off6_eq c r).trans (congrArg row (by revert c r; decide))
theorem off5_eq (c : Dev nD) (r : Fin 14) : k0_off5 c (BitVec.ofNat 32 (64 + 64 * r.val)) = ![loO (xpeer c) (r.val + 3), 0] :=
  (k0_off5_eq c r).trans (congrArg row (by revert c r; decide))
theorem off7_eq (c : Dev nD) (r : Fin 2) : k0_off7 c (BitVec.ofNat 32 (960 + 64 * r.val)) = ![loO (xpeer c) (r.val + 17), 0] :=
  (k0_off7_eq c r).trans (congrArg row (by revert c r; decide))
theorem lit960_eq (c : Dev nD) : (![960, 0] : Fin 2 → ℕ) = ![coff (dy c) 17, 0] := congrArg row (by revert c; decide)
theorem lit1024_eq (c : Dev nD) : (![1024, 0] : Fin 2 → ℕ) = ![coff (dy c) 18, 0] := congrArg row (by revert c; decide)
theorem off8_eq (c : Dev nD) : k0_off8 c = ![loO c 36, 0] := (k0_off8_eq c).trans (congrArg row (by revert c; decide))
theorem off9_eq (c : Dev nD) (r : Fin 2) : k0_off9 c (BitVec.ofNat 32 (16 * r.val)) = ![loO c r.val, 0] :=
  (k0_off9_eq c r).trans (congrArg row (by revert c r; decide))
theorem off10_eq (c : Dev nD) : k0_off10 c = ![loO c 2, 0] := (k0_off10_eq c).trans (congrArg row (by revert c; decide))
theorem off11_eq (c : Dev nD) (r : Fin 14) : k0_off11 c (BitVec.ofNat 32 (64 + 64 * r.val)) = ![loO c (r.val + 3), 0] :=
  (k0_off11_eq c r).trans (congrArg row (by revert c r; decide))

end Cert.Kernel.AG

end
-- ==== Proof.Kernel.Body.lean ====
/-
  The body of the all-gather on one device, run from the state assertion one step at a time in program order: the two
  barrier signals and the barrier wait; the 19 x-chunks sent to the row-mate; the local copy started; for each of the
  17 chunks the column-mate lacks, the wait for its landing and its forwarding; the two remaining landings; the 17
  forwarded chunks' landings; the departures of all 36 transfers; the local copy's completion.  Each step is one of the
  step lemmas at the chunk's index, with the printed offset's closed form.
-/
import proofs.«900081_g7700000000000082_dist_ag_v7x_xy2x2_x_m2048_n512_f32_1_alg».proof.Proof.Kernel.Entry
import proofs.«900081_g7700000000000082_dist_ag_v7x_xy2x2_x_m2048_n512_f32_1_alg».proof.Proof.Kernel.Offs

set_option maxRecDepth 16384

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def bodyPre' (c : Dev nD) : sProp 𝕄 :=
  iprop(start m ρ c ∗ (dats m ρ 0 c).owesAt () t₀.castSucc
    ∗ (∃ d, stg c XB ((dats m ρ 0 c).before (0 : Fin 2) t₀ d))
    ∗ (∃ d, stg c OB ((dats m ρ 0 c).before (1 : Fin 2) t₀ d)))

def bodyPost (c : Dev nD) : sProp 𝕄 :=
  iprop(Φ₁ c ∗ (dats m ρ 0 c).owesAt () t₀.succ ∗ stg c XB (xb m ρ c) ∗ stg c OB (oc m ρ c))

/-- The body's precondition, with the two staging buffers cut into the ranges the protocol moves. -/
theorem pre_intro (c : Dev nD) : bodyPre' m ρ c ⊢ iprop(∃ K, PB m ρ K c 0) := by
  unfold bodyPre' start startAt
  iintro ⟨⟨%K, #Hrec, #Hlev, Hat, Hcr, Htx, Hty, H1, H2, H3, H4, H5, H6, H7, H8⟩, Ho, ⟨%d0, %g0, %hg0, Hx⟩, ⟨%d1, %g1, %hg1, Hout⟩⟩
  have hx : g0 = xb m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = Orem c 0 from (Orem_zero c).symm]
  ihave HX := (X_cut m ρ c) $$ Hx
  icases HX with ⟨HsX, HsL, HxR⟩
  ihave HOo := (O_cut c g1) $$ Hout
  icases HOo with ⟨HoX, HoY, HoL⟩
  iexists K
  unfold PB bufs0
  isplitr; · iexact Hrec
  isplitr; · iexact Hlev
  isplitl [Hat]; · iexact Hat
  isplitl [Hcr]; · iexact Hcr
  isplitl [Htx]; · (iapply (Entails.of_eq (held_dec_true (by decide)).symm); iexact Htx)
  isplitl [Hty]; · (iapply (Entails.of_eq (held_dec_true (by decide)).symm); iexact Hty)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HsX HsL HxR HoL]
  · isplitl [HsX]; · iexact HsX
    isplitl [HsL]; · iexact HsL
    isplitl [HxR]; · iexact HxR
    iapply (Entails.of_eq (oRes_zero m ρ c tL).symm); iexact HoL
  isplitl [HoX]; · (iapply (Entails.of_eq (held_dec_true (by decide)).symm); iexact HoX)
  isplitl [HoY]; · (iapply (Entails.of_eq (held_dec_true (by decide)).symm); iexact HoY)
  iexists W; iexact HO

/-- The exit's holdings are the body's postcondition. -/
theorem post_intro (c : Dev nD) :
    iprop(Φ₁ c ∗ (∃ W, owes (c : Thread nD τ) 0 W)
        ∗ (((c : Thread nD τ).loc XB) ↦{fullShare} xb m ρ c) ∗ (((c : Thread nD τ).loc OB) ↦{fullShare} oc m ρ c))
      ⊢ bodyPost m ρ c := by
  unfold bodyPost Dat.owesAt Pipeline.owesWithin
  rw [show (dats m ρ 0 c).owed t₀.succ = 0 from rfl]
  iintro ⟨H1, ⟨%W, HO⟩, Hx, Hout⟩
  isplitl [H1]; · iexact H1
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

/-- At the return: the postcondition itself suffices. -/
theorem ret_intro (c : Dev nD) {P : sProp 𝕄} {Q : PUnit → sProp 𝕄} (h : P ⊢ Q ⟨⟩) :
    P ⊢ wp frame (wpE (defs₀ (F := F)) 𝒱₀ (c : Thread nD τ) none) Set.univ (Prog.ret (⟨⟩ : PUnit)) Q := by
  rw [wp_ret]
  iintro H
  imodintro
  iapply h; iexact H

section Chain
variable (c : Dev nD) (K : Dev nD × Fin 74 → ℕ)

set_option hygiene false in
macro "np " p:ident : tactic =>
  `(tactic| (sl_unfold [$p]; simp only [semSignalWord, semWaitWord, Prog.lift, Prog.bind_op, Prog.bind_ret, Prog.pure_eq_ret, wp_deviceId]))
set_option hygiene false in
macro "xs " k:term:max d:term:max e1:term:max e2:term:max : tactic =>
  `(tactic| refine step_of (step_xsend m ρ K c $k _ (Fin.ext $d) (by decide) (by rfl) (by rfl) (by rfl) (by rfl) $e1 $e2 rfl) ?_)
set_option hygiene false in
macro "ys " k:term:max d:term:max e:term:max : tactic =>
  `(tactic| refine step_of (step_ysend m ρ K c $k _ (Fin.ext $d) (by decide) (by rfl) (by rfl) (by rfl) (by rfl) $e rfl) ?_)
set_option hygiene false in
macro "xw " k:term:max : tactic =>
  `(tactic| refine step_of (step_xwait m ρ K c $k (by decide) (by rfl) (wpE_waitDma2_eq 𝒱₀ (c : Thread nD τ) none Set.univ) rfl) ?_)
set_option hygiene false in
macro "yw " k:term:max : tactic =>
  `(tactic| refine step_of (step_ywait m ρ K c $k (by decide) (by rfl) (wpE_waitDma2_eq 𝒱₀ (c : Thread nD τ) none Set.univ) rfl) ?_)
set_option hygiene false in
macro "xd " k:term:max : tactic =>
  `(tactic| refine step_of (step_xswait m ρ K c $k (by decide) (by rfl) (by rfl) (wpE_waitDma2_eq 𝒱₀ (c : Thread nD τ) none Set.univ) rfl) ?_)
set_option hygiene false in
macro "yd " k:term:max : tactic =>
  `(tactic| refine step_of (step_yswait m ρ K c $k (by decide) (by rfl) (by rfl) (wpE_waitDma2_eq 𝒱₀ (c : Thread nD τ) none Set.univ) rfl) ?_)

set_option maxHeartbeats 4000000 in
/-- The body from the cut buffers to the exit's holdings. -/
theorem sound_body (c : Dev nD) :
    bodyPre' m ρ c ⊢ wp frame (wpE (defs₀ (F := F)) 𝒱₀ (c : Thread nD τ) none) Set.univ
      (cc0_body (Memref.whole cc0_stg0_0) (Memref.isWhole_whole _) (Memref.whole cc0_stg1_0) (Memref.isWhole_whole _)
        cc0_scratch0 cc0_scratch1 cc0_scratch2 cc0_scratch3 cc0_scratch4) (fun _ => bodyPost m ρ c) := by
  refine (pre_intro m ρ c).trans (BI.BIClass.exists_elim fun K => ?_)
  sl_unfold [cc0_body]
  sl_unfold [k0_part33]
  np k0_part1
  refine step_of (step_sigx m ρ K c _ (dev1_eq c)) ?_
  refine step_of (step_sigy m ρ K c _ (dev2_eq c)) ?_
  refine step_of (step_barwait m ρ K c) ?_
  np k0_part2
  xs 0 (k0_dev3_eq c) (off2_eq c 0) (off1_eq c 0)
  xs 1 (k0_dev4_eq c) (off2_eq c 1) (off1_eq c 1)
  np k0_part3
  xs 2 (k0_dev5_eq c) (off4_eq c) (off3_eq c)
  xs 3 (k0_dev6_eq c) (off6_eq c 0) (off5_eq c 0)
  xs 4 (k0_dev7_eq c) (off6_eq c 1) (off5_eq c 1)
  np k0_part4
  xs 5 (k0_dev8_eq c) (off6_eq c 2) (off5_eq c 2)
  xs 6 (k0_dev9_eq c) (off6_eq c 3) (off5_eq c 3)
  np k0_part5
  xs 7 (k0_dev10_eq c) (off6_eq c 4) (off5_eq c 4)
  xs 8 (k0_dev11_eq c) (off6_eq c 5) (off5_eq c 5)
  np k0_part6
  xs 9 (k0_dev12_eq c) (off6_eq c 6) (off5_eq c 6)
  xs 10 (k0_dev13_eq c) (off6_eq c 7) (off5_eq c 7)
  np k0_part7
  xs 11 (k0_dev14_eq c) (off6_eq c 8) (off5_eq c 8)
  xs 12 (k0_dev15_eq c) (off6_eq c 9) (off5_eq c 9)
  np k0_part8
  xs 13 (k0_dev16_eq c) (off6_eq c 10) (off5_eq c 10)
  xs 14 (k0_dev17_eq c) (off6_eq c 11) (off5_eq c 11)
  xs 15 (k0_dev18_eq c) (off6_eq c 12) (off5_eq c 12)
  np k0_part9
  xs 16 (k0_dev19_eq c) (off6_eq c 13) (off5_eq c 13)
  xs 17 (k0_dev20_eq c) (lit960_eq c) (off7_eq c 0)
  np k0_part10
  xs 18 (k0_dev21_eq c) (lit1024_eq c) (off7_eq c 1)
  refine step_of (step_lcopy m ρ K c rfl rfl rfl rfl (off8_eq c)) ?_
  xw 0
  ys 0 (k0_dev22_eq c) (off9_eq c 0)
  np k0_part11
  xw 1
  ys 1 (k0_dev23_eq c) (off9_eq c 1)
  xw 2
  np k0_part12
  ys 2 (k0_dev24_eq c) (off10_eq c)
  xw 3
  np k0_part13
  ys 3 (k0_dev25_eq c) (off11_eq c 0)
  xw 4
  ys 4 (k0_dev26_eq c) (off11_eq c 1)
  np k0_part14
  xw 5
  ys 5 (k0_dev27_eq c) (off11_eq c 2)
  xw 6
  np k0_part15
  ys 6 (k0_dev28_eq c) (off11_eq c 3)
  xw 7
  ys 7 (k0_dev29_eq c) (off11_eq c 4)
  np k0_part16
  xw 8
  ys 8 (k0_dev30_eq c) (off11_eq c 5)
  xw 9
  np k0_part17
  ys 9 (k0_dev31_eq c) (off11_eq c 6)
  xw 10
  np k0_part18
  ys 10 (k0_dev32_eq c) (off11_eq c 7)
  xw 11
  ys 11 (k0_dev33_eq c) (off11_eq c 8)
  np k0_part19
  xw 12
  ys 12 (k0_dev34_eq c) (off11_eq c 9)
  xw 13
  np k0_part20
  ys 13 (k0_dev35_eq c) (off11_eq c 10)
  xw 14
  np k0_part21
  ys 14 (k0_dev36_eq c) (off11_eq c 11)
  xw 15
  ys 15 (k0_dev37_eq c) (off11_eq c 12)
  np k0_part22
  xw 16
  ys 16 (k0_dev38_eq c) (off11_eq c 13)
  xw 17
  np k0_part23
  xw 18
  yw 0
  yw 1
  yw 2
  np k0_part24
  yw 3
  yw 4
  yw 5
  np k0_part25
  yw 6
  yw 7
  yw 8
  yw 9
  np k0_part26
  yw 10
  yw 11
  yw 12
  yw 13
  np k0_part27
  yw 14
  yw 15
  yw 16
  xd 0
  np k0_part28
  xd 1
  xd 2
  xd 3
  xd 4
  xd 5
  xd 6
  np k0_part29
  xd 7
  xd 8
  xd 9
  xd 10
  xd 11
  xd 12
  np k0_part30
  xd 13
  xd 14
  xd 15
  xd 16
  xd 17
  xd 18
  np k0_part31
  yd 0
  yd 1
  yd 2
  yd 3
  yd 4
  yd 5
  np k0_part32
  yd 6
  yd 7
  yd 8
  yd 9
  yd 10
  yd 11
  yd 12
  yd 13
  yd 14
  yd 15
  yd 16
  refine step_of (step_lwait m ρ K c (by decide) (by rfl) (wpE_waitDma2_eq 𝒱₀ (c : Thread nD τ) none Set.univ) rfl) ?_
  refine ret_intro c ?_
  exact (St_finish m ρ K c (by decide +kernel) (by decide +kernel) (by decide +kernel) (by decide +kernel) (by rfl) (by decide +kernel) (by rfl)
    (fun k => by fin_cases k <;> rfl) (by decide +kernel) (by rfl) (by decide)).trans (post_intro m ρ c)

end Chain

/-- The library's body obligation on device c. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1 cc0_scratch2 cc0_scratch3 cc0_scratch4) (fun _ => bodyPost m ρ c)
  exact sound_body m ρ c

end Cert.Kernel.AG

end
-- ==== Proof.Kernel.Run.lean ====
/-
  The run of the all-gather: the launch theorem applied to the body obligation and the launch's side conditions.
-/
import proofs.«900081_g7700000000000082_dist_ag_v7x_xy2x2_x_m2048_n512_f32_1_alg».proof.Proof.Kernel.Run0
import proofs.«900081_g7700000000000082_dist_ag_v7x_xy2x2_x_m2048_n512_f32_1_alg».proof.Proof.Kernel.Body

set_option maxRecDepth 16384

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- At the compiled mesh of four devices, from any memory with zero counters: every weakly fair execution of @main — the
    four kernels handshaking on the runtime's barrier semaphore, then gathering — terminates, and every final state has
    each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.AG.run_main' depends on axioms: [propext, Classical.choice, Quot.sound] -/
#guard_msgs in #print axioms run_main

end Cert.Kernel.AG

end
-- ==== Proof.KernelIdeal.Sched.lean ====
/-
  The all-gather's protocol, per device c = (x, y) of the 2 × 2 mesh, as a schedule of the rounds discipline.

  Cells.  The runtime's barrier semaphore: one round of two duties of one unit — false paid by the row-mate's signal,
  true by the column-mate's; the signaller hands over the row ranges of its own result buffer that the receiver will
  write (the row-mate: its 19 x-chunk ranges; the column-mate: its 17 y-chunk ranges).  The 73 DMA semaphores of the
  kernel, each one round of one duty (false) of the chunk's credit:
    j < 19        send cell of x-chunk j:       the chunk's rows of the device's block come back (the right half share);
    19 ≤ j < 38   receive cell of x-chunk j−19: its range of the result holds the row-mate's rows;
    38 ≤ j < 55   send cell of y-chunk j−38:    the forwarded x-range j−38 of the result comes back, as received;
    55 ≤ j < 72   receive cell of y-chunk j−55: its range of the result holds what the column-mate forwarded;
    j = 72        the local copy: the device's own 2048 rows of the result hold its block, and the block's left half
                  share comes back.
  Every range of the result is held at ONE contents function, "element i is element (i mod 2048 rows) of the block of the
  device it came from", so that a range received is the range forwarded.

  What a device owes at launch, in the order it pays: a unit on the row-mate's barrier, a unit on the column-mate's, the
  19 x-chunks' credits on the row-mate's receive cells, the 17 y-chunks' on the column-mate's.

  Levels: barrier cells 1, x-receive cells 2, y-receive cells 3, everything else 0: a device waits on its barrier owing
  only receive credits, on an x-receive cell owing only y-receive credits, and on anything else owing nothing.
-/
import proofs.«900081_g7700000000000082_dist_ag_v7x_xy2x2_x_m2048_n512_f32_1_alg».proof.Proof.Geom
import proofs.«900081_g7700000000000082_dist_ag_v7x_xy2x2_x_m2048_n512_f32_1_alg».proof.Proof.Gen.KernelIdeal
import proofs.«900081_g7700000000000082_dist_ag_v7x_xy2x2_x_m2048_n512_f32_1_alg».proof.Proof.Gen.KernelIdeal.Skeleton
import proofs.«900081_g7700000000000082_dist_ag_v7x_xy2x2_x_m2048_n512_f32_1_alg».proof.Proof.Gen.KernelIdeal.Launch
import Idealize.ShloMosaic.Lib.Pipeline.Launch
import Idealize.ShloMosaic.Lib.Pipeline.Kit
import Idealize.ShloMosaic.Lib.Tactic

set_option maxRecDepth 16384

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Cells -/

abbrev barS : Sem sig := (SemArray.scalar (sig.barrier 0 rfl) : Sems sig S_).sem
/-- The kernel's own DMA semaphores: j ↦ semaphore j + 2 (0 and 1 are the pipeline's). -/
abbrev dsem (j : Fin 73) : DmaSem sig := ⟨j.val + 2, by have := j.isLt; show j.val + 2 < 75; omega⟩
abbrev osem : Fin 73 → SemLoc sig := fun j => .dma (dsem j)
abbrev barCell (c : Dev nD) : GSem nD τ sig := ((c : Thread nD τ), .reg barS)
abbrev dcell (c : Dev nD) (j : Fin 73) : GSem nD τ sig := ((c : Thread nD τ), .dma (dsem j))

def jXs (k : Fin 19) : Fin 73 := ⟨k.val, by omega⟩
def jXr (k : Fin 19) : Fin 73 := ⟨k.val + 19, by omega⟩
def jYs (k : Fin 17) : Fin 73 := ⟨k.val + 38, by omega⟩
def jYr (k : Fin 17) : Fin 73 := ⟨k.val + 55, by omega⟩
def jL : Fin 73 := ⟨72, by omega⟩

/-! ## Contents -/

abbrev XB : Ref sig .tc := cc0_stg0_0
abbrev OB : Ref sig .tc := cc0_stg1_0

/-- Device c's block as the pipeline stages it. -/
def xb (c : Dev nD) : (XB : Ref sig .tc).ty.Contents (Elt F) :=
  (win0_0.blk (0 : Fin 1)).view.read (Elt F) ((s₀ m ρ).mem ((c : Thread nD τ).loc main_arg0))

/-- Device c's result: element i is element (i mod 2048 rows) of the block of the device it came from. -/
def oc (c : Dev nD) : (OB : Ref sig .tc).ty.Contents (Elt F) := fun i => xb m ρ (srcDev c i) (rowmod i)

/-- A range of device c's block, at a share. -/
def Xpt (c : Dev nD) (I : Finset SX.Idx) (q : PosShare TreeShare) : sProp 𝕄 := ((c : Thread nD τ).loc XB) ↦[I]{q} xb m ρ c
/-- A range of device c's result, at the result's contents. -/
def Opt (c : Dev nD) (I : Finset SO.Idx) : sProp 𝕄 := ((c : Thread nD τ).loc OB) ↦[I]{fullShare} oc m ρ c
/-- A range of device c's result, at some contents. -/
def Oany (c : Dev nD) (I : Finset SO.Idx) : sProp 𝕄 := iprop(∃ f, ((c : Thread nD τ).loc OB) ↦[I]{fullShare} f)

omit [FloatOps F] in
instance Xpt_storable (c : Dev nD) (I) (q) : BI.Storable (upEmb : UEmb _ 𝕄) (Xpt (F := F) m ρ c I q) := by unfold Xpt; infer_instance
omit [FloatOps F] in
instance Opt_storable (c : Dev nD) (I) : BI.Storable (upEmb : UEmb _ 𝕄) (Opt (F := F) m ρ c I) := by unfold Opt; infer_instance
omit [FloatOps F] in
instance Oany_storable (c : Dev nD) (I) : BI.Storable (upEmb : UEmb _ 𝕄) (Oany (F := F) c I) := by unfold Oany; infer_instance

/-! ## The schedule -/

/-- The credit of a transfer of n rows of 512 words. -/
def NO (n : ℕ) : ℕ := RefSig.tileCredit ⟨2, ![n, 512]⟩ .f32

theorem NO_pos {n : ℕ} (h : 0 < n) : 0 < NO n :=
  RefSig.tileCredit_pos _ _ (by
    show 0 < ∏ a : Fin 2, (![n, 512] : Fin 2 → ℕ) a
    rw [Fin.prod_univ_two]; exact Nat.mul_pos h (by show 0 < 512; decide))

/-- The row range a DMA cell's transfer fills. -/
def tOf (j : ℕ) : ℕ := if j < 19 then j else if j < 38 then j - 19 else if j < 55 then j - 38 else if j < 72 then j - 55 + 19 else 36
/-- A DMA cell's one duty's amount. -/
def jamt (j : ℕ) : ℕ := NO (szO (tOf j))

theorem jamt_pos (j : ℕ) : 0 < jamt j := NO_pos (szO_pos _)

/-- What a DMA cell's duty hands its owner. -/
def dpay (c : Dev nD) (j : Fin 73) : sProp 𝕄 :=
  if h : j.val < 19 then Xpt m ρ c (rectXs c ⟨j.val, h⟩).set fullShare.right
  else if h : j.val < 38 then Opt m ρ c (rectO c ⟨j.val - 19, by omega⟩).set
  else if h : j.val < 55 then Opt m ρ c (rectO c ⟨j.val - 38, by omega⟩).set
  else if h : j.val < 72 then Opt m ρ c (rectO c ⟨j.val - 55 + 19, by omega⟩).set
  else iprop(Opt m ρ c (rectO c tL).set ∗ Xpt m ρ c Finset.univ fullShare.left)

/-- What a barrier duty hands its owner c: false, from the row-mate, the row-mate's x-chunk ranges; true, from the
    column-mate, the column-mate's y-chunk ranges. -/
def barPay (c : Dev nD) (d : Bool) : sProp 𝕄 :=
  if d then bigSep Finset.univ fun k : Fin 17 => Oany (F := F) (ypeer c) (rectO (ypeer c) (tY k)).set
  else bigSep Finset.univ fun k : Fin 19 => Oany (F := F) (xpeer c) (rectO (xpeer c) (tX k)).set

def agRd : Rounds.Schedule (GSem nD τ sig) Bool 𝕄 where
  duties g r := if r = 0 ∧ g.1.2 = .tc then (match g.2 with | .reg _ => Finset.univ | .dma q => if 2 ≤ q.val then {false} else ∅) else ∅
  amount g _ _ := match g.2 with | .reg _ => 1 | .dma q => jamt (q.val - 2)
  payload g _ d := match g.2 with
    | .reg _ => barPay g.1.1 d
    | .dma q => if h : 2 ≤ q.val then dpay m ρ g.1.1 ⟨q.val - 2, by have hq : q.val < 75 := q.isLt; omega⟩ else iprop(emp)
  amount_pos g r d hd := by
    obtain ⟨t, s⟩ := g
    cases s with
    | reg _ => exact Nat.one_pos
    | dma q => exact jamt_pos _

instance agRd_payload_storable (g : GSem nD τ sig) (r : ℕ) (d : Bool) :
    BI.Storable (upEmb : UEmb _ 𝕄) ((agRd (F := F) m ρ).payload g r d) := by
  show BI.Storable upEmb (match g.2 with
    | .reg _ => barPay g.1.1 d
    | .dma q => if h : 2 ≤ q.val then dpay m ρ g.1.1 ⟨q.val - 2, by have hq : q.val < 75 := q.isLt; omega⟩ else iprop(emp))
  unfold barPay dpay
  (repeat' split) <;> infer_instance

section Tables
variable (c : Dev nD) (j : Fin 73)

omit [FloatOps F] in
theorem duties_bar : (agRd (F := F) m ρ).duties (barCell c) 0 = Finset.univ := by dsimp only [agRd]; exact if_pos ⟨rfl, rfl⟩
omit [FloatOps F] in
theorem duties_d : (agRd (F := F) m ρ).duties (dcell c j) 0 = {false} := by
  dsimp only [agRd]; rw [if_pos ⟨rfl, rfl⟩]; exact if_pos (Nat.le_add_left 2 j.val)
omit [FloatOps F] in
theorem duties_later (g : GSem nD τ sig) : ∀ r, 1 ≤ r → (agRd (F := F) m ρ).duties g r = ∅ :=
  fun r hr => by dsimp only [agRd]; rw [if_neg fun h => by omega]
omit [FloatOps F] in
theorem amount_bar (d : Bool) : (agRd (F := F) m ρ).amount (barCell c) 0 d = 1 := rfl
omit [FloatOps F] in
theorem amount_d (d : Bool) : (agRd (F := F) m ρ).amount (dcell c j) 0 d = jamt j.val := by
  show jamt (j.val + 2 - 2) = jamt j.val; rw [Nat.add_sub_cancel]
omit [FloatOps F] in
theorem expect_bar : (agRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
omit [FloatOps F] in
theorem expect_d : (agRd (F := F) m ρ).expect (dcell c j) 0 = jamt j.val := by
  unfold Schedule.expect Schedule.amountOf; rw [duties_d, Finset.sum_singleton, amount_d]
omit [FloatOps F] in
theorem payload_bar (d : Bool) : (agRd (F := F) m ρ).payload (barCell c) 0 d = barPay c d := rfl
omit [FloatOps F] in
theorem payload_d (d : Bool) : (agRd (F := F) m ρ).payload (dcell c j) 0 d = dpay m ρ c j := by
  show (if h : 2 ≤ j.val + 2 then dpay m ρ c ⟨j.val + 2 - 2, _⟩ else iprop(emp)) = dpay m ρ c j
  rw [dif_pos (Nat.le_add_left 2 j.val)]
  congr 1
omit [FloatOps F] in
/-- The rest of the barrier cell's round, no duty taken: both mates' ranges. -/
theorem rest_bar : bigSep ((agRd (F := F) m ρ).duties (barCell c) 0 \ ∅) (fun d => (agRd (F := F) m ρ).payload (barCell c) 0 d)
    = iprop(barPay c false ∗ barPay c true) := by
  rw [Finset.sdiff_empty, duties_bar, bigSep_univ_eq_bigSepL [false, true] (by decide) (by decide), bigSepL_cons_cons, bigSepL_singleton]
  rfl
omit [FloatOps F] in
theorem rest_d : bigSep ((agRd (F := F) m ρ).duties (dcell c j) 0 \ ∅) (fun d => (agRd (F := F) m ρ).payload (dcell c j) 0 d) = dpay m ρ c j := by
  rw [Finset.sdiff_empty, duties_d, bigSep_singleton, payload_d]
omit [FloatOps F] in
theorem not_unitless (g : GSem nD τ sig) : ¬ (agRd (F := F) m ρ).unitless g := fun h => h

end Tables

/-! ## The payloads by kind -/

omit [FloatOps F] in
theorem dpay_xs (c : Dev nD) (k : Fin 19) : dpay m ρ c (jXs k) = Xpt m ρ c (rectXs c k).set fullShare.right := by
  unfold dpay jXs; rw [dif_pos k.isLt]
omit [FloatOps F] in
theorem dpay_xr (c : Dev nD) (k : Fin 19) : dpay m ρ c (jXr k) = Opt m ρ c (rectO c (tX k)).set := by
  unfold dpay jXr; rw [dif_neg (by simp), dif_pos (by simp; omega)]; congr 3 <;> simp [tX]
omit [FloatOps F] in
theorem dpay_ys (c : Dev nD) (k : Fin 17) : dpay m ρ c (jYs k) = Opt m ρ c (rectO c (tX ⟨k.val, by omega⟩)).set := by
  unfold dpay jYs; rw [dif_neg (by simp), dif_neg (by simp), dif_pos (by simp; omega)]; congr 3 <;> simp [tX]
omit [FloatOps F] in
theorem dpay_yr (c : Dev nD) (k : Fin 17) : dpay m ρ c (jYr k) = Opt m ρ c (rectO c (tY k)).set := by
  unfold dpay jYr; rw [dif_neg (by simp), dif_neg (by simp), dif_neg (by simp), dif_pos (by simp; omega)]; congr 3 <;> simp [tY]
omit [FloatOps F] in
theorem dpay_l (c : Dev nD) : dpay m ρ c jL = iprop(Opt m ρ c (rectO c tL).set ∗ Xpt m ρ c Finset.univ fullShare.left) := by
  unfold dpay jL; rw [dif_neg (by simp), dif_neg (by simp), dif_neg (by simp), dif_neg (by simp)]

/-! ## What each device owes at launch, in the order it pays -/

/-- The device and the semaphore of the i-th due. -/
def owedDev (c : Dev nD) (i : ℕ) : Dev nD := if i = 0 then xpeer c else if i = 1 then ypeer c else if i < 21 then xpeer c else ypeer c
def owedSem (i : ℕ) : SemLoc sig :=
  if i < 2 then .reg barS else if h : i < 21 then .dma (dsem (jXr ⟨i - 2, by omega⟩)) else if h : i < 38 then .dma (dsem (jYr ⟨i - 21, by omega⟩)) else .reg barS
def owedAmt (i : ℕ) : ℕ := if i < 2 then 1 else NO (szO (i - 2))
def owedCell (c : Dev nD) (i : ℕ) : GSem nD τ sig := ((owedDev c i : Thread nD τ), owedSem i)
def Oi (c : Dev nD) (i : Fin 38) : CellTallies nD τ sig Unit := tallyAt (owedCell c i.val) () (owedAmt i.val)
def O₀ (c : Dev nD) : CellTallies nD τ sig Unit := ∑ i : Fin 38, Oi c i
/-- What is left to pay after the first n dues. -/
def Orem (c : Dev nD) (n : ℕ) : CellTallies nD τ sig Unit := ∑ i ∈ Finset.univ.filter (fun i : Fin 38 => n ≤ i.val), Oi c i

theorem Orem_zero (c : Dev nD) : Orem c 0 = O₀ c := by
  unfold Orem O₀
  exact Finset.sum_congr (by ext i; simp) (fun _ _ => rfl)
theorem Orem_last (c : Dev nD) : Orem c 38 = 0 := by
  unfold Orem; rw [Finset.filter_false_of_mem (fun i _ => by have := i.isLt; omega), Finset.sum_empty]
theorem Orem_succ (c : Dev nD) (n : ℕ) (h : n < 38) : Orem c n = Orem c (n + 1) + Oi c ⟨n, h⟩ := by
  unfold Orem
  have e : Finset.univ.filter (fun i : Fin 38 => n ≤ i.val) = insert ⟨n, h⟩ (Finset.univ.filter (fun i : Fin 38 => n + 1 ≤ i.val)) := by
    ext i; simp only [Finset.mem_filter, Finset.mem_univ, true_and, Finset.mem_insert, Fin.ext_iff]; omega
  rw [e, Finset.sum_insert (by simp), add_comm]

/-! ## Levels -/

def L (g : GSem nD τ sig) : Finset Unit := if g.1.2 = .tc then {()} else ∅
def lvS (s : SemLoc sig) : ℕ := match s with
  | .reg _ => 1
  | .dma q => if 21 ≤ q.val ∧ q.val < 40 then 2 else if 57 ≤ q.val ∧ q.val < 74 then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A wait on semaphore s while the dues from the n-th on are unpaid, when s sits below all of them. -/
theorem mayWait_rem (c : Dev nD) (s : SemLoc sig) (n : ℕ) (h : ∀ i : Fin 38, n ≤ i.val → lvS s < lvS (owedSem i.val)) :
    (levAts L lv : sProp 𝕄) ⊢ MayWait (c : Thread nD τ) s () (Orem c n) :=
  Pipeline.mayWait_of_levAts (by rw [L_tc]; exact Finset.mem_singleton_self _) fun g u hg => by
    unfold Orem at hg
    obtain ⟨i, hi, hpos⟩ := Pipeline.sum_pos_exists hg
    unfold Oi at hpos
    obtain ⟨rfl, -⟩ := Pipeline.tallyAt_pos hpos
    refine ⟨by unfold owedCell; rw [L_tc]; exact Finset.mem_singleton_self _, h i (Finset.mem_filter.mp hi).2⟩

end Cert.KernelIdeal.AG

end
-- ==== Proof.KernelIdeal.State.lean ====
/-
  The resources one device holds while its body runs, as ONE assertion over a few small state functions.

  Persistent: every cell's invariant and that its round 0 is reached (all devices'), and the level facts.
  Per DMA cell of its own, a state: 0 the owner's position at round 0; 1 the position and the cell's credit tokens (a wait
  can be made); 2 the counter back at zero (waited and closed).  Per transfer, whether its two duty tokens are still
  held.  Per x-chunk, whether the chunk's rows of the block (right half share) are in hand; the block's left half share;
  per range of its result, a state: 0 held at some contents, 1 away, 2 held at the result's contents; per range of a
  mate's result it may write, whether it holds it; and what it still owes: the dues from the n-th on.
-/
import proofs.«900081_g7700000000000082_dist_ag_v7x_xy2x2_x_m2048_n512_f32_1_alg».proof.Proof.KernelIdeal.Sched

set_option maxRecDepth 16384

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## All cells of the machine, enumerated -/

abbrev csem (k : Fin 74) : SemLoc sig := if h : k.val = 0 then .reg barS else .dma (dsem ⟨k.val - 1, by omega⟩)
abbrev kcell (ck : Dev nD × Fin 74) : GSem nD τ sig := ((ck.1 : Thread nD τ), csem ck.2)
def kd (j : Fin 73) : Fin 74 := ⟨j.val + 1, by omega⟩

theorem kcell_bar (c : Dev nD) : kcell (c, 0) = barCell c := rfl
theorem csem_kd (j : Fin 73) : csem (kd j) = SemLoc.dma (dsem j) := by
  unfold csem kd
  rw [dif_neg (Nat.succ_ne_zero _)]
  exact congrArg (fun x : Fin 73 => SemLoc.dma (dsem x)) (Fin.ext (Nat.add_sub_cancel j.val 1))
theorem kcell_kd (c : Dev nD) (j : Fin 73) : kcell (c, kd j) = dcell c j := by
  show ((c : Thread nD τ), csem (kd j)) = ((c : Thread nD τ), SemLoc.dma (dsem j))
  rw [csem_kd]

/-- The cells' invariants at the names the launch allocated them at, and that round 0 of each is reached. -/
def records (K : Dev nD × Fin 74 → ℕ) : sProp 𝕄 :=
  iprop((bigSep Finset.univ fun ck : Dev nD × Fin 74 => cellInv ER (agRd m ρ) (K ck) (kcell ck))
    ∗ bigSep Finset.univ fun ck : Dev nD × Fin 74 => reached ER (kcell ck) 0)

instance records_persistent (K : Dev nD × Fin 74 → ℕ) : BI.Persistent (records m ρ K) := by unfold records; infer_instance

omit [FloatOps F] in
theorem recs_at (Φ : Dev nD × Fin 74 → sProp 𝕄) (ck : Dev nD × Fin 74) : bigSep Finset.univ Φ ⊢ Φ ck := bigSep_elim (Finset.mem_univ ck)

omit [FloatOps F] in
theorem inv_bar (K : Dev nD × Fin 74 → ℕ) (c : Dev nD) : records m ρ K ⊢ cellInv ER (agRd m ρ) (K (c, 0)) (barCell c) := by
  unfold records; iintro ⟨H, -⟩
  iapply (recs_at (fun ck : Dev nD × Fin 74 => (cellInv ER (agRd m ρ) (K ck) (kcell ck) : sProp 𝕄)) (c, 0)); iexact H
omit [FloatOps F] in
theorem inv_d (K : Dev nD × Fin 74 → ℕ) (c : Dev nD) (j : Fin 73) : records m ρ K ⊢ cellInv ER (agRd m ρ) (K (c, kd j)) (dcell c j) := by
  unfold records; iintro ⟨H, -⟩
  rw [← kcell_kd c j]
  iapply (recs_at (fun ck : Dev nD × Fin 74 => (cellInv ER (agRd m ρ) (K ck) (kcell ck) : sProp 𝕄)) (c, kd j)); iexact H
omit [FloatOps F] in
theorem reached_bar (K : Dev nD × Fin 74 → ℕ) (c : Dev nD) : records m ρ K ⊢ reached ER (barCell c) 0 := by
  unfold records; iintro ⟨-, H⟩
  iapply (recs_at (fun ck : Dev nD × Fin 74 => (reached ER (kcell ck) 0 : sProp 𝕄)) (c, 0)); iexact H
omit [FloatOps F] in
theorem reached_d (K : Dev nD × Fin 74 → ℕ) (c : Dev nD) (j : Fin 73) : records m ρ K ⊢ reached ER (dcell c j) 0 := by
  unfold records; iintro ⟨-, H⟩
  rw [← kcell_kd c j]
  iapply (recs_at (fun ck : Dev nD × Fin 74 => (reached ER (kcell ck) 0 : sProp 𝕄)) (c, kd j)); iexact H

/-! ## One summand of a family changes -/

omit [FloatOps F] in
theorem bigSep_upd {n : ℕ} {α : Type} (R : Fin n → α → sProp 𝕄) (f : Fin n → α) (i : Fin n) (a v : α) (h : f i = a) :
    (bigSep Finset.univ fun j => R j (f j)) ⊢ iprop(R i a ∗ (R i v -∗ bigSep Finset.univ fun j => R j (Function.update f i v j))) := by
  have e := bigSep_univ_update (Φ := fun j => R j (f j)) (Ψ := fun j => R j (Function.update f i v j)) i
    (fun j hj => by show R j (Function.update f i v j) = R j (f j); rw [Function.update_of_ne hj])
  simp only [Function.update_self, h] at e
  exact e

/-! ## Families over the 73 cells and the 37 ranges, by kind -/

omit [FloatOps F] in
theorem bigSep_fin37 (Φ : Fin 37 → sProp 𝕄) :
    bigSep Finset.univ Φ = iprop((bigSep Finset.univ fun k : Fin 19 => Φ (tX k)) ∗ (bigSep Finset.univ fun k : Fin 17 => Φ (tY k)) ∗ Φ tL) := by
  have hU : (Finset.univ : Finset (Fin 37)) = Finset.univ.image tX ∪ (Finset.univ.image tY ∪ {tL}) := by decide +kernel
  rw [hU, bigSep_union (by decide +kernel), bigSep_union (by decide +kernel),
    bigSep_image_of_injOn (fun a _ b _ h => Fin.ext (by simpa [tX] using congrArg Fin.val h)),
    bigSep_image_of_injOn (fun a _ b _ h => Fin.ext (by simpa [tY] using congrArg Fin.val h)), bigSep_singleton]
  rfl

omit [FloatOps F] in
theorem bigSep_fin73 (Φ : Fin 73 → sProp 𝕄) :
    bigSep Finset.univ Φ = iprop((bigSep Finset.univ fun k : Fin 19 => Φ (jXs k)) ∗ (bigSep Finset.univ fun k : Fin 19 => Φ (jXr k))
      ∗ (bigSep Finset.univ fun k : Fin 17 => Φ (jYs k)) ∗ (bigSep Finset.univ fun k : Fin 17 => Φ (jYr k)) ∗ Φ jL) := by
  have hU : (Finset.univ : Finset (Fin 73)) = Finset.univ.image jXs ∪ (Finset.univ.image jXr ∪ (Finset.univ.image jYs ∪ (Finset.univ.image jYr ∪ {jL}))) := by
    decide +kernel
  rw [hU, bigSep_union (by decide +kernel), bigSep_union (by decide +kernel), bigSep_union (by decide +kernel), bigSep_union (by decide +kernel),
    bigSep_image_of_injOn (fun a _ b _ h => Fin.ext (by simpa [jXs] using congrArg Fin.val h)),
    bigSep_image_of_injOn (fun a _ b _ h => Fin.ext (by simpa [jXr] using congrArg Fin.val h)),
    bigSep_image_of_injOn (fun a _ b _ h => Fin.ext (by simpa [jYs] using congrArg Fin.val h)),
    bigSep_image_of_injOn (fun a _ b _ h => Fin.ext (by simpa [jYr] using congrArg Fin.val h)), bigSep_singleton]
  rfl

/-- A step in the form a chain of steps composes in: from the new state the rest runs. -/
theorem step_of {P P' R R' : sProp 𝕄} (h : P ⊢ iprop((P' -∗ R) -∗ R')) (hc : P' ⊢ R) : P ⊢ R' := by
  iintro HP
  iapply h $$ HP
  iintro HP'
  iapply hc; iexact HP'

/-! ## The state -/

/-- A DMA cell of one's own, by state. -/
def cellRes (c : Dev nD) (j : Fin 73) (s : ℕ) : sProp 𝕄 := match s with
  | 0 => atPos ER (dcell c j) 0 ∅ 0
  | 1 => iprop(atPos ER (dcell c j) 0 ∅ 0 ∗ cred (tallyAt (dcell c j) () (jamt j.val)))
  | _ => semVal (dcell c j) 0

omit [FloatOps F] in
theorem cellRes_zero (c : Dev nD) (j : Fin 73) : cellRes (F := F) c j 0 = atPos ER (dcell c j) 0 ∅ 0 := rfl
omit [FloatOps F] in
theorem cellRes_one (c : Dev nD) (j : Fin 73) :
    cellRes (F := F) c j 1 = iprop(atPos ER (dcell c j) 0 ∅ 0 ∗ cred (tallyAt (dcell c j) () (jamt j.val))) := rfl
omit [FloatOps F] in
theorem cellRes_two (c : Dev nD) (j : Fin 73) : cellRes (F := F) c j 2 = semVal (dcell c j) 0 := rfl

/-- The two tokens an x-transfer, a y-transfer, the local copy is enqueued with. -/
def tokX (c : Dev nD) (k : Fin 19) : sProp 𝕄 := iprop(dutyTok ER (dcell c (jXs k)) 0 false ∗ dutyTok ER (dcell (xpeer c) (jXr k)) 0 false)
def tokY (c : Dev nD) (k : Fin 17) : sProp 𝕄 := iprop(dutyTok ER (dcell c (jYs k)) 0 false ∗ dutyTok ER (dcell (ypeer c) (jYr k)) 0 false)
def tokL (c : Dev nD) : sProp 𝕄 := dutyTok ER (dcell c jL) 0 false

def held (b : Bool) (P : sProp 𝕄) : sProp 𝕄 := if b then P else iprop(emp)

/-- A range of one's own result, by state. -/
def oRes (c : Dev nD) (t : Fin 37) (s : ℕ) : sProp 𝕄 := match s with
  | 0 => Oany (F := F) c (rectO c t).set
  | 1 => iprop(emp)
  | _ => Opt m ρ c (rectO c t).set

omit [FloatOps F] in
theorem oRes_zero (c : Dev nD) (t : Fin 37) : oRes m ρ c t 0 = Oany (F := F) c (rectO c t).set := rfl
omit [FloatOps F] in
theorem oRes_one (c : Dev nD) (t : Fin 37) : oRes m ρ c t 1 = iprop(emp) := rfl
omit [FloatOps F] in
theorem oRes_two (c : Dev nD) (t : Fin 37) : oRes m ρ c t 2 = Opt m ρ c (rectO c t).set := rfl

/-- The rows of a block some x-chunk sends. -/
def XU (c : Dev nD) : Finset SX.Idx := Finset.univ.biUnion fun k : Fin 19 => (rectXs c k).set

/-- Everything device c holds while its body runs (the barrier handshake done). -/
def St (K : Dev nD × Fin 74 → ℕ) (c : Dev nD)
    (cXs cXr : Fin 19 → ℕ) (cYs cYr : Fin 17 → ℕ) (cL : ℕ)
    (kX : Fin 19 → Bool) (kY : Fin 17 → Bool) (kL : Bool)
    (sX : Fin 19 → Bool) (sL : Bool)
    (oX : Fin 19 → ℕ) (oY : Fin 17 → ℕ) (oL : ℕ)
    (pX : Fin 19 → Bool) (pY : Fin 17 → Bool) (n : ℕ) : sProp 𝕄 :=
  iprop(records m ρ K ∗ levAts L lv
    ∗ (bigSep Finset.univ fun k : Fin 19 => cellRes c (jXs k) (cXs k))
    ∗ (bigSep Finset.univ fun k : Fin 19 => cellRes c (jXr k) (cXr k))
    ∗ (bigSep Finset.univ fun k : Fin 17 => cellRes c (jYs k) (cYs k))
    ∗ (bigSep Finset.univ fun k : Fin 17 => cellRes c (jYr k) (cYr k))
    ∗ cellRes c jL cL
    ∗ (bigSep Finset.univ fun k : Fin 19 => held (kX k) (tokX c k))
    ∗ (bigSep Finset.univ fun k : Fin 17 => held (kY k) (tokY c k))
    ∗ held kL (tokL c)
    ∗ (bigSep Finset.univ fun k : Fin 19 => held (sX k) (Xpt m ρ c (rectXs c k).set fullShare.right))
    ∗ held sL (Xpt m ρ c Finset.univ fullShare.left)
    ∗ Xpt m ρ c (Finset.univ \ XU c) fullShare.right
    ∗ (bigSep Finset.univ fun k : Fin 19 => oRes m ρ c (tX k) (oX k))
    ∗ (bigSep Finset.univ fun k : Fin 17 => oRes m ρ c (tY k) (oY k))
    ∗ oRes m ρ c tL oL
    ∗ (bigSep Finset.univ fun k : Fin 19 => held (pX k) (Oany (F := F) (xpeer c) (rectO (xpeer c) (tX k)).set))
    ∗ (bigSep Finset.univ fun k : Fin 17 => held (pY k) (Oany (F := F) (ypeer c) (rectO (ypeer c) (tY k)).set))
    ∗ ∃ W, owes (c : Thread nD τ) (Orem c n) W)

end Cert.KernelIdeal.AG

end
-- ==== Proof.KernelIdeal.Data.lean ====
/-
  The pipeline's proof data for the all-gather: what a device starts its body from, what it ends it with, what the two
  windows' staging buffers hold, and what it owes before and after its one grid point.
-/
import proofs.«900081_g7700000000000082_dist_ag_v7x_xy2x2_x_m2048_n512_f32_1_alg».proof.Proof.KernelIdeal.State

set_option maxRecDepth 16384

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the launch hands device c at names K: the records and levels; its barrier cell's position and two units of
    credit, and the tokens of the two barrier duties it pays; its DMA cells' positions, the receive cells' with
    their launch credit; the tokens of every transfer it will enqueue. -/
def startAt (K : Dev nD × Fin 74 → ℕ) (c : Dev nD) : sProp 𝕄 :=
  iprop(records m ρ K ∗ levAts L lv
    ∗ atPos ER (barCell c) 0 ∅ 0 ∗ cred (tallyAt (barCell c) () 2)
    ∗ dutyTok ER (barCell (xpeer c)) 0 false ∗ dutyTok ER (barCell (ypeer c)) 0 true
    ∗ (bigSep Finset.univ fun k : Fin 19 => cellRes c (jXs k) 0)
    ∗ (bigSep Finset.univ fun k : Fin 19 => cellRes c (jXr k) 1)
    ∗ (bigSep Finset.univ fun k : Fin 17 => cellRes c (jYs k) 0)
    ∗ (bigSep Finset.univ fun k : Fin 17 => cellRes c (jYr k) 1)
    ∗ cellRes c jL 0
    ∗ (bigSep Finset.univ fun k : Fin 19 => tokX c k)
    ∗ (bigSep Finset.univ fun k : Fin 17 => tokY c k)
    ∗ tokL c)

def start (c : Dev nD) : sProp 𝕄 := iprop(∃ K, startAt m ρ K c)

/-- After the body: the kernel's 73 DMA semaphores back at zero. -/
def Φ₁ (c : Dev nD) : sProp 𝕄 := bigSep Finset.univ fun j : Fin 73 => semVal (dcell c j) 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xb m ρ c
    | ⟨1, _⟩ => oc m ρ c
  Φ t := match t with
    | ⟨0, _⟩ => start m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelIdeal.AG

end
-- ==== Proof.KernelIdeal.Launch.lean ====
/-
  The launch of the all-gather: the 74 cells of every device (the barrier semaphore and the kernel's 73 DMA semaphores)
  funded under one update at launch, each device dealt the tokens of the duties IT pays — its two barrier signals, both
  cells of every transfer it enqueues —, the launch credit read off what the devices owe (every due names the row-mate
  or the column-mate, an involution of the mesh), and the run.
-/
import proofs.«900081_g7700000000000082_dist_ag_v7x_xy2x2_x_m2048_n512_f32_1_alg».proof.Proof.KernelIdeal.Data

set_option maxRecDepth 16384

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by unfold Dat.share; split <;> rfl

/-! ## The cells and the tokens, enumerated -/

theorem csem_injective : ∀ k k' : Fin 74, csem k = csem k' → k = k' := by decide +kernel

theorem kcell_injective : Function.Injective (kcell : Dev nD × Fin 74 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective k k' h2]
def ringCells : Finset (GSem nD τ sig) := Finset.univ.map ⟨kcell, kcell_injective⟩

/-- The duties a device pays, by kind: its two barrier signals (false: to the row-mate's cell; true: to the column-mate's),
    an x-transfer's send and receive cells, a y-transfer's, the local copy's. -/
abbrev TI : Type := Bool ⊕ (Fin 19 ⊕ (Fin 19 ⊕ (Fin 17 ⊕ (Fin 17 ⊕ Unit))))

def tiDev (c : Dev nD) : TI → Dev nD
  | .inl false => xpeer c
  | .inl true => ypeer c
  | .inr (.inl _) => c
  | .inr (.inr (.inl _)) => xpeer c
  | .inr (.inr (.inr (.inl _))) => c
  | .inr (.inr (.inr (.inr (.inl _)))) => ypeer c
  | .inr (.inr (.inr (.inr (.inr _)))) => c
def tiSem : TI → SemLoc sig
  | .inl _ => .reg barS
  | .inr (.inl k) => .dma (dsem (jXs k))
  | .inr (.inr (.inl k)) => .dma (dsem (jXr k))
  | .inr (.inr (.inr (.inl k))) => .dma (dsem (jYs k))
  | .inr (.inr (.inr (.inr (.inl k)))) => .dma (dsem (jYr k))
  | .inr (.inr (.inr (.inr (.inr _)))) => .dma (dsem jL)
def tiDuty : TI → Bool
  | .inl b => b
  | _ => false

def payTok (ct : Dev nD × TI) : GSem nD τ sig × ℕ × Bool := (((tiDev ct.1 ct.2 : Thread nD τ), tiSem ct.2), 0, tiDuty ct.2)

set_option synthInstance.maxSize 4096 in
theorem ti_sem_inj : ∀ t t' : TI, (tiSem t, tiDuty t) = (tiSem t', tiDuty t') → t = t' := by decide +kernel
theorem ti_dev_inj : ∀ (t : TI) (c c' : Dev nD), tiDev c t = tiDev c' t → c = c' := by decide +kernel

theorem payTok_injective : Function.Injective (payTok : Dev nD × TI → GSem nD τ sig × ℕ × Bool) := by
  rintro ⟨c, t⟩ ⟨c', t'⟩ h
  have h1 : t = t' := ti_sem_inj t t' (Prod.ext (congrArg (fun x : GSem nD τ sig × ℕ × Bool => x.1.2) h) (congrArg (fun x : GSem nD τ sig × ℕ × Bool => x.2.2) h))
  subst h1
  have h2 : tiDev c t = tiDev c' t := congrArg (fun x : GSem nD τ sig × ℕ × Bool => x.1.1.1) h
  rw [ti_dev_inj t c c' h2]
def ringToks : Finset (GSem nD τ sig × ℕ × Bool) := Finset.univ.map ⟨payTok, payTok_injective⟩

def u₀ : UU :=
  (initOf (Pipeline.cells cfgs cellOf_inj) (Pipeline.launchToks cfgs cellOf_inj), initOf ringCells ringToks)

/-- The tokens of the duties device c pays. -/
def payToks (c : Dev nD) : sProp 𝕄 :=
  iprop((dutyTok ER (barCell (xpeer c)) 0 false ∗ dutyTok ER (barCell (ypeer c)) 0 true)
    ∗ (bigSep Finset.univ fun k : Fin 19 => dutyTok ER (dcell c (jXs k)) 0 false)
    ∗ (bigSep Finset.univ fun k : Fin 19 => dutyTok ER (dcell (xpeer c) (jXr k)) 0 false)
    ∗ (bigSep Finset.univ fun k : Fin 17 => dutyTok ER (dcell c (jYs k)) 0 false)
    ∗ (bigSep Finset.univ fun k : Fin 17 => dutyTok ER (dcell (ypeer c) (jYr k)) 0 false)
    ∗ dutyTok ER (dcell c jL) 0 false)

omit [FloatOps F] in
theorem payToks_eq (c : Dev nD) :
    (bigSep Finset.univ fun t : TI => (dutyTok ER (payTok (c, t)).1 (payTok (c, t)).2.1 (payTok (c, t)).2.2 : sProp 𝕄)) = payToks c := by
  unfold payToks
  rw [bigSep_univ_sum, bigSep_univ_sum, bigSep_univ_sum, bigSep_univ_sum, bigSep_univ_sum,
    bigSep_univ_eq_bigSepL [false, true] (by decide) (by decide), bigSepL_cons_cons, bigSepL_singleton,
    bigSep_univ_of_subsingleton (i := ())]
  rfl

/-- What the launch element deals device c (the theorem's G). -/
def G (c : Dev nD) : sProp 𝕄 :=
  iprop((bigSep Finset.univ fun k : Fin 74 => roundState ER (agRd m ρ) (kcell (c, k)) 0)
    ∗ (bigSep Finset.univ fun k : Fin 74 => iprop(atPos ER (kcell (c, k)) 0 ∅ 0 ∗ reached ER (kcell (c, k)) 0)) ∗ payToks c)

/-- What stays with device c: its positions and its tokens. -/
def linear (c : Dev nD) : sProp 𝕄 := iprop((bigSep Finset.univ fun k : Fin 74 => atPos ER (kcell (c, k)) 0 ∅ 0) ∗ payToks c)
def ghost (K : Dev nD × Fin 74 → ℕ) (c : Dev nD) : sProp 𝕄 := iprop(records m ρ K ∗ linear c)
/-- What the global step makes of it (G'). -/
def G' (c : Dev nD) : sProp 𝕄 := iprop(∃ K, ghost m ρ K c)

omit [FloatOps F] in
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 74 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => payToks c := by
    unfold ringToks; rw [bigSep_map, bigSep_univ_prod]
    exact bigSep_congr fun c _ => payToks_eq c
  iintro HX
  imod (Rounds.fund ER (agRd m ρ) ringCells ringToks) $$ HX with ⟨Hst, Hr, Hat, Htok⟩
  imodintro
  ihave Hst' := (Entails.of_eq (hX fun g => roundState ER (agRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

omit [FloatOps F] in
theorem bigSep_fin74 (Φ : Fin 74 → sProp 𝕄) : bigSep Finset.univ Φ = iprop(Φ 0 ∗ bigSep Finset.univ fun j : Fin 73 => Φ (kd j)) := by
  have hU : (Finset.univ : Finset (Fin 74)) = {0} ∪ Finset.univ.image kd := by decide +kernel
  rw [hU, bigSep_union (by decide +kernel), bigSep_singleton,
    bigSep_image_of_injOn (fun a _ b _ h => Fin.ext (by simpa [kd] using congrArg Fin.val h))]
  rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun j : Fin 73 => semVal (dcell c j) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 74 => semVal (kcell (c, k)) 0 : sProp 𝕄) := by
  rw [ownSems0_eq, unscopedSems0_eq, bigSep_fin74]
  iintro ⟨HS, HB⟩
  isplitl [HB]; · iexact HB
  iapply (Entails.of_eq (bigSep_congr fun j _ => by rw [kcell_kd])); iexact HS

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (agRd m ρ) κ (kcell (c, k))))
          ∗ (bigSep Finset.univ fun k => iprop(atPos ER (kcell (c, k)) 0 ∅ 0 ∗ reached ER (kcell (c, k)) 0)) ∗ payToks c) := by
  unfold G
  iintro ⟨Hos, Hus, Hst, Hat, Htok⟩
  ihave Hv := (sems0_eq (F := F) c) $$ [Hos Hus]
  · isplitl [Hos] <;> iassumption
  imod (show iprop((bigSep Finset.univ fun k : Fin 74 => semVal (kcell (c, k)) 0) ∗ bigSep Finset.univ fun k : Fin 74 => roundState ER (agRd m ρ) (kcell (c, k)) 0)
      ⊢ (|={Set.univ}=> bigSep Finset.univ fun k => iprop(∃ κ : ℕ, cellInv ER (agRd m ρ) κ (kcell (c, k))) : sProp 𝕄) from by
        rw [← bigSep_sep']
        exact (bigSep_mono fun k _ => (Rounds.body_intro ER (agRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem regroup :
    (bigSep Finset.univ fun c : Dev nD => iprop((bigSep Finset.univ fun k => iprop(∃ κ : ℕ, cellInv ER (agRd m ρ) κ (kcell (c, k))))
          ∗ (bigSep Finset.univ fun k => iprop(atPos ER (kcell (c, k)) 0 ∅ 0 ∗ reached ER (kcell (c, k)) 0)) ∗ payToks c) : sProp 𝕄)
      ⊢ bigSep Finset.univ (G' m ρ) := by
  rw [bigSep_sep', bigSep_sep', ← bigSep_univ_prod (fun ck : Dev nD × Fin 74 => iprop(∃ κ : ℕ, cellInv ER (agRd m ρ) κ (kcell ck))),
    bigSep_congr (s := Finset.univ) (fun (c : Dev nD) _ => bigSep_sep' Finset.univ (fun k : Fin 74 => (atPos ER (kcell (c, k)) 0 ∅ 0 : sProp 𝕄)) (fun k => reached ER (kcell (c, k)) 0)),
    bigSep_sep', ← bigSep_univ_prod (fun ck : Dev nD × Fin 74 => (reached ER (kcell ck) 0 : sProp 𝕄))]
  iintro ⟨HI, ⟨Hat, #HR⟩, Htok⟩
  ihave HK := (BI.bigSep_exists_pi Finset.univ (fun (ck : Dev nD × Fin 74) (κ : ℕ) => (cellInv ER (agRd m ρ) κ (kcell ck) : sProp 𝕄))) $$ HI
  icases HK with ⟨%K, #HI⟩
  iapply (bigSep_with_persistent (R := records m ρ K) fun c _ => show iprop(records m ρ K ∗ linear c) ⊢ G' m ρ c from by
    unfold G' ghost; iintro ⟨#HR', HL⟩; iexists K; isplitr; · iexact HR'
    iexact HL)
  isplitr
  · unfold records; isplitl; · iexact HI
    iexact HR
  · iapply (Entails.of_eq (bigSep_sep' Finset.univ (fun c : Dev nD => bigSep Finset.univ fun k : Fin 74 => (atPos ER (kcell (c, k)) 0 ∅ 0 : sProp 𝕄)) payToks).symm)
    isplitl [Hat]; · iexact Hat
    iexact Htok

omit [FloatOps F] in
/-- The global step (hglob): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.KernelIdeal.AG

end
-- ==== Proof.KernelIdeal.Run0.lean ====
/-
  The launch credit, the launch theorem's side conditions and the run of the all-gather; then what the arrays hold at the
  end: the argument as it was, and the result — the staged result buffer written back whole — at the contents function of
  the protocol, "element i is element (i mod 2048 rows) of the block of the device it came from".
-/
import proofs.«900081_g7700000000000082_dist_ag_v7x_xy2x2_x_m2048_n512_f32_1_alg».proof.Proof.KernelIdeal.Launch

set_option maxRecDepth 16384

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

theorem owedDev_invol : ∀ (i : Fin 38) (c : Dev nD), owedDev (owedDev c i.val) i.val = c := by decide +kernel

omit [FloatOps F] in
/-- The credit tokens of every due some device owes device c's cells, one per due. -/
theorem creds_all (c : Dev nD) :
    (Pipeline.launchCred O₀ c : sProp 𝕄) ⊢ bigSep Finset.univ fun i : Fin 38 => cred (tallyAt ((c : Thread nD τ), owedSem i.val) () (owedAmt i.val)) := by
  have e : (O₀ : Dev nD → CellTallies nD τ sig Unit) = fun d => ∑ i ∈ (Finset.univ : Finset (Fin 38)), (fun (i : Fin 38) (d : Dev nD) => Oi d i) i d := rfl
  rw [e, Pipeline.launchCred_sum]
  exact bigSep_mono fun i _ => Pipeline.launchCred_tallyAt (owedSem i.val) (fun d => owedDev d i.val) (fun d => owedDev d i.val)
    (owedDev_invol i) (owedDev_invol i) () (owedAmt i.val) c

def iX (k : Fin 19) : Fin 38 := ⟨k.val + 2, by omega⟩
def iY (k : Fin 17) : Fin 38 := ⟨k.val + 21, by omega⟩

omit [FloatOps F] in
theorem bigSep_fin38 (Φ : Fin 38 → sProp 𝕄) :
    bigSep Finset.univ Φ = iprop(Φ 0 ∗ Φ 1 ∗ (bigSep Finset.univ fun k : Fin 19 => Φ (iX k)) ∗ bigSep Finset.univ fun k : Fin 17 => Φ (iY k)) := by
  have hU : (Finset.univ : Finset (Fin 38)) = {0} ∪ ({1} ∪ (Finset.univ.image iX ∪ Finset.univ.image iY)) := by decide +kernel
  rw [hU, bigSep_union (by decide +kernel), bigSep_union (by decide +kernel), bigSep_union (by decide +kernel), bigSep_singleton, bigSep_singleton,
    bigSep_image_of_injOn (fun a _ b _ h => Fin.ext (by simpa [iX] using congrArg Fin.val h)),
    bigSep_image_of_injOn (fun a _ b _ h => Fin.ext (by simpa [iY] using congrArg Fin.val h))]
  rfl

theorem owed_x (k : Fin 19) : owedSem (iX k).val = .dma (dsem (jXr k)) ∧ owedAmt (iX k).val = jamt (jXr k).val := by revert k; decide +kernel
theorem owed_y (k : Fin 17) : owedSem (iY k).val = .dma (dsem (jYr k)) ∧ owedAmt (iY k).val = jamt (jYr k).val := by revert k; decide +kernel

omit [FloatOps F] in
theorem creds (c : Dev nD) :
    (Pipeline.launchCred O₀ c : sProp 𝕄) ⊢ iprop(cred (tallyAt (barCell c) () 2)
      ∗ (bigSep Finset.univ fun k : Fin 19 => cred (tallyAt (dcell c (jXr k)) () (jamt (jXr k).val)))
      ∗ bigSep Finset.univ fun k : Fin 17 => cred (tallyAt (dcell c (jYr k)) () (jamt (jYr k).val))) := by
  refine (creds_all c).trans ?_
  rw [bigSep_fin38]
  simp only [fun k => (owed_x k).1, fun k => (owed_x k).2, fun k => (owed_y k).1, fun k => (owed_y k).2]
  iintro ⟨H0, H1, HX, HY⟩
  isplitl [H0 H1]
  · rw [← tallyAt_add (barCell c) () 1 1]
    iapply (cred_add _ _).2
    isplitl [H0]; · iexact H0
    iexact H1
  isplitl [HX]; · iexact HX
  iexact HY

/-! ## The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, #Hlev, Hcr, -, HG⟩
  ihave Hc := (creds (F := F) c) $$ Hcr
  icases Hc with ⟨HcB, HcX, HcY⟩
  unfold G' ghost linear payToks
  icases HG with ⟨%K, #Hrec, Hat, ⟨Htx, Hty⟩, HtXs, HtXr, HtYs, HtYr, HtL⟩
  ihave Hat' := (Entails.of_eq (bigSep_fin74 (fun k : Fin 74 => (atPos ER (kcell (c, k)) 0 ∅ 0 : sProp 𝕄)))) $$ Hat
  icases Hat' with ⟨HaB, HaD⟩
  ihave HaD' := (Entails.of_eq ((bigSep_congr fun j _ => by rw [kcell_kd]).trans (bigSep_fin73 (fun j : Fin 73 => (atPos ER (dcell c j) 0 ∅ 0 : sProp 𝕄))))) $$ HaD
  icases HaD' with ⟨HaXs, HaXr, HaYs, HaYr, HaL⟩
  imodintro
  isplitl
  · unfold start startAt
    iexists K
    isplitr; · iexact Hrec
    isplitr; · iexact Hlev
    isplitl [HaB]; · iexact HaB
    isplitl [HcB]; · iexact HcB
    isplitl [Htx]; · iexact Htx
    isplitl [Hty]; · iexact Hty
    isplitl [HaXs]; · iexact HaXs
    isplitl [HaXr HcX]
    · simp only [cellRes_one]; rw [bigSep_sep']
      isplitl [HaXr]; · iexact HaXr
      iexact HcX
    isplitl [HaYs]; · iexact HaYs
    isplitl [HaYr HcY]
    · simp only [cellRes_one]; rw [bigSep_sep']
      isplitl [HaYr]; · iexact HaYr
      iexact HcY
    isplitl [HaL]; · rw [cellRes_zero]; iexact HaL
    isplitl [HtXs HtXr]
    · unfold tokX; rw [bigSep_sep']
      isplitl [HtXs]; · iexact HtXs
      iexact HtXr
    isplitl [HtYs HtYr]
    · unfold tokY; rw [bigSep_sep']
      isplitl [HtYs]; · iexact HtYs
      iexact HtYr
    unfold tokL; iexact HtL
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro H
  isplitr; · iempintro
  isplitl [H]; · iexact H
  iempintro

theorem stage_lv : ∀ (w : Fin cfg0.W) (s : Fin (cfg0.win w).nbuf) (i : Fin 38), lvS (.dma ((cfg0.win w).sem s)) < lvS (owedSem i.val) := by
  decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · show (levAts L lv : sProp 𝕄) ⊢ MayWait (c : Thread nD τ) (.dma ((cfg0.win w).sem s)) () (O₀ c)
      rw [← Orem_zero c]
      exact mayWait_rem c _ 0 fun i _ => stage_lv w s i
    · show (levAts L lv : sProp 𝕄) ⊢ MayWait (c : Thread nD τ) (.dma ((cfg0.win w).sem s)) () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.AG

end
-- ==== Proof.KernelIdeal.Steps.lean ====
/-
  One lemma per kind of step of the body, each from the state assertion to the state assertion with a few of its state
  functions updated at one index: an x-chunk's transfer to the row-mate; the local copy; the wait for an x-chunk's
  landing; its forwarding to the column-mate; the wait for a forwarded chunk's landing; the waits for the transfers'
  departures; the wait for the local copy.  Each wait also closes the cell: its counter is back at zero.

  The value step of a landing: the range written holds the source's elements, which are the result's elements there
  (the geometry's index equations), so every range is handed on at the result's own contents function.
-/
import proofs.«900081_g7700000000000082_dist_ag_v7x_xy2x2_x_m2048_n512_f32_1_alg».proof.Proof.KernelIdeal.State
import Idealize.ShloMosaic.Lib.Pipeline.Value

set_option maxRecDepth 16384

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Small facts -/

omit [FloatOps F] in
theorem held_true (P : sProp 𝕄) : held true P = P := rfl
omit [FloatOps F] in
theorem held_false (P : sProp 𝕄) : held false P = iprop(emp) := rfl

/-- The amounts of the cells by kind. -/
theorem jamt_xs (k : Fin 19) : jamt (jXs k).val = NO (szO k.val) := by revert k; decide
theorem jamt_xr (k : Fin 19) : jamt (jXr k).val = NO (szO k.val) := by revert k; decide
theorem jamt_ys (k : Fin 17) : jamt (jYs k).val = NO (szO k.val) := by revert k; decide
theorem jamt_yr (k : Fin 17) : jamt (jYr k).val = NO (szO k.val) := by revert k; decide
theorem jamt_l : jamt (jL).val = NO 2048 := by decide

/-- The dues by kind. -/
theorem Oi_x (c : Dev nD) (k : Fin 19) : Oi c ⟨k.val + 2, by omega⟩ = tallyAt (dcell (xpeer c) (jXr k)) () (NO (szO k.val)) := by
  unfold Oi owedCell owedDev owedSem owedAmt
  have h1 : ¬ (k.val + 2 = 0) := by omega
  have h2 : ¬ (k.val + 2 = 1) := by omega
  have h3 : k.val + 2 < 21 := by omega
  have h4 : ¬ (k.val + 2 < 2) := by omega
  simp only [h1, h2, h3, h4, if_false, if_true, dif_pos, Nat.add_sub_cancel]
theorem Oi_y (c : Dev nD) (k : Fin 17) : Oi c ⟨k.val + 21, by omega⟩ = tallyAt (dcell (ypeer c) (jYr k)) () (NO (szO k.val)) := by
  unfold Oi owedCell owedDev owedSem owedAmt
  have h1 : ¬ (k.val + 21 = 0) := by omega
  have h2 : ¬ (k.val + 21 = 1) := by omega
  have h3 : ¬ (k.val + 21 < 21) := by omega
  have h4 : ¬ (k.val + 21 < 2) := by omega
  have h5 : k.val + 21 < 38 := by omega
  simp only [h1, h2, h3, h4, h5, if_false, if_true, dif_pos, dif_neg, not_false_eq_true, Nat.add_sub_cancel]
  have e : szO (k.val + 21 - 2) = szO k.val := by rw [show k.val + 21 - 2 = k.val + 19 from by omega, szO_y]
  rw [e]
  try rfl

/-- The views of the slices of the two staging buffers. -/
abbrev slX (off sz : Fin 2 → ℕ) (inb : ∀ a, off a + sz a ≤ S2048x512.size a) (hr) :=
  (Memref.whole XB : Memref sig .tc .vmem S2048x512 .f32).slice (Rect.unit (s := S2048x512) off sz inb) hr
abbrev slO (off sz : Fin 2 → ℕ) (inb : ∀ a, off a + sz a ≤ S4096x512.size a) (hr) :=
  (Memref.whole OB : Memref sig .tc .vmem S4096x512 .f32).slice (Rect.unit (s := S4096x512) off sz inb) hr

theorem slX_set (off sz inb hr) : (slX off sz inb hr).view.set = (Rect.unit (s := S2048x512) off sz inb).set := View.set_slice_whole XB _
theorem slO_set (off sz inb hr) : (slO off sz inb hr).view.set = (Rect.unit (s := S4096x512) off sz inb).set := View.set_slice_whole OB _

/-! ## Ranges through the slices' views -/

omit [FloatOps F] in
theorem Xpt_slice (c : Dev nD) {off sz : Fin 2 → ℕ} {inb hr} {I : Finset SX.Idx} (h : (Rect.unit (s := S2048x512) off sz inb).set = I) (q : PosShare TreeShare) :
    Xpt m ρ c I q = ((slX off sz inb hr).view.loc (c : Thread nD τ) ↦[(slX off sz inb hr).view.set]{q} xb m ρ c : sProp 𝕄) := by
  subst h; unfold Xpt; rw [slX_set]
omit [FloatOps F] in
theorem Opt_slice (c : Dev nD) {off sz : Fin 2 → ℕ} {inb hr} {I : Finset SO.Idx} (h : (Rect.unit (s := S4096x512) off sz inb).set = I) :
    Opt m ρ c I = ((slO off sz inb hr).view.loc (c : Thread nD τ) ↦[(slO off sz inb hr).view.set]{fullShare} oc m ρ c : sProp 𝕄) := by
  subst h; unfold Opt; rw [slO_set]
omit [FloatOps F] in
theorem Oany_slice (c : Dev nD) {off sz : Fin 2 → ℕ} {inb hr} {I : Finset SO.Idx} (h : (Rect.unit (s := S4096x512) off sz inb).set = I) :
    Oany (F := F) c I = (iprop(∃ f, (slO off sz inb hr).view.loc (c : Thread nD τ) ↦[(slO off sz inb hr).view.set]{fullShare} f) : sProp 𝕄) := by
  subst h; unfold Oany; rw [slO_set]

omit [FloatOps F] in
theorem Xpt_whole (c : Dev nD) (q : PosShare TreeShare) :
    Xpt m ρ c Finset.univ q = ((Memref.whole XB : Memref sig .tc .vmem S2048x512 .f32).view.loc (c : Thread nD τ)
      ↦[(Memref.whole XB : Memref sig .tc .vmem S2048x512 .f32).view.set]{q} xb m ρ c : sProp 𝕄) := by
  show (((c : Thread nD τ).loc XB) ↦[Finset.univ]{q} xb m ρ c : sProp 𝕄) = (((c : Thread nD τ).loc XB) ↦[(View.whole XB).set]{q} xb m ρ c : sProp 𝕄)
  rw [View.set_whole]

/-! ## What a landing leaves -/

omit [FloatOps F] in
/-- An x-chunk landed on the row-mate: its range holds the result's contents there. -/
theorem landed_x (c : Dev nD) (k : Fin 19) {inb₁ inb₂ hr₁ hr₂}
    (fd : Buf (Elt F) ((slO ![loO (xpeer c) k.val, 0] ![szO k.val, 512] inb₂ hr₂).view.loc (xpeer c : Thread nD τ))) :
    ((slO ![loO (xpeer c) k.val, 0] ![szO k.val, 512] inb₂ hr₂).view.loc (xpeer c : Thread nD τ)
        ↦[(slO ![loO (xpeer c) k.val, 0] ![szO k.val, 512] inb₂ hr₂).view.set]{fullShare}
          ((slO ![loO (xpeer c) k.val, 0] ![szO k.val, 512] inb₂ hr₂).view.write (Elt F) fd
            ((slX ![coff (dy c) k.val, 0] ![szO k.val, 512] inb₁ hr₁).view.read (Elt F) (xb m ρ c)) Finset.univ) : sProp 𝕄)
      = Opt m ρ (xpeer c) (rectO (xpeer c) (tX k)).set := by
  rw [Opt_slice m ρ (xpeer c) (hr := hr₂) (show (Rect.unit (s := S4096x512) ![loO (xpeer c) k.val, 0] ![szO k.val, 512] inb₂).set = (rectO (xpeer c) (tX k)).set from rfl)]
  refine pointsTo_congr fun i hi => ?_
  obtain ⟨y, rfl⟩ := View.exists_emb_of_mem_set _ hi
  rw [View.write_emb_of_mem _ _ (Finset.mem_univ y), View.read_apply]
  obtain ⟨h1, h2⟩ := land_x c k y
  show _ = xb m ρ (srcDev (xpeer c) _) (rowmod _)
  erw [h1, h2]
  simp only [cast_cast, cast_eq]
  rfl

omit [FloatOps F] in
/-- A forwarded chunk landed on the column-mate: its range holds the result's contents there. -/
theorem landed_y (c : Dev nD) (k : Fin 17) {inb hr}
    (fd : Buf (Elt F) ((slO ![loO c k.val, 0] ![szO k.val, 512] inb hr).view.loc (ypeer c : Thread nD τ))) :
    ((slO ![loO c k.val, 0] ![szO k.val, 512] inb hr).view.loc (ypeer c : Thread nD τ)
        ↦[(slO ![loO c k.val, 0] ![szO k.val, 512] inb hr).view.set]{fullShare}
          ((slO ![loO c k.val, 0] ![szO k.val, 512] inb hr).view.write (Elt F) fd
            ((slO ![loO c k.val, 0] ![szO k.val, 512] inb hr).view.read (Elt F) (oc m ρ c)) Finset.univ) : sProp 𝕄)
      = Opt m ρ (ypeer c) (rectO (ypeer c) (tY k)).set := by
  rw [rect_y c k, Opt_slice m ρ (ypeer c) (hr := hr) (show (Rect.unit (s := S4096x512) ![loO c k.val, 0] ![szO k.val, 512] inb).set = (rectO c (tX ⟨k.val, by omega⟩)).set from rfl)]
  refine pointsTo_congr fun i hi => ?_
  have hi' : i ∈ (rectO c (tX ⟨k.val, by omega⟩)).set := by rw [slO_set] at hi; exact hi
  obtain ⟨y, rfl⟩ := View.exists_emb_of_mem_set _ hi
  rw [View.write_emb_of_mem _ _ (Finset.mem_univ y), View.read_apply]
  simp only [cast_cast, cast_eq]
  show oc m ρ c _ = oc m ρ (ypeer c) _
  unfold oc
  rw [srcDev_y c k hi']

omit [FloatOps F] in
/-- The local copy landed: the device's own rows of its result hold the result's contents there. -/
theorem landed_l (c : Dev nD) {inb hr}
    (fd : Buf (Elt F) ((slO ![loO c 36, 0] ![2048, 512] inb hr).view.loc (c : Thread nD τ))) :
    ((slO ![loO c 36, 0] ![2048, 512] inb hr).view.loc (c : Thread nD τ)
        ↦[(slO ![loO c 36, 0] ![2048, 512] inb hr).view.set]{fullShare}
          ((slO ![loO c 36, 0] ![2048, 512] inb hr).view.write (Elt F) fd
            ((Memref.whole XB : Memref sig .tc .vmem S2048x512 .f32).view.read (Elt F) (xb m ρ c)) Finset.univ) : sProp 𝕄)
      = Opt m ρ c (rectO c tL).set := by
  rw [Opt_slice m ρ c (hr := hr) (show (Rect.unit (s := S4096x512) ![loO c 36, 0] ![2048, 512] inb).set = (rectO c tL).set from rfl)]
  refine pointsTo_congr fun i hi => ?_
  obtain ⟨y, rfl⟩ := View.exists_emb_of_mem_set _ hi
  refine (View.write_emb_of_mem _ _ (Finset.mem_univ y)).trans ?_
  rw [View.read_apply]
  obtain ⟨h1, h2⟩ := land_l c y
  show _ = xb m ρ (srcDev c _) (rowmod _)
  erw [h1, h2]
  simp only [cast_cast, cast_eq]
  rfl

/-! ## A wait on a DMA cell of one's own, and the cell closed -/

omit [FloatOps F] in
theorem lvS_facts : (∀ i : Fin 38, 21 ≤ i.val → lvS (owedSem i.val) = 3) ∧ (∀ i : Fin 38, 2 ≤ i.val → 2 ≤ lvS (owedSem i.val))
    ∧ (∀ k : Fin 19, lvS (.dma (dsem (jXr k))) = 2) ∧ lvS (.reg barS) = 1 := by
  refine ⟨by decide +kernel, by decide +kernel, by decide +kernel, rfl⟩

section Wait
variable (K : Dev nD × Fin 74 → ℕ) (c : Dev nD)

/-- The wait for the one duty of cell j (its credit in hand), then the cell closed: the duty's payload and the counter
    at zero. -/
theorem wait_cell {α : Type} {Q : α → sProp 𝕄} {kont : PUnit → Prog (TpuEff nD τ sig (Elt F) Λ₀ .tc) α} (j : Fin 73) {w : TpuEff nD τ sig (Elt F) Λ₀ .tc PUnit} {k' : ℕ}
    (hw : ∀ Kc : PUnit → sProp 𝕄, wpE (defs₀ (F := F)) 𝒱₀ (c : Thread nD τ) none Set.univ w Kc = waitSpec (c : Thread nD τ) Set.univ (.dma (dsem j)) k' Kc)
    (hk' : k' = jamt j.val) (O : CellTallies nD τ sig Unit) (W : Waits sig Unit)
    (hMay : (levAts L lv : sProp 𝕄) ⊢ MayWait (c : Thread nD τ) (.dma (dsem j)) () O) :
    iprop(records m ρ K ∗ levAts L lv ∗ cellRes c j 1 ∗ owes (c : Thread nD τ) O W)
      ⊢ iprop(((cellRes c j 2 ∗ dpay m ρ c j ∗ ∃ W', owes (c : Thread nD τ) O W') -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hk'
  iintro ⟨#Hrec, #Hlev, Hcell, HO⟩ Hk
  ihave Hcell' := (Entails.of_eq (cellRes_one c j)) $$ Hcell
  icases Hcell' with ⟨Hat, Hcr⟩
  iapply (Rounds.wp_wait_rest_token 𝒱₀ ER (agRd m ρ) (c : Thread nD τ) none (κ := K (c, kd j)) hw (Set.mem_univ _) () (O := O) (W := W) (R := 0) (m := 0) (T := ∅)
      (by rw [Nat.zero_add, expect_d])) $$ [Hcr HO Hat]
  · isplitr; · iapply (inv_d m ρ K c j); iexact Hrec
    isplitl [Hcr]; · iexact Hcr
    isplitl [HO]; · iexact HO
    isplitr; · iapply hMay; iexact Hlev
    iexact Hat
  iintro ⟨HO, Hat, -, Hpay⟩
  ihave Hp := (Entails.of_eq (rest_d m ρ c j)) $$ Hpay
  imod (Rounds.cell_close ER (agRd m ρ) (Set.mem_univ (K (c, kd j))) (not_unitless m ρ _) (R := 0 + 1) (duties_later m ρ (dcell c j))) $$ [Hat] with Hz
  · isplitr; · iapply (inv_d m ρ K c j); iexact Hrec
    iexact Hat
  iapply Hk
  isplitl [Hz]; · (iapply (Entails.of_eq (cellRes_two c j).symm); iexact Hz)
  isplitl [Hp]; · iexact Hp
  iexists _; iexact HO

end Wait

/-! ## The steps -/

section Steps

variable (K : Dev nD × Fin 74 → ℕ) (c : Dev nD)
variable {cXs cXr : Fin 19 → ℕ} {cYs cYr : Fin 17 → ℕ} {cL : ℕ} {kX : Fin 19 → Bool} {kY : Fin 17 → Bool} {kL : Bool}
  {sX : Fin 19 → Bool} {sL : Bool} {oX : Fin 19 → ℕ} {oY : Fin 17 → ℕ} {oL : ℕ} {pX : Fin 19 → Bool} {pY : Fin 17 → Bool} {n : ℕ}

/-- x-chunk k's transfer to the row-mate. -/
theorem step_xsend {α : Type} {Q : α → sProp 𝕄} {kont : PUnit → Prog (TpuEff nD τ sig (Elt F) Λ₀ .tc) α} (k : Fin 19) (n' : Dev nD) (hn' : n' = xpeer c) (hn : n = k.val + 2)
    (hc : cXs k = 0) (hk : kX k = true) (hs : sX k = true) (hp : pX k = true)
    {off₁ off₂ sz : Fin 2 → ℕ} {inb₁ inb₂ hr₁ hr₂}
    (h₁ : off₁ = ![coff (dy c) k.val, 0]) (h₂ : off₂ = ![loO (xpeer c) k.val, 0]) (hz : sz = ![szO k.val, 512])
    {hsc : (slO off₂ sz inb₂ hr₂ : Memref sig (Dev.tc n' : Thread nD τ).2.kind .vmem _ .f32).view.ref.isScScratch = false}
    {hsrc : (slX off₁ sz inb₁ hr₁).view.WordExact} {hdst : (slO off₂ sz inb₂ hr₂).view.WordExact}
    {hsem : DmaTarget.Typed .vmem (.dma (dsem (jXr k))) (.remote (Dev.tc n' : Thread nD τ) (slO off₂ sz inb₂ hr₂) (.dma (dsem (jXs k))) hsc)} :
    St m ρ K c cXs cXr cYs cYr cL kX kY kL sX sL oX oY oL pX pY n
      ⊢ iprop((St m ρ K c (Function.update cXs k 1) cXr cYs cYr cL (Function.update kX k false) kY kL (Function.update sX k false) sL oX oY oL
              (Function.update pX k false) pY (n + 1) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slX off₁ sz inb₁ hr₁) (.remote (Dev.tc n' : Thread nD τ) (slO off₂ sz inb₂ hr₂) (.dma (dsem (jXs k))) hsc)
                (.dma (dsem (jXr k))) hsrc hdst hsem) kont) Q) := by
  subst hn' hn h₁ h₂ hz
  unfold St
  iintro ⟨#Hrec, #Hlev, HcXs, HcXr, HcYs, HcYr, HcL, HkX, HkY, HkL, HsX, HsL, HxR, HoX, HoY, HoL, HpX, HpY, ⟨%W, HO⟩⟩ Hk
  ihave H1 := (bigSep_upd (fun k s => cellRes c (jXs k) s) cXs k 0 1 hc) $$ HcXs
  icases H1 with ⟨Hat0, HcXs⟩
  ihave Hat := (Entails.of_eq (cellRes_zero c (jXs k))) $$ Hat0
  ihave H2 := (bigSep_upd (fun k b => held b (tokX c k)) kX k true false hk) $$ HkX
  icases H2 with ⟨Htok, HkX⟩
  ihave H3 := (bigSep_upd (fun k b => held b (Xpt m ρ c (rectXs c k).set fullShare.right)) sX k true false hs) $$ HsX
  icases H3 with ⟨Hsrc, HsX⟩
  ihave H4 := (bigSep_upd (fun k b => held b (Oany (F := F) (xpeer c) (rectO (xpeer c) (tX k)).set)) pX k true false hp) $$ HpX
  icases H4 with ⟨Hdst, HpX⟩
  ihave Htok' := (Entails.of_eq (held_true (tokX c k))) $$ Htok
  unfold tokX
  icases Htok' with ⟨Ht1, Ht2⟩
  ihave Hsrc' := (Entails.of_eq ((held_true _).trans (Xpt_slice m ρ c (hr := hr₁) (show (Rect.unit (s := S2048x512) ![coff (dy c) k.val, 0] ![szO k.val, 512] inb₁).set = (rectXs c k).set from rfl) fullShare.right))) $$ Hsrc
  ihave Hdst' := (Entails.of_eq ((held_true _).trans (Oany_slice (xpeer c) (hr := hr₂) (show (Rect.unit (s := S4096x512) ![loO (xpeer c) k.val, 0] ![szO k.val, 512] inb₂).set = (rectO (xpeer c) (tX k)).set from rfl)))) $$ Hdst
  icases Hdst' with ⟨%fd, Hdst'⟩
  iapply (Rounds.wp_send_pointsTo 𝒱₀ ER (agRd m ρ) (c : Thread nD τ) none (κ₁ := K (c, kd (jXs k))) (κ₂ := K (xpeer c, kd (jXr k)))
      (r₁ := 0) (r₂ := 0) (d₁ := false) (d₂ := false) (fs := xb m ρ c) (fd := fd) (q := fullShare.right)
      (by simp [duties_d]) (by simp [duties_d])
      () () (NO (szO k.val)) rfl ((amount_d m ρ c (jXs k) false).trans (jamt_xs k)) ((amount_d m ρ (xpeer c) (jXr k) false).trans (jamt_xr k))
      (O₀ := Orem c (k.val + 2)) (Orem c (k.val + 2 + 1)) ((Orem_succ c (k.val + 2) (by omega)).trans (congrArg (Orem c (k.val + 2 + 1) + ·) (Oi_x c k))) (W := W)
      (by rw [payload_d, dpay_xs, Xpt_slice m ρ c (hr := hr₁) (show (Rect.unit (s := S2048x512) ![coff (dy c) k.val, 0] ![szO k.val, 512] inb₁).set = (rectXs c k).set from rfl) fullShare.right] <;> exact BI.Entails.refl _)
      (by rw [payload_d, dpay_xr, landed_x m ρ c k fd] <;> exact BI.Entails.refl _)) $$ [Hsrc' Hdst' HO Ht1 Ht2]
  · isplitr; · iapply (inv_d m ρ K c (jXs k)); iexact Hrec
    isplitr; · iapply (inv_d m ρ K (xpeer c) (jXr k)); iexact Hrec
    isplitl [Hsrc']; · iexact Hsrc'
    isplitl [Hdst']; · iexact Hdst'
    isplitl [HO]; · iexact HO
    isplitl [Ht1]; · iexact Ht1
    isplitr; · iapply (reached_d m ρ K c (jXs k)); iexact Hrec
    isplitl [Ht2]; · iexact Ht2
    iapply (reached_d m ρ K (xpeer c) (jXr k)); iexact Hrec
  iintro ⟨Hcred, HO⟩
  ihave HcXs := HcXs $$ [Hat Hcred]
  · iapply (Entails.of_eq ((cellRes_one c (jXs k)).trans (by rw [jamt_xs])).symm)
    isplitl [Hat]; · iexact Hat
    iexact Hcred
  ihave HkX := HkX $$ []
  · iapply (Entails.of_eq (held_false _).symm); iempintro
  ihave HsX := HsX $$ []
  · iapply (Entails.of_eq (held_false _).symm); iempintro
  ihave HpX := HpX $$ []
  · iapply (Entails.of_eq (held_false _).symm); iempintro
  iapply Hk
  isplitr; · iexact Hrec
  isplitr; · iexact Hlev
  iframe
  iexists _; iexact HO

/-- The local copy of the block into the device's own rows of its result. -/
theorem step_lcopy {α : Type} {Q : α → sProp 𝕄} {kont : PUnit → Prog (TpuEff nD τ sig (Elt F) Λ₀ .tc) α} (hc : cL = 0) (hk : kL = true) (hs : sL = true) (ho : oL = 0)
    {off : Fin 2 → ℕ} {inb hr} (h₁ : off = ![loO c 36, 0])
    {hsrc : (Memref.whole XB : Memref sig .tc .vmem S2048x512 .f32).view.WordExact} {hdst : (slO off ![2048, 512] inb hr).view.WordExact}
    {hsem : DmaTarget.Typed (nD := nD) (τ := τ) XB.space (.dma (dsem jL)) (DmaTarget.here (p := Proc.tc) (slO off ![2048, 512] inb hr))} :
    St m ρ K c cXs cXr cYs cYr cL kX kY kL sX sL oX oY oL pX pY n
      ⊢ iprop((St m ρ K c cXs cXr cYs cYr 1 kX kY false sX false oX oY 1 pX pY n -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (Memref.whole XB : Memref sig .tc .vmem S2048x512 .f32) (DmaTarget.here (p := Proc.tc) (slO off ![2048, 512] inb hr)) (.dma (dsem jL)) hsrc hdst hsem) kont) Q) := by
  subst hc hk hs ho h₁
  unfold St
  iintro ⟨#Hrec, #Hlev, HcXs, HcXr, HcYs, HcYr, HcL, HkX, HkY, HkL, HsX, HsL, HxR, HoX, HoY, HoL, HpX, HpY, ⟨%W, HO⟩⟩ Hk
  ihave Htok := (Entails.of_eq ((held_true (tokL c)).trans (show tokL c = dutyTok ER (dcell c jL) 0 false from rfl))) $$ HkL
  ihave Hsrc := (Entails.of_eq (held_true (Xpt m ρ c Finset.univ fullShare.left))) $$ HsL
  ihave Hsrc' := (Entails.of_eq (Xpt_whole m ρ c fullShare.left)) $$ Hsrc
  ihave Hdst := (Entails.of_eq (show oRes m ρ c tL 0 = _ from Oany_slice c (hr := hr) (show (Rect.unit (s := S4096x512) ![loO c 36, 0] ![2048, 512] inb).set = (rectO c tL).set from rfl))) $$ HoL
  icases Hdst with ⟨%fd, Hdst⟩
  iapply (Rounds.wp_copy_pointsTo 𝒱₀ ER (agRd m ρ) (c : Thread nD τ) none (κ := K (c, kd jL)) (r := 0) (d := false) (fs := xb m ρ c) (fd := fd) (q := fullShare.left)
      (by simp [duties_d]) () (NO 2048) rfl ((amount_d m ρ c jL false).trans jamt_l)
      (by rw [payload_d, dpay_l, landed_l m ρ c fd, ← Xpt_whole m ρ c fullShare.left] <;> exact BI.Entails.refl _)) $$ [Hsrc' Hdst Htok]
  · isplitr; · iapply (inv_d m ρ K c jL); iexact Hrec
    isplitl [Hsrc']; · iexact Hsrc'
    isplitl [Hdst]; · iexact Hdst
    isplitl [Htok]; · iexact Htok
    iapply (reached_d m ρ K c jL); iexact Hrec
  iintro Hcred
  ihave Hat := (Entails.of_eq (cellRes_zero c jL)) $$ HcL
  ihave HcL : cellRes c jL 1 $$ [Hat Hcred]
  · iapply (Entails.of_eq ((cellRes_one c jL).trans (by rw [jamt_l])).symm)
    isplitl [Hat]; · iexact Hat
    iexact Hcred
  ihave HkL : held false (tokL c) $$ []
  · iapply (Entails.of_eq (held_false _).symm); iempintro
  ihave HsL : held false (Xpt m ρ c Finset.univ fullShare.left) $$ []
  · iapply (Entails.of_eq (held_false _).symm); iempintro
  ihave HoL : oRes m ρ c tL 1 $$ []
  · iapply (Entails.of_eq (oRes_one m ρ c _).symm); iempintro
  iapply Hk
  isplitr; · iexact Hrec
  isplitr; · iexact Hlev
  iframe
  iexists _; iexact HO

/-- The wait for x-chunk k's landing: its range of the result at the result's contents. -/
theorem step_xwait {α : Type} {Q : α → sProp 𝕄} {kont : PUnit → Prog (TpuEff nD τ sig (Elt F) Λ₀ .tc) α} (k : Fin 19) (hn : 21 ≤ n) (hc : cXr k = 1)
    {w : TpuEff nD τ sig (Elt F) Λ₀ .tc PUnit} {k' : ℕ}
    (hw : ∀ Kc : PUnit → sProp 𝕄, wpE (defs₀ (F := F)) 𝒱₀ (c : Thread nD τ) none Set.univ w Kc = waitSpec (c : Thread nD τ) Set.univ (.dma (dsem (jXr k))) k' Kc)
    (hk' : k' = NO (szO k.val)) :
    St m ρ K c cXs cXr cYs cYr cL kX kY kL sX sL oX oY oL pX pY n
      ⊢ iprop((St m ρ K c cXs (Function.update cXr k 2) cYs cYr cL kX kY kL sX sL (Function.update oX k 2) oY oL pX pY n -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  unfold St
  iintro ⟨#Hrec, #Hlev, HcXs, HcXr, HcYs, HcYr, HcL, HkX, HkY, HkL, HsX, HsL, HxR, HoX, HoY, HoL, HpX, HpY, ⟨%W, HO⟩⟩ Hk
  ihave H1 := (bigSep_upd (fun k s => cellRes c (jXr k) s) cXr k 1 2 hc) $$ HcXr
  icases H1 with ⟨Hcell, HcXr⟩
  iapply (wait_cell m ρ K c (jXr k) hw (hk'.trans (jamt_xr k).symm) (Orem c n) W
      (mayWait_rem c _ n fun i hi => by rw [lvS_facts.2.2.1 k, lvS_facts.1 i (by omega)]; decide)) $$ [Hcell HO]
  · isplitr; · iexact Hrec
    isplitr; · iexact Hlev
    isplitl [Hcell]; · iexact Hcell
    iexact HO
  iintro ⟨Hz, Hp, HO⟩
  icases HO with ⟨%W', HO⟩
  ihave HcXr := HcXr $$ Hz
  ihave Hp' := (Entails.of_eq (dpay_xr m ρ c k)) $$ Hp
  ihave H2 := (bigSep_univ_update (Φ := fun k => oRes m ρ c (tX k) (oX k)) (Ψ := fun j => oRes m ρ c (tX j) (Function.update oX k 2 j)) k
      (fun j hj => by show oRes m ρ c (tX j) (Function.update oX k 2 j) = oRes m ρ c (tX j) (oX j); rw [Function.update_of_ne hj])) $$ HoX
  icases H2 with ⟨-, HoX⟩
  ihave HoX := HoX $$ [Hp']
  · iapply (Entails.of_eq (by rw [Function.update_self, oRes_two])); iexact Hp'
  iapply Hk
  isplitr; · iexact Hrec
  isplitr; · iexact Hlev
  iframe
  iexists _; iexact HO

/-- x-chunk k, landed, forwarded to the column-mate. -/
theorem step_ysend {α : Type} {Q : α → sProp 𝕄} {kont : PUnit → Prog (TpuEff nD τ sig (Elt F) Λ₀ .tc) α} (k : Fin 17) (n' : Dev nD) (hn' : n' = ypeer c) (hn : n = k.val + 21)
    (hc : cYs k = 0) (hk : kY k = true) (ho : oX ⟨k.val, by omega⟩ = 2) (hp : pY k = true)
    {off sz : Fin 2 → ℕ} {inb₁ inb₂ hr₁ hr₂}
    (h₁ : off = ![loO c k.val, 0]) (hz : sz = ![szO k.val, 512])
    {hsc : (slO off sz inb₂ hr₂ : Memref sig (Dev.tc n' : Thread nD τ).2.kind .vmem _ .f32).view.ref.isScScratch = false}
    {hsrc : (slO off sz inb₁ hr₁).view.WordExact} {hdst : (slO off sz inb₂ hr₂).view.WordExact}
    {hsem : DmaTarget.Typed .vmem (.dma (dsem (jYr k))) (.remote (Dev.tc n' : Thread nD τ) (slO off sz inb₂ hr₂) (.dma (dsem (jYs k))) hsc)} :
    St m ρ K c cXs cXr cYs cYr cL kX kY kL sX sL oX oY oL pX pY n
      ⊢ iprop((St m ρ K c cXs cXr (Function.update cYs k 1) cYr cL kX (Function.update kY k false) kL sX sL (Function.update oX ⟨k.val, by omega⟩ 1) oY oL
              pX (Function.update pY k false) (n + 1) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slO off sz inb₁ hr₁) (.remote (Dev.tc n' : Thread nD τ) (slO off sz inb₂ hr₂) (.dma (dsem (jYs k))) hsc)
                (.dma (dsem (jYr k))) hsrc hdst hsem) kont) Q) := by
  subst hn' hn h₁ hz
  have hk19 : k.val < 19 := by omega
  unfold St
  iintro ⟨#Hrec, #Hlev, HcXs, HcXr, HcYs, HcYr, HcL, HkX, HkY, HkL, HsX, HsL, HxR, HoX, HoY, HoL, HpX, HpY, ⟨%W, HO⟩⟩ Hk
  ihave H1 := (bigSep_upd (fun k s => cellRes c (jYs k) s) cYs k 0 1 hc) $$ HcYs
  icases H1 with ⟨Hat0, HcYs⟩
  ihave Hat := (Entails.of_eq (cellRes_zero c (jYs k))) $$ Hat0
  ihave H2 := (bigSep_upd (fun k b => held b (tokY c k)) kY k true false hk) $$ HkY
  icases H2 with ⟨Htok, HkY⟩
  ihave H3 := (bigSep_upd (fun k s => oRes m ρ c (tX k) s) oX ⟨k.val, by omega⟩ 2 1 ho) $$ HoX
  icases H3 with ⟨Hsrc, HoX⟩
  ihave H4 := (bigSep_upd (fun k b => held b (Oany (F := F) (ypeer c) (rectO (ypeer c) (tY k)).set)) pY k true false hp) $$ HpY
  icases H4 with ⟨Hdst, HpY⟩
  ihave Htok' := (Entails.of_eq (held_true (tokY c k))) $$ Htok
  unfold tokY
  icases Htok' with ⟨Ht1, Ht2⟩
  ihave Hsrc' := (Entails.of_eq ((oRes_two m ρ c _).trans
      (Opt_slice m ρ c (hr := hr₁) (show (Rect.unit (s := S4096x512) ![loO c k.val, 0] ![szO k.val, 512] inb₁).set = (rectO c (tX ⟨k.val, hk19⟩)).set from rfl)))) $$ Hsrc
  ihave Hdst' := (Entails.of_eq ((held_true _).trans (Oany_slice (ypeer c) (hr := hr₂)
      (show (Rect.unit (s := S4096x512) ![loO c k.val, 0] ![szO k.val, 512] inb₂).set = (rectO (ypeer c) (tY k)).set from (rect_y c k).symm)))) $$ Hdst
  icases Hdst' with ⟨%fd, Hdst'⟩
  iapply (Rounds.wp_send_pointsTo 𝒱₀ ER (agRd m ρ) (c : Thread nD τ) none (κ₁ := K (c, kd (jYs k))) (κ₂ := K (ypeer c, kd (jYr k)))
      (r₁ := 0) (r₂ := 0) (d₁ := false) (d₂ := false) (fs := oc m ρ c) (fd := fd) (q := fullShare)
      (by simp [duties_d]) (by simp [duties_d])
      () () (NO (szO k.val)) rfl ((amount_d m ρ c (jYs k) false).trans (jamt_ys k)) ((amount_d m ρ (ypeer c) (jYr k) false).trans (jamt_yr k))
      (O₀ := Orem c (k.val + 21)) (Orem c (k.val + 21 + 1)) ((Orem_succ c (k.val + 21) (by omega)).trans (congrArg (Orem c (k.val + 21 + 1) + ·) (Oi_y c k))) (W := W)
      (by rw [payload_d, dpay_ys, Opt_slice m ρ c (hr := hr₁) (show (Rect.unit (s := S4096x512) ![loO c k.val, 0] ![szO k.val, 512] inb₁).set = (rectO c (tX ⟨k.val, by omega⟩)).set from rfl)] <;> exact BI.Entails.refl _)
      (by rw [payload_d, dpay_yr, landed_y m ρ c k fd] <;> exact BI.Entails.refl _)) $$ [Hsrc' Hdst' HO Ht1 Ht2]
  · isplitr; · iapply (inv_d m ρ K c (jYs k)); iexact Hrec
    isplitr; · iapply (inv_d m ρ K (ypeer c) (jYr k)); iexact Hrec
    isplitl [Hsrc']; · iexact Hsrc'
    isplitl [Hdst']; · iexact Hdst'
    isplitl [HO]; · iexact HO
    isplitl [Ht1]; · iexact Ht1
    isplitr; · iapply (reached_d m ρ K c (jYs k)); iexact Hrec
    isplitl [Ht2]; · iexact Ht2
    iapply (reached_d m ρ K (ypeer c) (jYr k)); iexact Hrec
  iintro ⟨Hcred, HO⟩
  ihave HcYs := HcYs $$ [Hat Hcred]
  · iapply (Entails.of_eq ((cellRes_one c (jYs k)).trans (by rw [jamt_ys])).symm)
    isplitl [Hat]; · iexact Hat
    iexact Hcred
  ihave HkY := HkY $$ []
  · iapply (Entails.of_eq (held_false _).symm); iempintro
  ihave HoX := HoX $$ []
  · iapply (Entails.of_eq (oRes_one m ρ c _).symm); iempintro
  ihave HpY := HpY $$ []
  · iapply (Entails.of_eq (held_false _).symm); iempintro
  iapply Hk
  isplitr; · iexact Hrec
  isplitr; · iexact Hlev
  iframe
  iexists _; iexact HO

/-- The wait for forwarded chunk k's landing. -/
theorem step_ywait {α : Type} {Q : α → sProp 𝕄} {kont : PUnit → Prog (TpuEff nD τ sig (Elt F) Λ₀ .tc) α} (k : Fin 17) (hn : n = 38) (hc : cYr k = 1)
    {w : TpuEff nD τ sig (Elt F) Λ₀ .tc PUnit} {k' : ℕ}
    (hw : ∀ Kc : PUnit → sProp 𝕄, wpE (defs₀ (F := F)) 𝒱₀ (c : Thread nD τ) none Set.univ w Kc = waitSpec (c : Thread nD τ) Set.univ (.dma (dsem (jYr k))) k' Kc)
    (hk' : k' = NO (szO k.val)) :
    St m ρ K c cXs cXr cYs cYr cL kX kY kL sX sL oX oY oL pX pY n
      ⊢ iprop((St m ρ K c cXs cXr cYs (Function.update cYr k 2) cL kX kY kL sX sL oX (Function.update oY k 2) oL pX pY n -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hn
  unfold St
  iintro ⟨#Hrec, #Hlev, HcXs, HcXr, HcYs, HcYr, HcL, HkX, HkY, HkL, HsX, HsL, HxR, HoX, HoY, HoL, HpX, HpY, ⟨%W, HO⟩⟩ Hk
  ihave H1 := (bigSep_upd (fun k s => cellRes c (jYr k) s) cYr k 1 2 hc) $$ HcYr
  icases H1 with ⟨Hcell, HcYr⟩
  iapply (wait_cell m ρ K c (jYr k) hw (hk'.trans (jamt_yr k).symm) (Orem c 38) W
      (by rw [Orem_last, MayWait_zero]; iintro -; iempintro)) $$ [Hcell HO]
  · isplitr; · iexact Hrec
    isplitr; · iexact Hlev
    isplitl [Hcell]; · iexact Hcell
    iexact HO
  iintro ⟨Hz, Hp, HO⟩
  icases HO with ⟨%W', HO⟩
  ihave HcYr := HcYr $$ Hz
  ihave Hp' := (Entails.of_eq (dpay_yr m ρ c k)) $$ Hp
  ihave H2 := (bigSep_univ_update (Φ := fun k => oRes m ρ c (tY k) (oY k)) (Ψ := fun j => oRes m ρ c (tY j) (Function.update oY k 2 j)) k
      (fun j hj => by show oRes m ρ c (tY j) (Function.update oY k 2 j) = oRes m ρ c (tY j) (oY j); rw [Function.update_of_ne hj])) $$ HoY
  icases H2 with ⟨-, HoY⟩
  ihave HoY := HoY $$ [Hp']
  · iapply (Entails.of_eq (by rw [Function.update_self, oRes_two])); iexact Hp'
  iapply Hk
  isplitr; · iexact Hrec
  isplitr; · iexact Hlev
  iframe
  iexists _; iexact HO

/-- The wait for x-chunk k's departure: its rows of the block back. -/
theorem step_xswait {α : Type} {Q : α → sProp 𝕄} {kont : PUnit → Prog (TpuEff nD τ sig (Elt F) Λ₀ .tc) α} (k : Fin 19) (hn : n = 38) (hc : cXs k = 1) (hs : sX k = false)
    {w : TpuEff nD τ sig (Elt F) Λ₀ .tc PUnit} {k' : ℕ}
    (hw : ∀ Kc : PUnit → sProp 𝕄, wpE (defs₀ (F := F)) 𝒱₀ (c : Thread nD τ) none Set.univ w Kc = waitSpec (c : Thread nD τ) Set.univ (.dma (dsem (jXs k))) k' Kc)
    (hk' : k' = NO (szO k.val)) :
    St m ρ K c cXs cXr cYs cYr cL kX kY kL sX sL oX oY oL pX pY n
      ⊢ iprop((St m ρ K c (Function.update cXs k 2) cXr cYs cYr cL kX kY kL (Function.update sX k true) sL oX oY oL pX pY n -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hn
  unfold St
  iintro ⟨#Hrec, #Hlev, HcXs, HcXr, HcYs, HcYr, HcL, HkX, HkY, HkL, HsX, HsL, HxR, HoX, HoY, HoL, HpX, HpY, ⟨%W, HO⟩⟩ Hk
  ihave H1 := (bigSep_upd (fun k s => cellRes c (jXs k) s) cXs k 1 2 hc) $$ HcXs
  icases H1 with ⟨Hcell, HcXs⟩
  iapply (wait_cell m ρ K c (jXs k) hw (hk'.trans (jamt_xs k).symm) (Orem c 38) W
      (by rw [Orem_last, MayWait_zero]; iintro -; iempintro)) $$ [Hcell HO]
  · isplitr; · iexact Hrec
    isplitr; · iexact Hlev
    isplitl [Hcell]; · iexact Hcell
    iexact HO
  iintro ⟨Hz, Hp, HO⟩
  icases HO with ⟨%W', HO⟩
  ihave HcXs := HcXs $$ Hz
  ihave Hp' := (Entails.of_eq (dpay_xs m ρ c k)) $$ Hp
  ihave H2 := (bigSep_upd (fun k b => held b (Xpt m ρ c (rectXs c k).set fullShare.right)) sX k false true hs) $$ HsX
  icases H2 with ⟨-, HsX⟩
  ihave HsX := HsX $$ [Hp']
  · iapply (Entails.of_eq (held_true _).symm); iexact Hp'
  iapply Hk
  isplitr; · iexact Hrec
  isplitr; · iexact Hlev
  iframe
  iexists _; iexact HO

/-- The wait for forwarded chunk k's departure: its range of the result back. -/
theorem step_yswait {α : Type} {Q : α → sProp 𝕄} {kont : PUnit → Prog (TpuEff nD τ sig (Elt F) Λ₀ .tc) α} (k : Fin 17) (hn : n = 38) (hc : cYs k = 1) (ho : oX ⟨k.val, by omega⟩ = 1)
    {w : TpuEff nD τ sig (Elt F) Λ₀ .tc PUnit} {k' : ℕ}
    (hw : ∀ Kc : PUnit → sProp 𝕄, wpE (defs₀ (F := F)) 𝒱₀ (c : Thread nD τ) none Set.univ w Kc = waitSpec (c : Thread nD τ) Set.univ (.dma (dsem (jYs k))) k' Kc)
    (hk' : k' = NO (szO k.val)) :
    St m ρ K c cXs cXr cYs cYr cL kX kY kL sX sL oX oY oL pX pY n
      ⊢ iprop((St m ρ K c cXs cXr (Function.update cYs k 2) cYr cL kX kY kL sX sL (Function.update oX ⟨k.val, by omega⟩ 2) oY oL pX pY n -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hn
  unfold St
  iintro ⟨#Hrec, #Hlev, HcXs, HcXr, HcYs, HcYr, HcL, HkX, HkY, HkL, HsX, HsL, HxR, HoX, HoY, HoL, HpX, HpY, ⟨%W, HO⟩⟩ Hk
  ihave H1 := (bigSep_upd (fun k s => cellRes c (jYs k) s) cYs k 1 2 hc) $$ HcYs
  icases H1 with ⟨Hcell, HcYs⟩
  iapply (wait_cell m ρ K c (jYs k) hw (hk'.trans (jamt_ys k).symm) (Orem c 38) W
      (by rw [Orem_last, MayWait_zero]; iintro -; iempintro)) $$ [Hcell HO]
  · isplitr; · iexact Hrec
    isplitr; · iexact Hlev
    isplitl [Hcell]; · iexact Hcell
    iexact HO
  iintro ⟨Hz, Hp, HO⟩
  icases HO with ⟨%W', HO⟩
  ihave HcYs := HcYs $$ Hz
  ihave Hp' := (Entails.of_eq (dpay_ys m ρ c k)) $$ Hp
  ihave H2 := (bigSep_upd (fun k s => oRes m ρ c (tX k) s) oX ⟨k.val, by omega⟩ 1 2 ho) $$ HoX
  icases H2 with ⟨-, HoX⟩
  ihave HoX := HoX $$ [Hp']
  · iapply (Entails.of_eq (oRes_two m ρ c _).symm); iexact Hp'
  iapply Hk
  isplitr; · iexact Hrec
  isplitr; · iexact Hlev
  iframe
  iexists _; iexact HO

/-- The wait for the local copy: the device's own rows of the result, and the block's left half share back. -/
theorem step_lwait {α : Type} {Q : α → sProp 𝕄} {kont : PUnit → Prog (TpuEff nD τ sig (Elt F) Λ₀ .tc) α} (hn : n = 38) (hc : cL = 1)
    {w : TpuEff nD τ sig (Elt F) Λ₀ .tc PUnit} {k' : ℕ}
    (hw : ∀ Kc : PUnit → sProp 𝕄, wpE (defs₀ (F := F)) 𝒱₀ (c : Thread nD τ) none Set.univ w Kc = waitSpec (c : Thread nD τ) Set.univ (.dma (dsem jL)) k' Kc)
    (hk' : k' = NO 2048) :
    St m ρ K c cXs cXr cYs cYr cL kX kY kL sX sL oX oY oL pX pY n
      ⊢ iprop((St m ρ K c cXs cXr cYs cYr 2 kX kY kL sX true oX oY 2 pX pY n -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hn hc
  unfold St
  iintro ⟨#Hrec, #Hlev, HcXs, HcXr, HcYs, HcYr, HcL, HkX, HkY, HkL, HsX, HsL, HxR, HoX, HoY, HoL, HpX, HpY, ⟨%W, HO⟩⟩ Hk
  iapply (wait_cell m ρ K c jL hw (hk'.trans jamt_l.symm) (Orem c 38) W
      (by rw [Orem_last, MayWait_zero]; iintro -; iempintro)) $$ [HcL HO]
  · isplitr; · iexact Hrec
    isplitr; · iexact Hlev
    isplitl [HcL]; · iexact HcL
    iexact HO
  iintro ⟨HcL, Hp, HO⟩
  icases HO with ⟨%W', HO⟩
  ihave Hp' := (Entails.of_eq (dpay_l m ρ c)) $$ Hp
  icases Hp' with ⟨HoL', HsL'⟩
  iclear HsL HoL
  ihave HsL : held true (Xpt m ρ c Finset.univ fullShare.left) $$ [HsL']
  · iapply (Entails.of_eq (held_true _).symm); iexact HsL'
  ihave HoL : oRes m ρ c tL 2 $$ [HoL']
  · iapply (Entails.of_eq (oRes_two m ρ c _).symm); iexact HoL'
  iapply Hk
  isplitr; · iexact Hrec
  isplitr; · iexact Hlev
  iframe
  iexists _; iexact HO

end Steps

end Cert.KernelIdeal.AG

end
-- ==== Proof.KernelIdeal.Entry.lean ====
/-
  The entry of the body: the windows' two staging buffers cut into the ranges the protocol moves (the block: its left
  half share whole for the local copy, its right half share by x-chunk; the result: its 37 row ranges), the two
  barrier signals — each handing the mate the ranges of this device's result the mate will write —, and the barrier
  wait, which brings both mates' ranges.  And the exit: every cell closed, the block whole again, the 37 ranges of the
  result — each at the result's contents — one buffer again.
-/
import proofs.«900081_g7700000000000082_dist_ag_v7x_xy2x2_x_m2048_n512_f32_1_alg».proof.Proof.KernelIdeal.Data
import proofs.«900081_g7700000000000082_dist_ag_v7x_xy2x2_x_m2048_n512_f32_1_alg».proof.Proof.KernelIdeal.Steps

set_option maxRecDepth 16384

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A conjunct held while a count is below a bound is the conjunct when it is, -/
theorem held_dec_true {P : sProp 𝕄} {a b : ℕ} (h : a < b) : held (decide (a < b)) P = P := by
  rw [decide_eq_true h]; rfl
omit [FloatOps F] in
/-- and nothing when it is not. -/
theorem held_dec_false {P : sProp 𝕄} {a b : ℕ} (h : ¬ a < b) : held (decide (a < b)) P = iprop(emp) := by
  rw [decide_eq_false h]; rfl

section Entry
variable (K : Dev nD × Fin 74 → ℕ) (c : Dev nD)

/-- What the two buffers are cut into. -/
def bufs0 (c : Dev nD) : sProp 𝕄 :=
  iprop((bigSep Finset.univ fun k : Fin 19 => Xpt m ρ c (rectXs c k).set fullShare.right)
    ∗ Xpt m ρ c Finset.univ fullShare.left
    ∗ Xpt m ρ c (Finset.univ \ XU c) fullShare.right
    ∗ oRes m ρ c tL 0)

/-- Before the first signal (b = 0), between the two (1), before the barrier wait (2): the start's holdings without the
    barrier tokens spent, the buffers cut, the result's x-ranges (b = 0) and y-ranges (b ≤ 1) still in hand. -/
def P0 : sProp 𝕄 :=
  iprop(startAt m ρ K c ∗ bufs0 m ρ c
    ∗ (bigSep Finset.univ fun k : Fin 19 => Oany (F := F) c (rectO c (tX k)).set)
    ∗ (bigSep Finset.univ fun k : Fin 17 => Oany (F := F) c (rectO c (tY k)).set)
    ∗ ∃ W, owes (c : Thread nD τ) (Orem c 0) W)

omit [FloatOps F] in
theorem X_cut (c : Dev nD) :
    (((c : Thread nD τ).loc XB) ↦{fullShare} xb m ρ c : sProp 𝕄)
      ⊢ iprop((bigSep Finset.univ fun k : Fin 19 => Xpt m ρ c (rectXs c k).set fullShare.right)
          ∗ Xpt m ρ c Finset.univ fullShare.left ∗ Xpt m ρ c (Finset.univ \ XU c) fullShare.right) := by
  unfold Xpt XU
  iintro H
  ihave H2 := (pointsTo_share (PosShare.mem_left_op_right fullShare)).1 $$ H
  icases H2 with ⟨HL, HR⟩
  ihave H3 := (pointsTo_split_subset (ℓ := (c : Thread nD τ).loc XB) (q := fullShare.right) (f := xb m ρ c)
      (Finset.subset_univ (Finset.univ.biUnion fun k : Fin 19 => (rectXs c k).set))).1 $$ HR
  icases H3 with ⟨HU, HRest⟩
  ihave HU' := (Entails.of_eq (pointsTo_biUnion (ℓ := (c : Thread nD τ).loc XB) (q := fullShare.right) (f := xb m ρ c) Finset.univ
      (fun k : Fin 19 => (rectXs c k).set) (fun k _ k' _ h => xs_disjoint c k k' h))) $$ HU
  isplitl [HU']; · iexact HU'
  isplitl [HL]; · iexact HL
  iexact HRest

omit [FloatOps F] in
theorem X_join (c : Dev nD) :
    iprop((bigSep Finset.univ fun k : Fin 19 => Xpt m ρ c (rectXs c k).set fullShare.right)
          ∗ Xpt m ρ c Finset.univ fullShare.left ∗ Xpt m ρ c (Finset.univ \ XU c) fullShare.right)
      ⊢ (((c : Thread nD τ).loc XB) ↦{fullShare} xb m ρ c : sProp 𝕄) := by
  unfold Xpt XU
  iintro ⟨HU', HL, HRest⟩
  ihave HU := (Entails.of_eq (pointsTo_biUnion (ℓ := (c : Thread nD τ).loc XB) (q := fullShare.right) (f := xb m ρ c) Finset.univ
      (fun k : Fin 19 => (rectXs c k).set) (fun k _ k' _ h => xs_disjoint c k k' h)).symm) $$ HU'
  ihave HR := (pointsTo_split_subset (ℓ := (c : Thread nD τ).loc XB) (q := fullShare.right) (f := xb m ρ c)
      (Finset.subset_univ (Finset.univ.biUnion fun k : Fin 19 => (rectXs c k).set))).2 $$ [HU HRest]
  · isplitl [HU]; · iexact HU
    iexact HRest
  iapply (pointsTo_share (PosShare.mem_left_op_right fullShare)).2
  isplitl [HL]; · iexact HL
  iexact HR

omit [FloatOps F] in
theorem O_cut (c : Dev nD) (f : Buf (Elt F) ((c : Thread nD τ).loc OB)) :
    (((c : Thread nD τ).loc OB) ↦{fullShare} f : sProp 𝕄)
      ⊢ iprop((bigSep Finset.univ fun k : Fin 19 => Oany (F := F) c (rectO c (tX k)).set)
          ∗ (bigSep Finset.univ fun k : Fin 17 => Oany (F := F) c (rectO c (tY k)).set) ∗ Oany (F := F) c (rectO c tL).set) := by
  have e : (((c : Thread nD τ).loc OB) ↦{fullShare} f : sProp 𝕄)
      = bigSep Finset.univ fun t : Fin 37 => (((c : Thread nD τ).loc OB) ↦[(rectO c t).set]{fullShare} f : sProp 𝕄) := by
    rw [← pointsTo_biUnion (ℓ := (c : Thread nD τ).loc OB) (q := fullShare) (f := f) Finset.univ (fun t : Fin 37 => (rectO c t).set)
      (fun t _ t' _ h => regO_disjoint c t t' h), ← regO_cover c]
  rw [e, ← bigSep_fin37 (fun t : Fin 37 => Oany (F := F) c (rectO c t).set)]
  exact bigSep_mono fun t _ => show (((c : Thread nD τ).loc OB) ↦[(rectO c t).set]{fullShare} f : sProp 𝕄) ⊢ Oany (F := F) c (rectO c t).set from by
    unfold Oany; iintro Ht; iexists f; iexact Ht

omit [FloatOps F] in
theorem O_join (c : Dev nD) :
    iprop((bigSep Finset.univ fun k : Fin 19 => Opt m ρ c (rectO c (tX k)).set)
          ∗ (bigSep Finset.univ fun k : Fin 17 => Opt m ρ c (rectO c (tY k)).set) ∗ Opt m ρ c (rectO c tL).set)
      ⊢ (((c : Thread nD τ).loc OB) ↦{fullShare} oc m ρ c : sProp 𝕄) := by
  have e : (bigSep Finset.univ fun t : Fin 37 => (((c : Thread nD τ).loc OB) ↦[(rectO c t).set]{fullShare} oc m ρ c : sProp 𝕄))
      = (((c : Thread nD τ).loc OB) ↦{fullShare} oc m ρ c : sProp 𝕄) := by
    rw [← pointsTo_biUnion (ℓ := (c : Thread nD τ).loc OB) (q := fullShare) (f := oc m ρ c) Finset.univ (fun t : Fin 37 => (rectO c t).set)
      (fun t _ t' _ h => regO_disjoint c t t' h), ← regO_cover c]
  rw [← e, ← bigSep_fin37 (fun t : Fin 37 => Opt m ρ c (rectO c t).set)]
  unfold Opt
  exact BI.Entails.refl _

end Entry

/-! ## The handshake -/

section Handshake
variable (K : Dev nD × Fin 74 → ℕ) (c : Dev nD)

/-- The state with b of the two barrier signals sent. -/
def PB (b : ℕ) : sProp 𝕄 :=
  iprop(records m ρ K ∗ levAts L lv
    ∗ atPos ER (barCell c) 0 ∅ 0 ∗ cred (tallyAt (barCell c) () 2)
    ∗ held (decide (b < 1)) (dutyTok ER (barCell (xpeer c)) 0 false) ∗ held (decide (b < 2)) (dutyTok ER (barCell (ypeer c)) 0 true)
    ∗ (bigSep Finset.univ fun k : Fin 19 => cellRes c (jXs k) 0)
    ∗ (bigSep Finset.univ fun k : Fin 19 => cellRes c (jXr k) 1)
    ∗ (bigSep Finset.univ fun k : Fin 17 => cellRes c (jYs k) 0)
    ∗ (bigSep Finset.univ fun k : Fin 17 => cellRes c (jYr k) 1)
    ∗ cellRes c jL 0
    ∗ (bigSep Finset.univ fun k : Fin 19 => tokX c k)
    ∗ (bigSep Finset.univ fun k : Fin 17 => tokY c k)
    ∗ tokL c
    ∗ bufs0 m ρ c
    ∗ held (decide (b < 1)) (bigSep Finset.univ fun k : Fin 19 => Oany (F := F) c (rectO c (tX k)).set)
    ∗ held (decide (b < 2)) (bigSep Finset.univ fun k : Fin 17 => Oany (F := F) c (rectO c (tY k)).set)
    ∗ ∃ W, owes (c : Thread nD τ) (Orem c b) W)

omit [FloatOps F] in
/-- Which of the two barrier tokens (and of the two families of ranges) are still in hand after b signals. -/
theorem PB_held (P : sProp 𝕄) :
    held (decide ((0 : ℕ) < 1)) P = P ∧ held (decide ((0 : ℕ) < 2)) P = P ∧ held (decide ((1 : ℕ) < 1)) P = iprop(emp)
      ∧ held (decide ((1 : ℕ) < 2)) P = P ∧ held (decide ((2 : ℕ) < 1)) P = iprop(emp) ∧ held (decide ((2 : ℕ) < 2)) P = iprop(emp) :=
  ⟨rfl, rfl, rfl, rfl, rfl, rfl⟩

/-- The signal to the row-mate's barrier: its duty false, with this device's 19 x-ranges. -/
theorem step_sigx {α : Type} {Q : α → sProp 𝕄} {kont : PUnit → Prog (TpuEff nD τ sig (Elt F) Λ₀ .tc) α} (n' : Dev nD) (hn' : n' = xpeer c) :
    PB m ρ K c 0
      ⊢ iprop((PB m ρ K c 1 -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n' : Thread nD τ) barS 1) kont) Q) := by
  subst hn'
  unfold PB
  simp only [(PB_held _).1, (PB_held _).2.1, (PB_held _).2.2.1, (PB_held _).2.2.2.1]
  iintro ⟨#Hrec, #Hlev, Hat, Hcr, Htx, Hty, H1, H2, H3, H4, H5, H6, H7, H8, Hb, HoX, HoY, ⟨%W, HO⟩⟩ Hk
  iapply (Rounds.wp_signal 𝒱₀ ER (agRd m ρ) (c : Thread nD τ) none (dst := (xpeer c : Thread nD τ)) (κ := K (xpeer c, 0)) (d := false)
      (by rw [duties_bar]; exact Finset.mem_univ _) (amount_bar m ρ (xpeer c) false) () (Orem c 1) (Orem_succ c 0 (by decide))) $$ [HO Htx HoX]
  · isplitr; · iapply (inv_bar m ρ K (xpeer c)); iexact Hrec
    isplitl [HO]; · iexact HO
    isplitl [Htx]; · iexact Htx
    isplitl [HoX]
    · iapply (Entails.of_eq (show (bigSep Finset.univ fun k : Fin 19 => Oany (F := F) c (rectO c (tX k)).set)
          = (agRd m ρ).payload (barCell (xpeer c)) 0 false from by
        rw [payload_bar, show barPay (F := F) (xpeer c) false
          = bigSep Finset.univ fun k : Fin 19 => Oany (F := F) (xpeer (xpeer c)) (rectO (xpeer (xpeer c)) (tX k)).set from rfl, xpeer_xpeer]))
      iexact HoX
    · iapply (reached_bar m ρ K (xpeer c)); iexact Hrec
  iintro HO
  iapply Hk
  isplitr; · iexact Hrec
  isplitr; · iexact Hlev
  isplitl [Hat]; · iexact Hat
  isplitl [Hcr]; · iexact Hcr
  isplitr; · iempintro
  isplitl [Hty]; · iexact Hty
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hb]; · iexact Hb
  isplitr; · iempintro
  isplitl [HoY]; · iexact HoY
  iexists _; iexact HO

/-- The signal to the column-mate's barrier: its duty true, with this device's 17 y-ranges. -/
theorem step_sigy {α : Type} {Q : α → sProp 𝕄} {kont : PUnit → Prog (TpuEff nD τ sig (Elt F) Λ₀ .tc) α} (n' : Dev nD) (hn' : n' = ypeer c) :
    PB m ρ K c 1
      ⊢ iprop((PB m ρ K c 2 -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n' : Thread nD τ) barS 1) kont) Q) := by
  subst hn'
  unfold PB
  simp only [(PB_held _).2.2.1, (PB_held _).2.2.2.1, (PB_held _).2.2.2.2.1, (PB_held _).2.2.2.2.2]
  iintro ⟨#Hrec, #Hlev, Hat, Hcr, -, Hty, H1, H2, H3, H4, H5, H6, H7, H8, Hb, -, HoY, ⟨%W, HO⟩⟩ Hk
  iapply (Rounds.wp_signal 𝒱₀ ER (agRd m ρ) (c : Thread nD τ) none (dst := (ypeer c : Thread nD τ)) (κ := K (ypeer c, 0)) (d := true)
      (by rw [duties_bar]; exact Finset.mem_univ _) (amount_bar m ρ (ypeer c) true) () (Orem c 2) (Orem_succ c 1 (by decide))) $$ [HO Hty HoY]
  · isplitr; · iapply (inv_bar m ρ K (ypeer c)); iexact Hrec
    isplitl [HO]; · iexact HO
    isplitl [Hty]; · iexact Hty
    isplitl [HoY]
    · iapply (Entails.of_eq (show (bigSep Finset.univ fun k : Fin 17 => Oany (F := F) c (rectO c (tY k)).set)
          = (agRd m ρ).payload (barCell (ypeer c)) 0 true from by
        rw [payload_bar, show barPay (F := F) (ypeer c) true
          = bigSep Finset.univ fun k : Fin 17 => Oany (F := F) (ypeer (ypeer c)) (rectO (ypeer (ypeer c)) (tY k)).set from rfl, ypeer_ypeer]))
      iexact HoY
    · iapply (reached_bar m ρ K (ypeer c)); iexact Hrec
  iintro HO
  iapply Hk
  isplitr; · iexact Hrec
  isplitr; · iexact Hlev
  isplitl [Hat]; · iexact Hat
  isplitl [Hcr]; · iexact Hcr
  isplitr; · iempintro
  isplitr; · iempintro
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hb]; · iexact Hb
  isplitr; · iempintro
  isplitr; · iempintro
  iexists _; iexact HO

omit [FloatOps F] in
/-- The rest of the barrier cell's round as the ranges it is: the row-mate's x-ranges and the column-mate's y-ranges. -/
theorem rest_bar' :
    bigSep ((agRd (F := F) m ρ).duties (barCell c) 0 \ ∅) (fun d => (agRd (F := F) m ρ).payload (barCell c) 0 d)
      = iprop((bigSep Finset.univ fun k : Fin 19 => Oany (F := F) (xpeer c) (rectO (xpeer c) (tX k)).set)
          ∗ bigSep Finset.univ fun k : Fin 17 => Oany (F := F) (ypeer c) (rectO (ypeer c) (tY k)).set) :=
  (rest_bar m ρ c).trans rfl

omit [FloatOps F] in
/-- The state the handshake ends in, written out: nothing enqueued, every token and every range of a mate's result in hand,
    the result's own x- and y-ranges away. -/
theorem St_entry :
    St m ρ K c (fun _ => 0) (fun _ => 1) (fun _ => 0) (fun _ => 1) 0 (fun _ => true) (fun _ => true) true (fun _ => true) true
        (fun _ => 1) (fun _ => 1) 0 (fun _ => true) (fun _ => true) 2
      = iprop(records m ρ K ∗ levAts L lv
        ∗ (bigSep Finset.univ fun k : Fin 19 => cellRes c (jXs k) 0)
        ∗ (bigSep Finset.univ fun k : Fin 19 => cellRes c (jXr k) 1)
        ∗ (bigSep Finset.univ fun k : Fin 17 => cellRes c (jYs k) 0)
        ∗ (bigSep Finset.univ fun k : Fin 17 => cellRes c (jYr k) 1)
        ∗ cellRes c jL 0
        ∗ (bigSep Finset.univ fun k : Fin 19 => tokX c k)
        ∗ (bigSep Finset.univ fun k : Fin 17 => tokY c k)
        ∗ tokL c
        ∗ (bigSep Finset.univ fun k : Fin 19 => Xpt m ρ c (rectXs c k).set fullShare.right)
        ∗ Xpt m ρ c Finset.univ fullShare.left
        ∗ Xpt m ρ c (Finset.univ \ XU c) fullShare.right
        ∗ (bigSep Finset.univ fun _ : Fin 19 => iprop(emp))
        ∗ (bigSep Finset.univ fun _ : Fin 17 => iprop(emp))
        ∗ oRes m ρ c tL 0
        ∗ (bigSep Finset.univ fun k : Fin 19 => Oany (F := F) (xpeer c) (rectO (xpeer c) (tX k)).set)
        ∗ (bigSep Finset.univ fun k : Fin 17 => Oany (F := F) (ypeer c) (rectO (ypeer c) (tY k)).set)
        ∗ ∃ W, owes (c : Thread nD τ) (Orem c 2) W) := rfl

/-- The barrier wait: both mates are inside the kernel, and their ranges come with it. -/
theorem step_barwait {α : Type} {Q : α → sProp 𝕄} {kont : PUnit → Prog (TpuEff nD τ sig (Elt F) Λ₀ .tc) α} :
    PB m ρ K c 2
      ⊢ iprop((St m ρ K c (fun _ => 0) (fun _ => 1) (fun _ => 0) (fun _ => 1) 0 (fun _ => true) (fun _ => true) true (fun _ => true) true
              (fun _ => 1) (fun _ => 1) 0 (fun _ => true) (fun _ => true) 2 -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS 2) kont) Q) := by
  rw [St_entry m ρ K c]
  unfold PB bufs0
  simp only [(PB_held _).2.2.2.2.1, (PB_held _).2.2.2.2.2]
  iintro ⟨#Hrec, #Hlev, Hat, Hcr, -, -, H1, H2, H3, H4, H5, H6, H7, H8, ⟨HsX, HsL, HxR, HoL⟩, -, -, ⟨%W, HO⟩⟩ Hk
  iapply (Rounds.wp_wait_rest_token 𝒱₀ ER (agRd m ρ) (c : Thread nD τ) none (κ := K (c, 0))
      (wpE_semWait_eq 𝒱₀ (c : Thread nD τ) none Set.univ) (Set.mem_univ _) () (O := Orem c 2) (W := W) (R := 0) (m := 0) (T := ∅)
      (by rw [expect_bar])) $$ [Hcr HO Hat]
  · isplitr; · iapply (inv_bar m ρ K c); iexact Hrec
    isplitl [Hcr]; · iexact Hcr
    isplitl [HO]; · iexact HO
    isplitr
    · iapply (mayWait_rem c (.reg barS) 2 fun i hi => by
        rw [lvS_facts.2.2.2]; exact Nat.lt_of_lt_of_le (by decide) (lvS_facts.2.1 i hi))
      iexact Hlev
    iexact Hat
  iintro ⟨HO, -, -, Hpay⟩
  ihave Hp := (Entails.of_eq (rest_bar' m ρ c)) $$ Hpay
  icases Hp with ⟨HpX, HpY⟩
  iapply Hk
  isplitr; · iexact Hrec
  isplitr; · iexact Hlev
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HsX]; · iexact HsX
  isplitl [HsL]; · iexact HsL
  isplitl [HxR]; · iexact HxR
  isplitr; · iapply (Entails.of_eq (BI.bigSep_emp_const _).symm); iempintro
  isplitr; · iapply (Entails.of_eq (BI.bigSep_emp_const _).symm); iempintro
  isplitl [HoL]; · iexact HoL
  isplitl [HpX]; · iexact HpX
  isplitl [HpY]; · iexact HpY
  iexists _; iexact HO

end Handshake

/-! ## The exit -/

section Exit
variable (K : Dev nD × Fin 74 → ℕ) (c : Dev nD)

/-- Every cell closed, every range back: the kernel's semaphores at zero, the block whole, the result whole at its
    contents, nothing owed. -/
theorem St_finish {cXs cXr : Fin 19 → ℕ} {cYs cYr : Fin 17 → ℕ} {cL : ℕ} {kX : Fin 19 → Bool} {kY : Fin 17 → Bool} {kL : Bool}
    {sX : Fin 19 → Bool} {sL : Bool} {oX : Fin 19 → ℕ} {oY : Fin 17 → ℕ} {oL : ℕ} {pX : Fin 19 → Bool} {pY : Fin 17 → Bool} {n : ℕ}
    (h1 : ∀ k, cXs k = 2) (h2 : ∀ k, cXr k = 2) (h3 : ∀ k, cYs k = 2) (h4 : ∀ k, cYr k = 2) (h5 : cL = 2)
    (h6 : ∀ k, sX k = true) (h7 : sL = true) (h8 : ∀ k, oX k = 2) (h9 : ∀ k, oY k = 2) (h10 : oL = 2) (h11 : n = 38) :
    St m ρ K c cXs cXr cYs cYr cL kX kY kL sX sL oX oY oL pX pY n
      ⊢ iprop(Φ₁ c ∗ (∃ W, owes (c : Thread nD τ) 0 W)
          ∗ (((c : Thread nD τ).loc XB) ↦{fullShare} xb m ρ c) ∗ (((c : Thread nD τ).loc OB) ↦{fullShare} oc m ρ c)) := by
  obtain rfl : cXs = fun _ => 2 := funext h1
  obtain rfl : cXr = fun _ => 2 := funext h2
  obtain rfl : cYs = fun _ => 2 := funext h3
  obtain rfl : cYr = fun _ => 2 := funext h4
  obtain rfl : sX = fun _ => true := funext h6
  obtain rfl : oX = fun _ => 2 := funext h8
  obtain rfl : oY = fun _ => 2 := funext h9
  subst h5 h7 h10 h11
  unfold St
  iintro ⟨-, -, HcXs, HcXr, HcYs, HcYr, HcL, -, -, -, HsX, HsL, HxR, HoX, HoY, HoL, -, -, ⟨%W, HO⟩⟩
  ihave HcL := (Entails.of_eq (cellRes_two (F := F) c jL)) $$ HcL
  ihave HsL := (Entails.of_eq (held_true (Xpt m ρ c Finset.univ fullShare.left))) $$ HsL
  ihave HoL := (Entails.of_eq (oRes_two m ρ c tL)) $$ HoL
  isplitl [HcXs HcXr HcYs HcYr HcL]
  · unfold Φ₁
    rw [bigSep_fin73]
    isplitl [HcXs]; · iexact HcXs
    isplitl [HcXr]; · iexact HcXr
    isplitl [HcYs]; · iexact HcYs
    isplitl [HcYr]; · iexact HcYr
    iexact HcL
  isplitl [HO]
  · iexists W; rw [← Orem_last c]; iexact HO
  isplitl [HsX HsL HxR]
  · iapply (X_join m ρ c)
    isplitl [HsX]; · iexact HsX
    isplitl [HsL]; · iexact HsL
    iexact HxR
  · iapply (O_join m ρ c)
    isplitl [HoX]; · iexact HoX
    isplitl [HoY]; · iexact HoY
    iexact HoL

end Exit

end Cert.KernelIdeal.AG

end
-- ==== Proof.KernelIdeal.Offs.lean ====
/-
  The printed device-id chains and slice offsets in closed form, in the geometry's terms: every signal and x-transfer
  names the row-mate or the column-mate; every slice starts at a chunk's first row.
-/
import proofs.«900081_g7700000000000082_dist_ag_v7x_xy2x2_x_m2048_n512_f32_1_alg».proof.Proof.Geom
import proofs.«900081_g7700000000000082_dist_ag_v7x_xy2x2_x_m2048_n512_f32_1_alg».proof.Proof.Gen.KernelIdeal
import Idealize.ShloMosaic.Lib.Pipeline.Launch
import Idealize.ShloMosaic.Lib.Pipeline.Kit
import Idealize.ShloMosaic.Lib.Tactic

set_option maxRecDepth 16384

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The device-id chains -/

theorem dev1_eq (c : Dev nD) : (⟨k0_dev1 c, k0_dev1_lt c⟩ : Dev nD) = xpeer c := Fin.ext (k0_dev1_eq c)
theorem dev2_eq (c : Dev nD) : (⟨k0_dev2 c, k0_dev2_lt c⟩ : Dev nD) = ypeer c := Fin.ext (k0_dev2_eq c)

/-! ## The offsets -/

private abbrev row (x : ℕ) : Fin 2 → ℕ := ![x, 0]

theorem off2_eq (c : Dev nD) (r : Fin 2) : k0_off2 c (BitVec.ofNat 32 (16 * r.val)) = ![coff (dy c) r.val, 0] :=
  (k0_off2_eq c r).trans (congrArg row (by revert c r; decide))
theorem off1_eq (c : Dev nD) (r : Fin 2) : k0_off1 c (BitVec.ofNat 32 (16 * r.val)) = ![loO (xpeer c) r.val, 0] :=
  (k0_off1_eq c r).trans (congrArg row (by revert c r; decide))
theorem off4_eq (c : Dev nD) : k0_off4 c = ![coff (dy c) 2, 0] := (k0_off4_eq c).trans (congrArg row (by revert c; decide))
theorem off3_eq (c : Dev nD) : k0_off3 c = ![loO (xpeer c) 2, 0] := (k0_off3_eq c).trans (congrArg row (by revert c; decide))
theorem off6_eq (c : Dev nD) (r : Fin 14) : k0_off6 c (BitVec.ofNat 32 (64 + 64 * r.val)) = ![coff (dy c) (r.val + 3), 0] :=
  (k0_off6_eq c r).trans (congrArg row (by revert c r; decide))
theorem off5_eq (c : Dev nD) (r : Fin 14) : k0_off5 c (BitVec.ofNat 32 (64 + 64 * r.val)) = ![loO (xpeer c) (r.val + 3), 0] :=
  (k0_off5_eq c r).trans (congrArg row (by revert c r; decide))
theorem off7_eq (c : Dev nD) (r : Fin 2) : k0_off7 c (BitVec.ofNat 32 (960 + 64 * r.val)) = ![loO (xpeer c) (r.val + 17), 0] :=
  (k0_off7_eq c r).trans (congrArg row (by revert c r; decide))
theorem lit960_eq (c : Dev nD) : (![960, 0] : Fin 2 → ℕ) = ![coff (dy c) 17, 0] := congrArg row (by revert c; decide)
theorem lit1024_eq (c : Dev nD) : (![1024, 0] : Fin 2 → ℕ) = ![coff (dy c) 18, 0] := congrArg row (by revert c; decide)
theorem off8_eq (c : Dev nD) : k0_off8 c = ![loO c 36, 0] := (k0_off8_eq c).trans (congrArg row (by revert c; decide))
theorem off9_eq (c : Dev nD) (r : Fin 2) : k0_off9 c (BitVec.ofNat 32 (16 * r.val)) = ![loO c r.val, 0] :=
  (k0_off9_eq c r).trans (congrArg row (by revert c r; decide))
theorem off10_eq (c : Dev nD) : k0_off10 c = ![loO c 2, 0] := (k0_off10_eq c).trans (congrArg row (by revert c; decide))
theorem off11_eq (c : Dev nD) (r : Fin 14) : k0_off11 c (BitVec.ofNat 32 (64 + 64 * r.val)) = ![loO c (r.val + 3), 0] :=
  (k0_off11_eq c r).trans (congrArg row (by revert c r; decide))

end Cert.KernelIdeal.AG

end
-- ==== Proof.KernelIdeal.Body.lean ====
/-
  The body of the all-gather on one device, run from the state assertion one step at a time in program order: the two
  barrier signals and the barrier wait; the 19 x-chunks sent to the row-mate; the local copy started; for each of the
  17 chunks the column-mate lacks, the wait for its landing and its forwarding; the two remaining landings; the 17
  forwarded chunks' landings; the departures of all 36 transfers; the local copy's completion.  Each step is one of the
  step lemmas at the chunk's index, with the printed offset's closed form.
-/
import proofs.«900081_g7700000000000082_dist_ag_v7x_xy2x2_x_m2048_n512_f32_1_alg».proof.Proof.KernelIdeal.Entry
import proofs.«900081_g7700000000000082_dist_ag_v7x_xy2x2_x_m2048_n512_f32_1_alg».proof.Proof.KernelIdeal.Offs

set_option maxRecDepth 16384

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def bodyPre' (c : Dev nD) : sProp 𝕄 :=
  iprop(start m ρ c ∗ (dats m ρ 0 c).owesAt () t₀.castSucc
    ∗ (∃ d, stg c XB ((dats m ρ 0 c).before (0 : Fin 2) t₀ d))
    ∗ (∃ d, stg c OB ((dats m ρ 0 c).before (1 : Fin 2) t₀ d)))

def bodyPost (c : Dev nD) : sProp 𝕄 :=
  iprop(Φ₁ c ∗ (dats m ρ 0 c).owesAt () t₀.succ ∗ stg c XB (xb m ρ c) ∗ stg c OB (oc m ρ c))

/-- The body's precondition, with the two staging buffers cut into the ranges the protocol moves. -/
theorem pre_intro (c : Dev nD) : bodyPre' m ρ c ⊢ iprop(∃ K, PB m ρ K c 0) := by
  unfold bodyPre' start startAt
  iintro ⟨⟨%K, #Hrec, #Hlev, Hat, Hcr, Htx, Hty, H1, H2, H3, H4, H5, H6, H7, H8⟩, Ho, ⟨%d0, %g0, %hg0, Hx⟩, ⟨%d1, %g1, %hg1, Hout⟩⟩
  have hx : g0 = xb m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = Orem c 0 from (Orem_zero c).symm]
  ihave HX := (X_cut m ρ c) $$ Hx
  icases HX with ⟨HsX, HsL, HxR⟩
  ihave HOo := (O_cut c g1) $$ Hout
  icases HOo with ⟨HoX, HoY, HoL⟩
  iexists K
  unfold PB bufs0
  isplitr; · iexact Hrec
  isplitr; · iexact Hlev
  isplitl [Hat]; · iexact Hat
  isplitl [Hcr]; · iexact Hcr
  isplitl [Htx]; · (iapply (Entails.of_eq (held_dec_true (by decide)).symm); iexact Htx)
  isplitl [Hty]; · (iapply (Entails.of_eq (held_dec_true (by decide)).symm); iexact Hty)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HsX HsL HxR HoL]
  · isplitl [HsX]; · iexact HsX
    isplitl [HsL]; · iexact HsL
    isplitl [HxR]; · iexact HxR
    iapply (Entails.of_eq (oRes_zero m ρ c tL).symm); iexact HoL
  isplitl [HoX]; · (iapply (Entails.of_eq (held_dec_true (by decide)).symm); iexact HoX)
  isplitl [HoY]; · (iapply (Entails.of_eq (held_dec_true (by decide)).symm); iexact HoY)
  iexists W; iexact HO

/-- The exit's holdings are the body's postcondition. -/
theorem post_intro (c : Dev nD) :
    iprop(Φ₁ c ∗ (∃ W, owes (c : Thread nD τ) 0 W)
        ∗ (((c : Thread nD τ).loc XB) ↦{fullShare} xb m ρ c) ∗ (((c : Thread nD τ).loc OB) ↦{fullShare} oc m ρ c))
      ⊢ bodyPost m ρ c := by
  unfold bodyPost Dat.owesAt Pipeline.owesWithin
  rw [show (dats m ρ 0 c).owed t₀.succ = 0 from rfl]
  iintro ⟨H1, ⟨%W, HO⟩, Hx, Hout⟩
  isplitl [H1]; · iexact H1
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

/-- At the return: the postcondition itself suffices. -/
theorem ret_intro (c : Dev nD) {P : sProp 𝕄} {Q : PUnit → sProp 𝕄} (h : P ⊢ Q ⟨⟩) :
    P ⊢ wp frame (wpE (defs₀ (F := F)) 𝒱₀ (c : Thread nD τ) none) Set.univ (Prog.ret (⟨⟩ : PUnit)) Q := by
  rw [wp_ret]
  iintro H
  imodintro
  iapply h; iexact H

section Chain
variable (c : Dev nD) (K : Dev nD × Fin 74 → ℕ)

set_option hygiene false in
macro "np " p:ident : tactic =>
  `(tactic| (sl_unfold [$p]; simp only [semSignalWord, semWaitWord, Prog.lift, Prog.bind_op, Prog.bind_ret, Prog.pure_eq_ret, wp_deviceId]))
set_option hygiene false in
macro "xs " k:term:max d:term:max e1:term:max e2:term:max : tactic =>
  `(tactic| refine step_of (step_xsend m ρ K c $k _ (Fin.ext $d) (by decide) (by rfl) (by rfl) (by rfl) (by rfl) $e1 $e2 rfl) ?_)
set_option hygiene false in
macro "ys " k:term:max d:term:max e:term:max : tactic =>
  `(tactic| refine step_of (step_ysend m ρ K c $k _ (Fin.ext $d) (by decide) (by rfl) (by rfl) (by rfl) (by rfl) $e rfl) ?_)
set_option hygiene false in
macro "xw " k:term:max : tactic =>
  `(tactic| refine step_of (step_xwait m ρ K c $k (by decide) (by rfl) (wpE_waitDma2_eq 𝒱₀ (c : Thread nD τ) none Set.univ) rfl) ?_)
set_option hygiene false in
macro "yw " k:term:max : tactic =>
  `(tactic| refine step_of (step_ywait m ρ K c $k (by decide) (by rfl) (wpE_waitDma2_eq 𝒱₀ (c : Thread nD τ) none Set.univ) rfl) ?_)
set_option hygiene false in
macro "xd " k:term:max : tactic =>
  `(tactic| refine step_of (step_xswait m ρ K c $k (by decide) (by rfl) (by rfl) (wpE_waitDma2_eq 𝒱₀ (c : Thread nD τ) none Set.univ) rfl) ?_)
set_option hygiene false in
macro "yd " k:term:max : tactic =>
  `(tactic| refine step_of (step_yswait m ρ K c $k (by decide) (by rfl) (by rfl) (wpE_waitDma2_eq 𝒱₀ (c : Thread nD τ) none Set.univ) rfl) ?_)

set_option maxHeartbeats 4000000 in
/-- The body from the cut buffers to the exit's holdings. -/
theorem sound_body (c : Dev nD) :
    bodyPre' m ρ c ⊢ wp frame (wpE (defs₀ (F := F)) 𝒱₀ (c : Thread nD τ) none) Set.univ
      (cc0_body (Memref.whole cc0_stg0_0) (Memref.isWhole_whole _) (Memref.whole cc0_stg1_0) (Memref.isWhole_whole _)
        cc0_scratch0 cc0_scratch1 cc0_scratch2 cc0_scratch3 cc0_scratch4) (fun _ => bodyPost m ρ c) := by
  refine (pre_intro m ρ c).trans (BI.BIClass.exists_elim fun K => ?_)
  sl_unfold [cc0_body]
  sl_unfold [k0_part33]
  np k0_part1
  refine step_of (step_sigx m ρ K c _ (dev1_eq c)) ?_
  refine step_of (step_sigy m ρ K c _ (dev2_eq c)) ?_
  refine step_of (step_barwait m ρ K c) ?_
  np k0_part2
  xs 0 (k0_dev3_eq c) (off2_eq c 0) (off1_eq c 0)
  xs 1 (k0_dev4_eq c) (off2_eq c 1) (off1_eq c 1)
  np k0_part3
  xs 2 (k0_dev5_eq c) (off4_eq c) (off3_eq c)
  xs 3 (k0_dev6_eq c) (off6_eq c 0) (off5_eq c 0)
  xs 4 (k0_dev7_eq c) (off6_eq c 1) (off5_eq c 1)
  np k0_part4
  xs 5 (k0_dev8_eq c) (off6_eq c 2) (off5_eq c 2)
  xs 6 (k0_dev9_eq c) (off6_eq c 3) (off5_eq c 3)
  np k0_part5
  xs 7 (k0_dev10_eq c) (off6_eq c 4) (off5_eq c 4)
  xs 8 (k0_dev11_eq c) (off6_eq c 5) (off5_eq c 5)
  np k0_part6
  xs 9 (k0_dev12_eq c) (off6_eq c 6) (off5_eq c 6)
  xs 10 (k0_dev13_eq c) (off6_eq c 7) (off5_eq c 7)
  np k0_part7
  xs 11 (k0_dev14_eq c) (off6_eq c 8) (off5_eq c 8)
  xs 12 (k0_dev15_eq c) (off6_eq c 9) (off5_eq c 9)
  np k0_part8
  xs 13 (k0_dev16_eq c) (off6_eq c 10) (off5_eq c 10)
  xs 14 (k0_dev17_eq c) (off6_eq c 11) (off5_eq c 11)
  xs 15 (k0_dev18_eq c) (off6_eq c 12) (off5_eq c 12)
  np k0_part9
  xs 16 (k0_dev19_eq c) (off6_eq c 13) (off5_eq c 13)
  xs 17 (k0_dev20_eq c) (lit960_eq c) (off7_eq c 0)
  np k0_part10
  xs 18 (k0_dev21_eq c) (lit1024_eq c) (off7_eq c 1)
  refine step_of (step_lcopy m ρ K c rfl rfl rfl rfl (off8_eq c)) ?_
  xw 0
  ys 0 (k0_dev22_eq c) (off9_eq c 0)
  np k0_part11
  xw 1
  ys 1 (k0_dev23_eq c) (off9_eq c 1)
  xw 2
  np k0_part12
  ys 2 (k0_dev24_eq c) (off10_eq c)
  xw 3
  np k0_part13
  ys 3 (k0_dev25_eq c) (off11_eq c 0)
  xw 4
  ys 4 (k0_dev26_eq c) (off11_eq c 1)
  np k0_part14
  xw 5
  ys 5 (k0_dev27_eq c) (off11_eq c 2)
  xw 6
  np k0_part15
  ys 6 (k0_dev28_eq c) (off11_eq c 3)
  xw 7
  ys 7 (k0_dev29_eq c) (off11_eq c 4)
  np k0_part16
  xw 8
  ys 8 (k0_dev30_eq c) (off11_eq c 5)
  xw 9
  np k0_part17
  ys 9 (k0_dev31_eq c) (off11_eq c 6)
  xw 10
  np k0_part18
  ys 10 (k0_dev32_eq c) (off11_eq c 7)
  xw 11
  ys 11 (k0_dev33_eq c) (off11_eq c 8)
  np k0_part19
  xw 12
  ys 12 (k0_dev34_eq c) (off11_eq c 9)
  xw 13
  np k0_part20
  ys 13 (k0_dev35_eq c) (off11_eq c 10)
  xw 14
  np k0_part21
  ys 14 (k0_dev36_eq c) (off11_eq c 11)
  xw 15
  ys 15 (k0_dev37_eq c) (off11_eq c 12)
  np k0_part22
  xw 16
  ys 16 (k0_dev38_eq c) (off11_eq c 13)
  xw 17
  np k0_part23
  xw 18
  yw 0
  yw 1
  yw 2
  np k0_part24
  yw 3
  yw 4
  yw 5
  np k0_part25
  yw 6
  yw 7
  yw 8
  yw 9
  np k0_part26
  yw 10
  yw 11
  yw 12
  yw 13
  np k0_part27
  yw 14
  yw 15
  yw 16
  xd 0
  np k0_part28
  xd 1
  xd 2
  xd 3
  xd 4
  xd 5
  xd 6
  np k0_part29
  xd 7
  xd 8
  xd 9
  xd 10
  xd 11
  xd 12
  np k0_part30
  xd 13
  xd 14
  xd 15
  xd 16
  xd 17
  xd 18
  np k0_part31
  yd 0
  yd 1
  yd 2
  yd 3
  yd 4
  yd 5
  np k0_part32
  yd 6
  yd 7
  yd 8
  yd 9
  yd 10
  yd 11
  yd 12
  yd 13
  yd 14
  yd 15
  yd 16
  refine step_of (step_lwait m ρ K c (by decide) (by rfl) (wpE_waitDma2_eq 𝒱₀ (c : Thread nD τ) none Set.univ) rfl) ?_
  refine ret_intro c ?_
  exact (St_finish m ρ K c (by decide +kernel) (by decide +kernel) (by decide +kernel) (by decide +kernel) (by rfl) (by decide +kernel) (by rfl)
    (fun k => by fin_cases k <;> rfl) (by decide +kernel) (by rfl) (by decide)).trans (post_intro m ρ c)

end Chain

/-- The library's body obligation on device c. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1 cc0_scratch2 cc0_scratch3 cc0_scratch4) (fun _ => bodyPost m ρ c)
  exact sound_body m ρ c

end Cert.KernelIdeal.AG

end
-- ==== Proof.KernelIdeal.Run.lean ====
/-
  The run of the all-gather: the launch theorem applied to the body obligation and the launch's side conditions.
-/
import proofs.«900081_g7700000000000082_dist_ag_v7x_xy2x2_x_m2048_n512_f32_1_alg».proof.Proof.KernelIdeal.Run0
import proofs.«900081_g7700000000000082_dist_ag_v7x_xy2x2_x_m2048_n512_f32_1_alg».proof.Proof.KernelIdeal.Body

set_option maxRecDepth 16384

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- At the compiled mesh of four devices, from any memory with zero counters: every weakly fair execution of @main — the
    four kernels handshaking on the runtime's barrier semaphore, then gathering — terminates, and every final state has
    each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.AG.run_main' depends on axioms: [propext, Classical.choice, Quot.sound] -/
#guard_msgs in #print axioms run_main

end Cert.KernelIdeal.AG

end
-- ==== Proof.KernelIdeal.Value.lean ====
/-
  What the all-gather's result is: every element of a device's result is the element of the whole array at the same
  index.  The result buffer is written back whole; its contents function names, for element i, the device whose block
  holds it, and that device's block is block (i's row / 2048) of the whole array: so the element read is element i.
-/
import proofs.«900081_g7700000000000082_dist_ag_v7x_xy2x2_x_m2048_n512_f32_1_alg».proof.Proof.KernelIdeal.Run0
import Idealize.ShloMosaic.Lib.Layout

set_option maxRecDepth 16384

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The staged block is the argument array (its one block is the whole of it). -/
theorem xb_eq (c : Dev nD) : xb m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- The result array after the run holds the protocol's contents function. -/
theorem finalA_o (c : Dev nD) : finalA m ρ c (1 : Fin 2) = oc m ρ c := by
  have ho : (win0_1.blk (0 : Fin 1)).view.read (Elt F) (finalA m ρ c (1 : Fin 2)) = oc m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  have hz : (fun a => (win0_1.index (0 : Fin 1)) a * main_v1.ty.shape.size a) = fun _ => 0 := funext fun a => by fin_cases a <;> decide
  have hr := fun f => Memref.read_access_unit_zero (Elt F) main_v1 hz (fun a => by fin_cases a <;> decide) f
  rw [hr] at ho
  exact ho

theorem meshBlock_x : ∀ c' : Dev nD, ((Layout.meshBlock [2, 2] ![[0], []] c') 0).val = dx c' ∧ ((Layout.meshBlock [2, 2] ![[0], []] c') 1).val = 0 := by
  decide

/-- When every device's argument is its block of the whole array X, every device's result is X. -/
theorem oc_eq_whole (c : Dev nD) (X : (⟨2, ![4096, 512]⟩ : Shape).Idx → Elt F .f32)
    (hag : ∀ c' : Dev nD, m ((c' : Thread nD τ).loc main_arg0)
      = Layout.blockN ⟨2, ![2048, 512]⟩ ⟨2, ![4096, 512]⟩ (Layout.meshBlock [2, 2] ![[0], []] c') X) :
    oc m ρ c = X := by
  funext i
  unfold oc
  rw [xb_eq, hag, Layout.blockN_apply]
  congr 1
  funext b
  refine Fin.ext ?_
  rw [Layout.TilesN.idx_val]
  obtain ⟨h0, h1⟩ := meshBlock_x (srcDev c i)
  fin_cases b
  · show ((Layout.meshBlock [2, 2] ![[0], []] (srcDev c i)) 0).val * 2048 + (i 0).val % 2048 = (i 0).val
    rw [h0, dx_srcDev]; exact Nat.div_add_mod' _ _
  · show ((Layout.meshBlock [2, 2] ![[0], []] (srcDev c i)) 1).val * 512 + (i 1).val % 512 = (i 1).val
    rw [h1, Nat.zero_mul, Nat.zero_add]; exact Nat.mod_eq_of_lt (i 1).isLt

end Cert.KernelIdeal.AG

end
-- ==== Proof.lean ====
/- A 2 × 2 all-gather by remote copies: device (x, y) sends its row-mate 1088 rows of its 2048 × 512 block in 19 chunks,
   copies its own block into its rows of the 4096 × 512 result, forwards the first 17 chunks it receives to its
   column-mate, and waits for everything; the reference returns the whole array.  Each program's frame is its run with
   the results' values dropped; the kernel's run (Proof/KernelIdeal/Run.lean, and the same text at the word level under
   Proof/Kernel/) ends with every device's result at "element i is element (i mod 2048 rows) of the block of the device
   it came from", which is the whole array when every device's block is its block of the whole array
   (Proof/KernelIdeal/Value.lean); the reference's run is the empty program's. -/
import proofs.«900081_g7700000000000082_dist_ag_v7x_xy2x2_x_m2048_n512_f32_1_alg».proof.Defs
import proofs.«900081_g7700000000000082_dist_ag_v7x_xy2x2_x_m2048_n512_f32_1_alg».proof.Proof.Gen.Kernel
import proofs.«900081_g7700000000000082_dist_ag_v7x_xy2x2_x_m2048_n512_f32_1_alg».proof.Proof.Gen.KernelIdeal
import proofs.«900081_g7700000000000082_dist_ag_v7x_xy2x2_x_m2048_n512_f32_1_alg».proof.Proof.Gen.ReferenceIdeal
import proofs.«900081_g7700000000000082_dist_ag_v7x_xy2x2_x_m2048_n512_f32_1_alg».proof.Proof.Gen.Pre_finite_inputs_Kernel
import proofs.«900081_g7700000000000082_dist_ag_v7x_xy2x2_x_m2048_n512_f32_1_alg».proof.Proof.Gen.Pre_finite_inputs_ReferenceIdeal
import proofs.«900081_g7700000000000082_dist_ag_v7x_xy2x2_x_m2048_n512_f32_1_alg».proof.Proof.Kernel.Run
import proofs.«900081_g7700000000000082_dist_ag_v7x_xy2x2_x_m2048_n512_f32_1_alg».proof.Proof.KernelIdeal.Run
import proofs.«900081_g7700000000000082_dist_ag_v7x_xy2x2_x_m2048_n512_f32_1_alg».proof.Proof.KernelIdeal.Value
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem

/-- The reference is the empty program: it runs, and every buffer ends as it began. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ (d : Dev Cert.ReferenceIdeal.nD) (b : Ref Cert.ReferenceIdeal.sig .tc),
        r.2.mem ((d.tc : Thread Cert.ReferenceIdeal.nD Cert.ReferenceIdeal.τ).loc b) = m' ((d.tc : Thread Cert.ReferenceIdeal.nD Cert.ReferenceIdeal.τ).loc b)) :=
  (θ_run _ _ _).mono (fun _ h d b => (h d b).trans rfl)
    (StableHlo.run_seq (by decide) (by decide) (Cert.ReferenceIdeal.defs (F := Ideal)) (Cert.ReferenceIdeal.main (F := Ideal)) (fun _ => [])
      (fun _ => rfl) (fun _ => trivial) m' ρ')

theorem frame_p : Cert.frame_Kernel (hKernel := Cert.Kernel.Gen.facts) (hPre_finite_inputs_Kernel := Cert.Pre_finite_inputs_Kernel.Gen.facts) := fun m ρ _ =>
  (θ_run Cert.Kernel.defs _ _).mono (fun _ h c => (h c (0 : Fin 2)).trans (Cert.Kernel.AG.finalA_x m ρ c)) (Cert.Kernel.AG.run_main (F := Bits) m ρ)

theorem frame_pi : Cert.frame_KernelIdeal (hKernelIdeal := Cert.KernelIdeal.Gen.facts) (hPre_finite_inputs_Kernel := Cert.Pre_finite_inputs_Kernel.Gen.facts) := fun m ρ _ =>
  (θ_run Cert.KernelIdeal.defs _ _).mono (fun _ h c => (h c (0 : Fin 2)).trans (Cert.KernelIdeal.AG.finalA_x m ρ c)) (Cert.KernelIdeal.AG.run_main (F := Ideal) m ρ)

theorem frame_ri : Cert.frame_ReferenceIdeal (hReferenceIdeal := Cert.ReferenceIdeal.Gen.facts) (hPre_finite_inputs_ReferenceIdeal := Cert.Pre_finite_inputs_ReferenceIdeal.Gen.facts) := fun m ρ _ =>
  (θ_run Cert.ReferenceIdeal.defs _ _).mono (fun _ h c => h c _) (ref_run m ρ)

/-- Every device's result is the whole array the reference returns: each device's block is its block of it, and an
    element of the result is the element of the source device's block at the same row within the block. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) := by
  intro m ρ m' ρ' _ hagree
  refine ⟨m' (((0 : Dev Cert.ReferenceIdeal.nD).tc : Thread Cert.ReferenceIdeal.nD Cert.ReferenceIdeal.τ).loc Cert.ReferenceIdeal.main_arg0), ?_, ?_⟩
  · exact (θ_run Cert.KernelIdeal.defs _ _).mono (fun _ h c =>
      ⟨(h c (1 : Fin 2)).trans ((Cert.KernelIdeal.AG.finalA_o m ρ c).trans (Cert.KernelIdeal.AG.oc_eq_whole m ρ c _ hagree)),
        (h c (0 : Fin 2)).trans (Cert.KernelIdeal.AG.finalA_x m ρ c)⟩) (Cert.KernelIdeal.AG.run_main (F := Ideal) m ρ)
  · exact (θ_run Cert.ReferenceIdeal.defs _ _).mono (fun _ h => ⟨h 0 _, h 0 _⟩) (ref_run m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, frame_pi, frame_ri, trivial, algebraic⟩

end Cert.Proof

end
